-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S10x128 : Shape := ⟨2, ![10, 128]⟩
abbrev S10x10 : Shape := ⟨2, ![10, 10]⟩
abbrev S1x10 : Shape := ⟨2, ![1, 10]⟩
abbrev S2x1600000 : Shape := ⟨2, ![2, 1600000]⟩
abbrev S50000 : Shape := ⟨1, ![50000]⟩
abbrev S_ : Shape := ⟨0, ![]⟩
abbrev S1x1600000 : Shape := ⟨2, ![1, 1600000]⟩
abbrev S1600000 : Shape := ⟨1, ![1600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S10x128 : S_.BroadcastsInDim S10x128 (![] : Fin 0 → Fin S10x128.rank)
  reducesTo_S10x128_S_d0_1 : S10x128.ReducesTo [0, 1] S_
  bcast_S_S10x10 : S_.BroadcastsInDim S10x10 (![] : Fin 0 → Fin S10x10.rank)
  reducesTo_S10x10_S_d0_1 : S10x10.ReducesTo [0, 1] S_
  bcast_S_S1x10 : S_.BroadcastsInDim S1x10 (![] : Fin 0 → Fin S1x10.rank)
  reducesTo_S1x10_S_d0_1 : S1x10.ReducesTo [0, 1] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg6 : IVec S2x1600000 32) (main_v28 : IVec S_ 1) (main_v33 : IVec S_ 1) : IVec S_ 1 :=
  let main_v34 : IVec S_ 1 := andi main_v28 main_v33
  let main_v35 : IVec S1x1600000 32 := (extractStridedSlice S1x1600000 ![0, 0] · slices_S2x1600000_S1x1600000_0_0) main_arg6
  let main_v36 : IVec S1600000 32 := shapeCast S1600000 main_v35 shapeCasts_S1x1600000_S1600000
  let main_c_12 : IVec S_ 32 := constantI S_ 32 50000#32
  let main_v37 : IVec S1600000 32 := broadcastInDim S1600000 ![] bcast_S_S1600000 main_c_12
  let main_v38 : IVec S1600000 1 := cmpi .slt main_v36 main_v37
  let main_c_13 : IVec S_ 1 := constantI S_ 1 1#1
  let main_v39 : IVec S_ 1 := (fun x v => Host.reduce IntOp.andi x v reducesTo_S1600000_S_d0 h_S_) main_v38 main_c_13
  let main_v40 : IVec S_ 1 := andi main_v34 main_v39
  main_v40

def fn_part1 {F : FTy → Type} [FloatOps F] (main_arg4 : FVec F S10x10 .f32) (main_arg5 : FVec F S1x10 .f32) (main_arg6 : IVec S2x1600000 32) (main_v13 : IVec S_ 1) (main_v16 : IVec S10x10 1) : IVec S_ 1 :=
  let main_c_5 : IVec S_ 1 := constantI S_ 1 1#1
  let main_v17 : IVec S_ 1 := (fun x v => Host.reduce IntOp.andi x v reducesTo_S10x10_S_d0_1 h_S_) main_v16 main_c_5
  let main_v18 : IVec S_ 1 := andi main_v13 main_v17
  let main_v19 : FVec F S10x10 .f32 := Host.absf main_arg4
  let main_cst_6 : FVec F S_ .f32 := constant S_ .f32 0x7F800000#32
  let main_v20 : FVec F S10x10 .f32 := broadcastInDim S10x10 ![] bcast_S_S10x10 main_cst_6
  let main_v21 : IVec S10x10 1 := cmpf .olt main_v19 main_v20
  let main_c_7 : IVec S_ 1 := constantI S_ 1 1#1
  let main_v22 : IVec S_ 1 := (fun x v => Host.reduce IntOp.andi x v reducesTo_S10x10_S_d0_1 h_S_) main_v21 main_c_7
  let main_v23 : IVec S_ 1 := andi main_v18 main_v22
  let main_v24 : FVec F S1x10 .f32 := Host.absf main_arg5
  let main_cst_8 : FVec F S_ .f32 := constant S_ .f32 0x7F800000#32
  let main_v25 : FVec F S1x10 .f32 := broadcastInDim S1x10 ![] bcast_S_S1x10 main_cst_8
  let main_v26 : IVec S1x10 1 := cmpf .olt main_v24 main_v25
  let main_c_9 : IVec S_ 1 := constantI S_ 1 1#1
  let main_v27 : IVec S_ 1 := (fun x v => Host.reduce IntOp.andi x v reducesTo_S1x10_S_d0_1 h_S_) main_v26 main_c_9
  let main_v28 : IVec S_ 1 := andi main_v23 main_v27
  let main_v29 : IVec S1x1600000 32 := (extractStridedSlice S1x1600000 ![0, 0] · slices_S2x1600000_S1x1600000_0_0) main_arg6
  let main_v30 : IVec S1600000 32 := shapeCast S1600000 main_v29 shapeCasts_S1x1600000_S1600000
  let main_c_10 : IVec S_ 32 := constantI S_ 32 0#32
  let main_v31 : IVec S1600000 32 := broadcastInDim S1600000 ![] bcast_S_S1600000 main_c_10
  let main_v32 : IVec S1600000 1 := cmpi .sge main_v30 main_v31
  let main_c_11 : IVec S_ 1 := constantI S_ 1 1#1
  let main_v33 : IVec S_ 1 := (fun x v => Host.reduce IntOp.andi x v reducesTo_S1600000_S_d0 h_S_) main_v32 main_c_11
  fn_part2 (F := F) main_arg6 main_v28 main_v33

def fn {F : FTy → Type} [FloatOps F] (main_arg0 : FVec F S50000x128 .f32) (main_arg1 : FVec F S10x128 .f32) (main_arg2 : FVec F S10x128 .f32) (main_arg3 : FVec F S10x10 .f32) (main_arg4 : FVec F S10x10 .f32) (main_arg5 : FVec F S1x10 .f32) (main_arg6 : IVec S2x1600000 32) (main_arg7 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S10x128 .f32 := Host.absf main_arg1
  let main_cst_0 : FVec F S_ .f32 := constant S_ .f32 0x7F800000#32
  let main_v5 : FVec F S10x128 .f32 := broadcastInDim S10x128 ![] bcast_S_S10x128 main_cst_0
  let main_v6 : IVec S10x128 1 := cmpf .olt main_v4 main_v5
  let main_c_1 : IVec S_ 1 := constantI S_ 1 1#1
  let main_v7 : IVec S_ 1 := (fun x v => Host.reduce IntOp.andi x v reducesTo_S10x128_S_d0_1 h_S_) main_v6 main_c_1
  let main_v8 : IVec S_ 1 := andi main_v3 main_v7
  let main_v9 : FVec F S10x128 .f32 := Host.absf main_arg2
  let main_cst_2 : FVec F S_ .f32 := constant S_ .f32 0x7F800000#32
  let main_v10 : FVec F S10x128 .f32 := broadcastInDim S10x128 ![] bcast_S_S10x128 main_cst_2
  let main_v11 : IVec S10x128 1 := cmpf .olt main_v9 main_v10
  let main_c_3 : IVec S_ 1 := constantI S_ 1 1#1
  let main_v12 : IVec S_ 1 := (fun x v => Host.reduce IntOp.andi x v reducesTo_S10x128_S_d0_1 h_S_) main_v11 main_c_3
  let main_v13 : IVec S_ 1 := andi main_v8 main_v12
  let main_v14 : FVec F S10x10 .f32 := Host.absf main_arg3
  let main_cst_4 : FVec F S_ .f32 := constant S_ .f32 0x7F800000#32
  let main_v15 : FVec F S10x10 .f32 := broadcastInDim S10x10 ![] bcast_S_S10x10 main_cst_4
  let main_v16 : IVec S10x10 1 := cmpf .olt main_v14 main_v15
  fn_part1 (F := F) main_arg4 main_arg5 main_arg6 main_v13 main_v16
-- ==== Kernel.lean ====
abbrev S50000x128 : Shape := ⟨2, ![50000, 128]⟩
abbrev S10x128 : Shape := ⟨2, ![10, 128]⟩
abbrev S10x10 : Shape := ⟨2, ![10, 10]⟩
abbrev S1x10 : Shape := ⟨2, ![1, 10]⟩
abbrev S2x1600000 : Shape := ⟨2, ![2, 1600000]⟩
abbrev S50000 : Shape := ⟨1, ![50000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x10 : Shape := ⟨2, ![50000, 10]⟩
abbrev S5000x128 : Shape := ⟨2, ![5000, 128]⟩
abbrev S5000x10 : Shape := ⟨2, ![5000, 10]⟩
abbrev S128x10 : Shape := ⟨2, ![128, 10]⟩
abbrev S1 : Shape := ⟨1, ![1]⟩
abbrev S1x1 : Shape := ⟨2, ![1, 1]⟩
abbrev S1600000x10 : Shape := ⟨2, ![1600000, 10]⟩
abbrev S50000x1 : Shape := ⟨2, ![50000, 1]⟩
abbrev S1000 : Shape := ⟨1, ![1000]⟩
abbrev S1000x10 : Shape := ⟨2, ![1000, 10]⟩
abbrev S1000x1 : Shape := ⟨2, ![1000, 1]⟩
abbrev S10x1 : Shape := ⟨2, ![10, 1]⟩

abbrev nBuf : Space → Nat
  | .hbm => 116
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S10x128, .f32⟩
  | .hbm, ⟨2, _⟩ => ⟨S10x128, .f32⟩
  | .hbm, ⟨3, _⟩ => ⟨S10x10, .f32⟩
  | .hbm, ⟨4, _⟩ => ⟨S10x10, .f32⟩
  | .hbm, ⟨5, _⟩ => ⟨S1x10, .f32⟩
  | .hbm, ⟨6, _⟩ => ⟨S2x1600000, .i32⟩
  | .hbm, ⟨7, _⟩ => ⟨S50000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x10, .f32⟩
  | .hbm, ⟨25, _⟩ => ⟨S50000x10, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1, .i32⟩
  | .hbm, ⟨35, _⟩ => ⟨S_, .i32⟩
  | .hbm, ⟨36, _⟩ => ⟨S1600000x1, .i32⟩
  | .hbm, ⟨37, _⟩ => ⟨S1600000x1, .i1⟩
  | .hbm, ⟨38, _⟩ => ⟨S1x1, .i32⟩
  | .hbm, ⟨39, _⟩ => ⟨S1600000x1, .i32⟩
  | .hbm, ⟨40, _⟩ => ⟨S1600000x1, .i1⟩
  | .hbm, ⟨41, _⟩ => ⟨S1600000x1, .i1⟩
  | .hbm, ⟨42, _⟩ => ⟨S_, .i1⟩
  | .hbm, ⟨43, _⟩ => ⟨S1600000, .i1⟩
  | .hbm, ⟨44, _⟩ => ⟨S1600000x10, .f32⟩
  | .hbm, ⟨45, _⟩ => ⟨S1600000x10, .i1⟩
  | .hbm, ⟨46, _⟩ => ⟨S_, .f32⟩
  | .hbm, ⟨47, _⟩ => ⟨S1600000x10, .f32⟩
  | .hbm, ⟨48, _⟩ => ⟨S1600000x10, .f32⟩
  | .hbm, ⟨49, _⟩ => ⟨S_, .f32⟩
  | .hbm, ⟨50, _⟩ => ⟨S50000x10, .f32⟩
  | .hbm, ⟨51, _⟩ => ⟨S1600000x1, .i32⟩
  | .hbm, ⟨52, _⟩ => ⟨S50000x10, .f32⟩
  | .hbm, ⟨53, _⟩ => ⟨S50000x1, .f32⟩
  | .hbm, ⟨54, _⟩ => ⟨S50000x10, .f32⟩
  | .hbm, ⟨55, _⟩ => ⟨S50000x10, .f32⟩
  | .hbm, ⟨56, _⟩ => ⟨S50000x10, .f32⟩
  | .hbm, ⟨57, _⟩ => ⟨S50000x10, .f32⟩
  | .hbm, ⟨58, _⟩ => ⟨S50000x10, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1, .i32⟩
  | .hbm, ⟨68, _⟩ => ⟨S_, .i32⟩
  | .hbm, ⟨69, _⟩ => ⟨S1600000x1, .i32⟩
  | .hbm, ⟨70, _⟩ => ⟨S1600000x1, .i1⟩
  | .hbm, ⟨71, _⟩ => ⟨S1x1, .i32⟩
  | .hbm, ⟨72, _⟩ => ⟨S1600000x1, .i32⟩
  | .hbm, ⟨73, _⟩ => ⟨S1600000x1, .i1⟩
  | .hbm, ⟨74, _⟩ => ⟨S1600000x1, .i1⟩
  | .hbm, ⟨75, _⟩ => ⟨S_, .i1⟩
  | .hbm, ⟨76, _⟩ => ⟨S1600000, .i1⟩
  | .hbm, ⟨77, _⟩ => ⟨S1600000x10, .f32⟩
  | .hbm, ⟨78, _⟩ => ⟨S1600000x10, .i1⟩
  | .hbm, ⟨79, _⟩ => ⟨S_, .f32⟩
  | .hbm, ⟨80, _⟩ => ⟨S1600000x10, .f32⟩
  | .hbm, ⟨81, _⟩ => ⟨S1600000x10, .f32⟩
  | .hbm, ⟨82, _⟩ => ⟨S_, .f32⟩
  | .hbm, ⟨83, _⟩ => ⟨S50000x10, .f32⟩
  | .hbm, ⟨84, _⟩ => ⟨S1600000x1, .i32⟩
  | .hbm, ⟨85, _⟩ => ⟨S50000x10, .f32⟩
  | .hbm, ⟨86, _⟩ => ⟨S50000x1, .f32⟩
  | .hbm, ⟨87, _⟩ => ⟨S50000x10, .f32⟩
  | .hbm, ⟨88, _⟩ => ⟨S50000x10, .f32⟩
  | .hbm, ⟨89, _⟩ => ⟨S50000x10, .f32⟩
  | .hbm, ⟨90, _⟩ => ⟨S_, .f32⟩
  | .hbm, ⟨91, _⟩ => ⟨S50000, .f32⟩
  | .hbm, ⟨92, _⟩ => ⟨S_, .f32⟩
  | .hbm, ⟨93, _⟩ => ⟨S1000, .f32⟩
  | .hbm, ⟨94, _⟩ => ⟨S50000x1, .i32⟩
  | .hbm, ⟨95, _⟩ => ⟨S1000, .f32⟩
  | .hbm, ⟨96, _⟩ => ⟨S_, .f32⟩
  | .hbm, ⟨97, _⟩ => ⟨S1000x10, .f32⟩
  | .hbm, ⟨98, _⟩ => ⟨S50000x1, .i32⟩
  | .hbm, ⟨99, _⟩ => ⟨S1000x10, .f32⟩
  | .hbm, ⟨100, _⟩ => ⟨S_, .f32⟩
  | .hbm, ⟨101, _⟩ => ⟨S1000, .f32⟩
  | .hbm, ⟨102, _⟩ => ⟨S1000, .f32⟩
  | .hbm, ⟨103, _⟩ => ⟨S1000x1, .f32⟩
  | .hbm, ⟨104, _⟩ => ⟨S1000x10, .f32⟩
  | .hbm, ⟨105, _⟩ => ⟨S1000x10, .f32⟩
  | .hbm, ⟨106, _⟩ => ⟨S10x1, .f32⟩
  | .hbm, ⟨107, _⟩ => ⟨S1000x1, .f32⟩
  | .hbm, ⟨108, _⟩ => ⟨S1000x1, .f32⟩
  | .hbm, ⟨109, _⟩ => ⟨S1000x1, .f32⟩
  | .hbm, ⟨110, _⟩ => ⟨S_, .f32⟩
  | .hbm, ⟨111, _⟩ => ⟨S1000x1, .f32⟩
  | .hbm, ⟨112, _⟩ => ⟨S1000x1, .f32⟩
  | .hbm, ⟨113, _⟩ => ⟨S_, .f32⟩
  | .hbm, ⟨114, _⟩ => ⟨S1000x1, .f32⟩
  | .hbm, ⟨115, _⟩ => ⟨S1000x1, .f32⟩
  | .local _ .vmem, ⟨0, _⟩ => ⟨S5000x128, .f32⟩
  | .local _ .vmem, ⟨1, _⟩ => ⟨S5000x128, .f32⟩
  | .local _ .vmem, ⟨2, _⟩ => ⟨S10x128, .f32⟩
  | .local _ .vmem, ⟨3, _⟩ => ⟨S10x128, .f32⟩
  | .local _ .vmem, ⟨4, _⟩ => ⟨S5000x10, .f32⟩
  | .local _ .vmem, ⟨5, _⟩ => ⟨S5000x10, .f32⟩
  | .local _ .vmem, ⟨6, _⟩ => ⟨S5000x10, .f32⟩
  | .local _ .vmem, ⟨7, _⟩ => ⟨S5000x10, .f32⟩
  | .local _ .vmem, ⟨8, _⟩ => ⟨S5000x10, .f32⟩
  | .local _ .vmem, ⟨9, _⟩ => ⟨S5000x10, .f32⟩
  | .local _ .vmem, ⟨10, _⟩ => ⟨S5000x10, .f32⟩
  | .local _ .vmem, ⟨11, _⟩ => ⟨S5000x10, .f32⟩
  | .local _ .vmem, ⟨12, _⟩ => ⟨S5000x10, .f32⟩
  | .local _ .vmem, ⟨13, _⟩ => ⟨S5000x10, .f32⟩
  | .local _ .vmem, ⟨14, _⟩ => ⟨S5000x10, .f32⟩
  | .local _ .vmem, ⟨15, _⟩ => ⟨S5000x10, .f32⟩
  | .local _ .vmem, ⟨16, _⟩ => ⟨S10x10, .f32⟩
  | .local _ .vmem, ⟨17, _⟩ => ⟨S10x10, .f32⟩
  | .local _ .vmem, ⟨18, _⟩ => ⟨S5000x10, .f32⟩
  | .local _ .vmem, ⟨19, _⟩ => ⟨S5000x10, .f32⟩
  | .local _ .vmem, ⟨20, _⟩ => ⟨S5000x10, .f32⟩
  | .local _ .vmem, ⟨21, _⟩ => ⟨S5000x10, .f32⟩
  | .local _ .vmem, ⟨22, _⟩ => ⟨S5000x10, .f32⟩
  | .local _ .vmem, ⟨23, _⟩ => ⟨S5000x10, .f32⟩
  | .local _ .vmem, ⟨24, _⟩ => ⟨S5000x10, .f32⟩
  | .local _ .vmem, ⟨25, _⟩ => ⟨S5000x10, .f32⟩
  | .local _ .vmem, ⟨26, _⟩ => ⟨S5000x10, .f32⟩
  | .local _ .vmem, ⟨27, _⟩ => ⟨S5000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v13 : Ref sig .tc := ⟨.hbm, 48, rfl⟩
abbrev main_cst_3 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21_0 : Ref sig .tc := ⟨.hbm, 57, rfl⟩
abbrev main_v21_1 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_cst : Ref sig .tc := ⟨.hbm, 79, rfl⟩
abbrev main_call1_v15 : Ref sig .tc := ⟨.hbm, 80, rfl⟩
abbrev main_v22 : Ref sig .tc := ⟨.hbm, 81, rfl⟩
abbrev main_cst_4 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_cst_5 : Ref sig .tc := ⟨.hbm, 90, rfl⟩
abbrev main_v30 : Ref sig .tc := ⟨.hbm, 91, rfl⟩
abbrev main_cst_6 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_cst_7 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_cst_8 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_cst_9 : Ref sig .tc := ⟨.hbm, 110, rfl⟩
abbrev main_v46 : Ref sig .tc := ⟨.hbm, 111, rfl⟩
abbrev main_v47 : Ref sig .tc := ⟨.hbm, 112, rfl⟩
abbrev main_cst_10 : Ref sig .tc := ⟨.hbm, 113, rfl⟩
abbrev main_v48 : Ref sig .tc := ⟨.hbm, 114, rfl⟩
abbrev main_v49 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x10 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x10 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x10 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x10 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x10 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x10 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S10x128_S10x128_0_0 : ∀ a, (![0, 0] : Fin 2 → Nat) a + S10x128.size a ≤ S10x128.size a
  h_S10x128 : 0 < S10x128.numel
  transposes_S10x128_p1_0_S128x10 : S10x128.Transposes [1, 0] S128x10
  inb_S5000x10_S5000x10_0_0 : ∀ a, (![0, 0] : Fin 2 → Nat) a + S5000x10.size a ≤ S5000x10.size a
  h_S5000x10 : 0 < S5000x10.numel
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x10_0 : S1600000.BroadcastsInDim S1600000x10 (![0] : Fin 1 → Fin S1600000x10.rank)
  bcast_S_S1600000x10 : S_.BroadcastsInDim S1600000x10 (![] : Fin 0 → Fin S1600000x10.rank)
  bcast_S_S50000x10 : S_.BroadcastsInDim S50000x10 (![] : Fin 0 → Fin S50000x10.rank)
  bcast_S50000_S50000x1_0 : S50000.BroadcastsInDim S50000x1 (![0] : Fin 1 → Fin S50000x1.rank)
  bcast_S50000x1_S50000x10_0_1 : S50000x1.BroadcastsInDim S50000x10 (![0, 1] : Fin 2 → Fin S50000x10.rank)
  shapeCasts_S5000x10_S5000x10 : S5000x10.ShapeCasts S5000x10
  inb_S10x10_S10x10_0_0 : ∀ a, (![0, 0] : Fin 2 → Nat) a + S10x10.size a ≤ S10x10.size a
  h_S10x10 : 0 < S10x10.numel
  transposes_S10x10_p1_0_S10x10 : S10x10.Transposes [1, 0] S10x10
  bcast_S_S1000 : S_.BroadcastsInDim S1000 (![] : Fin 0 → Fin S1000.rank)
  bcast_S_S1000x10 : S_.BroadcastsInDim S1000x10 (![] : Fin 0 → Fin S1000x10.rank)
  bcast_S1000_S1000x1_0 : S1000.BroadcastsInDim S1000x1 (![0] : Fin 1 → Fin S1000x1.rank)
  bcast_S1000x1_S1000x10_0_1 : S1000x1.BroadcastsInDim S1000x10 (![0, 1] : Fin 2 → Fin S1000x10.rank)
  transposes_S1x10_S10x1_1_0 : S1x10.Transposes [1, 0] S10x1
  bcast_S_S1000x1 : S_.BroadcastsInDim S1000x1 (![] : Fin 0 → Fin S1000x1.rank)
  scatter_S50000_S1600000x1_S1600000_n_0_0_1_wf : ScatterDims.WF S50000 S1600000x1 S1600000 [] [0] [0] 1
  dot_S5000x128_S128x10_S5000x10_1_0_0_1_n_n_wf : DotDims.WF S5000x128 S128x10 S5000x10 [1] [0] [0] [1] [] []
  gather_S50000x10_S1600000x1_S1600000x10_1_0_n_n_0_1_110_wf : GatherDims.WF S50000x10 S1600000x1 S1600000x10 [1] [0] [] [0] [] 1 ![1, 10]
  scatter_S50000x10_S1600000x1_S1600000x10_1_0_0_1_wf : ScatterDims.WF S50000x10 S1600000x1 S1600000x10 [1] [0] [0] 1
  dot_S5000x10_S10x10_S5000x10_1_0_0_1_n_n_wf : DotDims.WF S5000x10 S10x10 S5000x10 [1] [0] [0] [1] [] []
  scatter_S1000_S50000x1_S50000_n_0_0_1_wf : ScatterDims.WF S1000 S50000x1 S50000 [] [0] [0] 1
  scatter_S1000x10_S50000x1_S50000x10_1_0_0_1_wf : ScatterDims.WF S1000x10 S50000x1 S50000x10 [1] [0] [0] 1
  dot_S1000x10_S10x1_S1000x1_1_0_0_1_n_n_wf : DotDims.WF S1000x10 S10x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x128.size a ≤ S10x128.size a
  hwx0_1 : ∀ i : grid0.Coords, EltTy.bits .f32 = 32 ∨ (Rect.block (s := S10x128) S10x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x128.size a ≤ S10x128.size a
  hwx0_2 : ∀ i : grid0.Coords, EltTy.bits .f32 = 32 ∨ (Rect.block (s := S10x128) S10x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x10.size a ≤ S50000x10.size a
  hwx0_3 : ∀ i : grid0.Coords, EltTy.bits .f32 = 32 ∨ (Rect.block (s := S50000x10) S5000x10.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x10.size a ≤ S50000x10.size a
  hwx0_4 : ∀ i : grid0.Coords, EltTy.bits .f32 = 32 ∨ (Rect.block (s := S50000x10) S5000x10.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x10.size a ≤ S50000x10.size a
  hwx1_0 : ∀ i : grid1.Coords, EltTy.bits .f32 = 32 ∨ (Rect.block (s := S50000x10) S5000x10.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x10.size a ≤ S50000x10.size a
  hwx1_1 : ∀ i : grid1.Coords, EltTy.bits .f32 = 32 ∨ (Rect.block (s := S50000x10) S5000x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x10.size a ≤ S50000x10.size a
  hwx1_2 : ∀ i : grid1.Coords, EltTy.bits .f32 = 32 ∨ (Rect.block (s := S50000x10) S5000x10.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x10.size a ≤ S50000x10.size a
  hwx2_0 : ∀ i : grid2.Coords, EltTy.bits .f32 = 32 ∨ (Rect.block (s := S50000x10) S5000x10.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10x10.size a ≤ S10x10.size a
  hwx2_1 : ∀ i : grid2.Coords, EltTy.bits .f32 = 32 ∨ (Rect.block (s := S10x10) S10x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10x10.size a ≤ S10x10.size a
  hwx2_2 : ∀ i : grid2.Coords, EltTy.bits .f32 = 32 ∨ (Rect.block (s := S10x10) S10x10.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x10.size a ≤ S50000x10.size a
  hwx2_3 : ∀ i : grid2.Coords, EltTy.bits .f32 = 32 ∨ (Rect.block (s := S50000x10) S5000x10.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x10.size a ≤ S50000x10.size a
  hwx2_4 : ∀ i : grid2.Coords, EltTy.bits .f32 = 32 ∨ (Rect.block (s := S50000x10) S5000x10.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x10.size a ≤ S50000x10.size a
  hwx3_0 : ∀ i : grid3.Coords, EltTy.bits .f32 = 32 ∨ (Rect.block (s := S50000x10) S5000x10.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x10.size a ≤ S50000x10.size a
  hwx3_1 : ∀ i : grid3.Coords, EltTy.bits .f32 = 32 ∨ (Rect.block (s := S50000x10) S5000x10.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x10.size a ≤ S50000x10.size a
  hwx3_2 : ∀ i : grid3.Coords, EltTy.bits .f32 = 32 ∨ (Rect.block (s := S50000x10) S5000x10.size (cc3_transform_2 i) (hinb3_2 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf
def gather_S50000x10_S1600000x1_S1600000x10_1_0_n_n_0_1_110 : GatherDims S50000x10 S1600000x1 S1600000x10 where
  offsetDims := [1]
  collapsedSliceDims := [0]
  operandBatchingDims := []
  startIndicesBatchingDims := []
  startIndexMap := [0]
  indexVectorDim := 1
  sliceSizes := ![1, 10]
  wf := gather_S50000x10_S1600000x1_S1600000x10_1_0_n_n_0_1_110_wf
def scatter_S50000x10_S1600000x1_S1600000x10_1_0_0_1 : ScatterDims S50000x10 S1600000x1 S1600000x10 where
  updateWindowDims := [1]
  insertedWindowDims := [0]
  scatterDimsToOperandDims := [0]
  indexVectorDim := 1
  wf := scatter_S50000x10_S1600000x1_S1600000x10_1_0_0_1_wf
def dot_S5000x10_S10x10_S5000x10_1_0_0_1_n_n : DotDims S5000x10 S10x10 S5000x10 where
  lhsContracting := [1]
  rhsContracting := [0]
  lhsNonContracting := [0]
  rhsNonContracting := [1]
  lhsBatch := []
  rhsBatch := []
  wf := dot_S5000x10_S10x10_S5000x10_1_0_0_1_n_n_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf
def scatter_S1000x10_S50000x1_S50000x10_1_0_0_1 : ScatterDims S1000x10 S50000x1 S50000x10 where
  updateWindowDims := [1]
  insertedWindowDims := [0]
  scatterDimsToOperandDims := [0]
  indexVectorDim := 1
  wf := scatter_S1000x10_S50000x1_S50000x10_1_0_0_1_wf
def dot_S1000x10_S10x1_S1000x1_1_0_0_1_n_n : DotDims S1000x10 S10x1 S1000x1 where
  lhsContracting := [1]
  rhsContracting := [0]
  lhsNonContracting := [0]
  rhsNonContracting := [1]
  lhsBatch := []
  rhsBatch := []
  wf := dot_S1000x10_S10x1_S1000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S5000x10.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S5000x10.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v19) S5000x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_1) S5000x10.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x10.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v20) S5000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S10x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S10x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21_0) S5000x10.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v21_1) S5000x10.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v28) S5000x10.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21_1) S5000x10.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S5000x10.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S10x128 : Shape := ⟨2, ![10, 128]⟩
abbrev S10x10 : Shape := ⟨2, ![10, 10]⟩
abbrev S1x10 : Shape := ⟨2, ![1, 10]⟩
abbrev S2x1600000 : Shape := ⟨2, ![2, 1600000]⟩
abbrev S50000 : Shape := ⟨1, ![50000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S128x10 : Shape := ⟨2, ![128, 10]⟩
abbrev S50000x10 : Shape := ⟨2, ![50000, 10]⟩
abbrev S1600000x10 : Shape := ⟨2, ![1600000, 10]⟩
abbrev S1000 : Shape := ⟨1, ![1000]⟩
abbrev S1000x10 : Shape := ⟨2, ![1000, 10]⟩
abbrev S1000x1 : Shape := ⟨2, ![1000, 1]⟩
abbrev S10x1 : Shape := ⟨2, ![10, 1]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S10x128, .f32⟩
  | .hbm, ⟨2, _⟩ => ⟨S10x128, .f32⟩
  | .hbm, ⟨3, _⟩ => ⟨S10x10, .f32⟩
  | .hbm, ⟨4, _⟩ => ⟨S10x10, .f32⟩
  | .hbm, ⟨5, _⟩ => ⟨S1x10, .f32⟩
  | .hbm, ⟨6, _⟩ => ⟨S2x1600000, .i32⟩
  | .hbm, ⟨7, _⟩ => ⟨S50000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S50000x128, .f32⟩
  | .hbm, ⟨35, _⟩ => ⟨S1600000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x10, .f32⟩
  | .hbm, ⟨41, _⟩ => ⟨S50000x10, .f32⟩
  | .hbm, ⟨42, _⟩ => ⟨S128x10, .f32⟩
  | .hbm, ⟨43, _⟩ => ⟨S50000x10, .f32⟩
  | .hbm, ⟨44, _⟩ => ⟨S50000x10, .f32⟩
  | .hbm, ⟨45, _⟩ => ⟨S_, .f32⟩
  | .hbm, ⟨46, _⟩ => ⟨S50000x10, .f32⟩
  | .hbm, ⟨47, _⟩ => ⟨S50000x10, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x10, .f32⟩
  | .hbm, ⟨57, _⟩ => ⟨S_, .f32⟩
  | .hbm, ⟨58, _⟩ => ⟨S50000x10, .f32⟩
  | .hbm, ⟨59, _⟩ => ⟨S1600000x1, .i32⟩
  | .hbm, ⟨60, _⟩ => ⟨S50000x10, .f32⟩
  | .hbm, ⟨61, _⟩ => ⟨S50000x1, .f32⟩
  | .hbm, ⟨62, _⟩ => ⟨S50000x10, .f32⟩
  | .hbm, ⟨63, _⟩ => ⟨S50000x10, .f32⟩
  | .hbm, ⟨64, _⟩ => ⟨S10x10, .f32⟩
  | .hbm, ⟨65, _⟩ => ⟨S50000x10, .f32⟩
  | .hbm, ⟨66, _⟩ => ⟨S10x10, .f32⟩
  | .hbm, ⟨67, _⟩ => ⟨S50000x10, .f32⟩
  | .hbm, ⟨68, _⟩ => ⟨S50000x10, .f32⟩
  | .hbm, ⟨69, _⟩ => ⟨S_, .f32⟩
  | .hbm, ⟨70, _⟩ => ⟨S50000, .f32⟩
  | .hbm, ⟨71, _⟩ => ⟨S_, .f32⟩
  | .hbm, ⟨72, _⟩ => ⟨S1000, .f32⟩
  | .hbm, ⟨73, _⟩ => ⟨S50000x1, .i32⟩
  | .hbm, ⟨74, _⟩ => ⟨S1000, .f32⟩
  | .hbm, ⟨75, _⟩ => ⟨S_, .f32⟩
  | .hbm, ⟨76, _⟩ => ⟨S1000x10, .f32⟩
  | .hbm, ⟨77, _⟩ => ⟨S50000x1, .i32⟩
  | .hbm, ⟨78, _⟩ => ⟨S1000x10, .f32⟩
  | .hbm, ⟨79, _⟩ => ⟨S_, .f32⟩
  | .hbm, ⟨80, _⟩ => ⟨S1000, .f32⟩
  | .hbm, ⟨81, _⟩ => ⟨S1000, .f32⟩
  | .hbm, ⟨82, _⟩ => ⟨S1000x1, .f32⟩
  | .hbm, ⟨83, _⟩ => ⟨S1000x10, .f32⟩
  | .hbm, ⟨84, _⟩ => ⟨S1000x10, .f32⟩
  | .hbm, ⟨85, _⟩ => ⟨S10x1, .f32⟩
  | .hbm, ⟨86, _⟩ => ⟨S1000x1, .f32⟩
  | .hbm, ⟨87, _⟩ => ⟨S1000x1, .f32⟩
  | .hbm, ⟨88, _⟩ => ⟨S1000x1, .f32⟩
  | .hbm, ⟨89, _⟩ => ⟨S_, .f32⟩
  | .hbm, ⟨90, _⟩ => ⟨S1000x1, .f32⟩
  | .hbm, ⟨91, _⟩ => ⟨S1000x1, .f32⟩
  | .hbm, ⟨92, _⟩ => ⟨S_, .f32⟩
  | .hbm, ⟨93, _⟩ => ⟨S1000x1, .f32⟩
  | .hbm, ⟨94, _⟩ => ⟨S1000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_cst : Ref sig .tc := ⟨.hbm, 45, rfl⟩
abbrev main_call0_v0 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S10x128_S128x10_1_0 : S10x128.Transposes [1, 0] S128x10
  bcast_S_S50000x10 : S_.BroadcastsInDim S50000x10 (![] : Fin 0 → Fin S50000x10.rank)
  bcast_S50000x1_S50000x10_0_1 : S50000x1.BroadcastsInDim S50000x10 (![0, 1] : Fin 2 → Fin S50000x10.rank)
  transposes_S10x10_S10x10_1_0 : S10x10.Transposes [1, 0] S10x10
  bcast_S_S1000 : S_.BroadcastsInDim S1000 (![] : Fin 0 → Fin S1000.rank)
  bcast_S_S1000x10 : S_.BroadcastsInDim S1000x10 (![] : Fin 0 → Fin S1000x10.rank)
  bcast_S1000_S1000x1_0 : S1000.BroadcastsInDim S1000x1 (![0] : Fin 1 → Fin S1000x1.rank)
  bcast_S1000x1_S1000x10_0_1 : S1000x1.BroadcastsInDim S1000x10 (![0, 1] : Fin 2 → Fin S1000x10.rank)
  transposes_S1x10_S10x1_1_0 : S1x10.Transposes [1, 0] S10x1
  bcast_S_S1000x1 : S_.BroadcastsInDim S1000x1 (![] : Fin 0 → Fin S1000x1.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x10_S50000x10_1_0_0_1_n_n_wf : DotDims.WF S50000x128 S128x10 S50000x10 [1] [0] [0] [1] [] []
  gather_S50000x10_S1600000x1_S1600000x10_1_0_n_n_0_1_110_wf : GatherDims.WF S50000x10 S1600000x1 S1600000x10 [1] [0] [] [0] [] 1 ![1, 10]
  scatter_S50000x10_S1600000x1_S1600000x10_1_0_0_1_wf : ScatterDims.WF S50000x10 S1600000x1 S1600000x10 [1] [0] [0] 1
  dot_S50000x10_S10x10_S50000x10_1_0_0_1_n_n_wf : DotDims.WF S50000x10 S10x10 S50000x10 [1] [0] [0] [1] [] []
  scatter_S1000_S50000x1_S50000_n_0_0_1_wf : ScatterDims.WF S1000 S50000x1 S50000 [] [0] [0] 1
  scatter_S1000x10_S50000x1_S50000x10_1_0_0_1_wf : ScatterDims.WF S1000x10 S50000x1 S50000x10 [1] [0] [0] 1
  dot_S1000x10_S10x1_S1000x1_1_0_0_1_n_n_wf : DotDims.WF S1000x10 S10x1 S1000x1 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf
def gather_S50000x10_S1600000x1_S1600000x10_1_0_n_n_0_1_110 : GatherDims S50000x10 S1600000x1 S1600000x10 where
  offsetDims := [1]
  collapsedSliceDims := [0]
  operandBatchingDims := []
  startIndicesBatchingDims := []
  startIndexMap := [0]
  indexVectorDim := 1
  sliceSizes := ![1, 10]
  wf := gather_S50000x10_S1600000x1_S1600000x10_1_0_n_n_0_1_110_wf
def scatter_S50000x10_S1600000x1_S1600000x10_1_0_0_1 : ScatterDims S50000x10 S1600000x1 S1600000x10 where
  updateWindowDims := [1]
  insertedWindowDims := [0]
  scatterDimsToOperandDims := [0]
  indexVectorDim := 1
  wf := scatter_S50000x10_S1600000x1_S1600000x10_1_0_0_1_wf
def dot_S50000x10_S10x10_S50000x10_1_0_0_1_n_n : DotDims S50000x10 S10x10 S50000x10 where
  lhsContracting := [1]
  rhsContracting := [0]
  lhsNonContracting := [0]
  rhsNonContracting := [1]
  lhsBatch := []
  rhsBatch := []
  wf := dot_S50000x10_S10x10_S50000x10_1_0_0_1_n_n_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf
def scatter_S1000x10_S50000x1_S50000x10_1_0_0_1 : ScatterDims S1000x10 S50000x1 S50000x10 where
  updateWindowDims := [1]
  insertedWindowDims := [0]
  scatterDimsToOperandDims := [0]
  indexVectorDim := 1
  wf := scatter_S1000x10_S50000x1_S50000x10_1_0_0_1_wf
def dot_S1000x10_S10x1_S1000x1_1_0_0_1_n_n : DotDims S1000x10 S10x1 S1000x1 where
  lhsContracting := [1]
  rhsContracting := [0]
  lhsNonContracting := [0]
  rhsNonContracting := [1]
  lhsBatch := []
  rhsBatch := []
  wf := dot_S1000x10_S10x1_S1000x1_1_0_0_1_n_n_wf

class Facts : Prop extends Facts₀ where

variable [Facts]
-- ==== Proof.Spec.lean ====
/-
  The shapes of a two-layer mean-aggregating graph convolution, as functions on index sets.

  A layer takes node features `h : [50000, K]`, two weight matrices `Wl, Wr : [10, K]`, a list of 1,600,000 edges
  (source row, destination row) and a per-node scale, and returns `[50000, 10]` features.  Two readings of it are
  compared: "aggregate the K-wide rows over the incoming edges, scale, then multiply by `Wlᵀ`" and "multiply by `Wlᵀ`
  first, then aggregate the 10-wide rows and scale".  This module names the one product both use.
-/
import Idealize.ShloMosaic.PureOps
import Idealize.ShloMosaic.PureOps.Ideal
import Idealize.ShloMosaic.Lib.ValueIdx

noncomputable section

namespace Cert.Sage

open Idealize.ShloMosaic Idealize.ShloMosaic.ValueIdx

/-- Entry `(n, j)` of `h · Wᵀ`: row `n` of `h` against row `j` of `W`, summed over the feature axis. -/
def projAt {K : ℕ} (h : FVec Ideal ⟨2, ![50000, K]⟩ .f32) (W : FVec Ideal ⟨2, ![10, K]⟩ .f32) :
    FVec Ideal ⟨2, ![50000, 10]⟩ .f32 :=
  fun i => ∑ k : Fin K, h (ix2 (i 0) k) * W (ix2 (i 1) k)

theorem projAt_apply {K : ℕ} (h : FVec Ideal ⟨2, ![50000, K]⟩ .f32) (W : FVec Ideal ⟨2, ![10, K]⟩ .f32)
    (n : Fin 50000) (j : Fin 10) :
    projAt h W (ix2 n j) = ∑ k : Fin K, h (ix2 n k) * W (ix2 j k) := rfl

/-- The entrywise sum of two `[50000, 10]` arrays. -/
def sumArr (a b : FVec Ideal ⟨2, ![50000, 10]⟩ .f32) : FVec Ideal ⟨2, ![50000, 10]⟩ .f32 :=
  fun i => a i + b i

/-- The positive part of the entrywise sum of two `[50000, 10]` arrays. -/
def sumPos (a b : FVec Ideal ⟨2, ![50000, 10]⟩ .f32) : FVec Ideal ⟨2, ![50000, 10]⟩ .f32 :=
  fun i => max (a i + b i) 0

/-- Every entry of the array is a real number (neither infinity). -/
def RealValued {s : Shape} (x : s.Idx → EReal) : Prop := ∀ i, ∃ r : ℝ, x i = (r : EReal)

end Cert.Sage

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.RegionProject.lean ====
/-
  What the two projection launches leave in their output arrays.

  Each launch walks ten blocks of 5000 rows; at a block it multiplies the block of node features by the transposes of
  the two weight matrices (held whole at every step) and writes the two 5000 x 10 products back to rows
  `5000 t … 5000 t + 4999` of the two outputs.  The ten blocks tile the 50000 rows, so after the launch each output is
  the whole product `h · Wᵀ`, entry by entry, of the arrays as the launch found them.
-/
import proofs.«421297_j20469814132906_3_alg».proof.Proof.Gen.KernelIdeal.Frame
import proofs.«421297_j20469814132906_3_alg».proof.Proof.Spec
import proofs.«421297_j20469814132906_3_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

variable (V : (c : Dev nD) → (b : Ref sig .tc) → Buf (Elt Ideal) ((c : Thread nD τ).loc b))

/-! ## The first launch: [5000, 128] blocks against the two [10, 128] weight matrices -/

/-- The zero offset vector of a rank-2 rectangle, as a constant function. -/
private theorem zero_off : (![0, 0] : Fin 2 → Nat) = fun _ => 0 := funext fun a => by fin_cases a <;> rfl

/-- The transpose of a 10 x 128 matrix read at (k, q) is the matrix at (q, k). -/
private theorem transp128 (w : FVec Ideal S10x128 .bf16) (k : Fin 128) (q : Fin 10) :
    transpose S128x10 [1, 0] w transposes_S10x128_p1_0_S128x10 (ix2 k q) = w (ix2 q k) := by
  refine transpose_apply _ _ _ _ _ fun b => ?_
  match b with
  | ⟨0, _⟩ => rfl
  | ⟨1, _⟩ => rfl

/-- Entry (p, q) of the first product of a block: row p of the block against row q of the weight matrix. -/
private theorem pay0_left (x0 : Vec Ideal S5000x128 .f32) (w : Vec Ideal S10x128 .f32) (p : Fin 5000) (q : Fin 10) :
    k0_pay2 (F := Ideal) x0 w (ix2 p q) = ∑ k : Fin 128, x0 (ix2 p k) * w (ix2 q k) := by
  unfold k0_pay2 k0_pay1
  show FloatOps.matmul (DotDims.plain 5000 128 10) none _ _ (constant ⟨2, ![5000, 10]⟩ .f32 0x00000000#32) (ix2 p q) = _
  rw [Cert.PlainMatmul.apply]
  refine Finset.sum_congr rfl fun k _ => ?_
  rw [transp128]
  rfl

/-- Entry (p, q) of the second product of a block. -/
private theorem pay0_right (x0 : Vec Ideal S5000x128 .f32) (w : Vec Ideal S10x128 .f32) (p : Fin 5000) (q : Fin 10) :
    k0_pay3 (F := Ideal) x0 w (ix2 p q) = ∑ k : Fin 128, x0 (ix2 p k) * w (ix2 q k) := by
  unfold k0_pay3 k0_pay1
  show FloatOps.matmul (DotDims.plain 5000 128 10) none _ _ (constant ⟨2, ![5000, 10]⟩ .f32 0x00000000#32) (ix2 p q) = _
  rw [Cert.PlainMatmul.apply]
  refine Finset.sum_congr rfl fun k _ => ?_
  rw [transp128]
  rfl

/-- The block indices of the first launch's windows, decided once over its ten points: the row blocks move with the
    point's number, the weight matrices stay whole, nothing moves along the feature axis. -/
private theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- A point's number is below ten. -/
private theorem pt_lt0 (t : Fin cfg0.N) : t.val < 10 := lt_of_lt_of_eq t.isLt N_0

/-- Row p of block t is a row of the 50000-row array. -/
private theorem row_lt (t : ℕ) (ht : t < 10) (p : Fin 5000) : t * 5000 + p.val < 50000 := by
  have := p.isLt; omega

/-- The feature block at point t holds rows 5000 t + p of the feature array. -/
private theorem xblk0 (c : Dev nD) (t : Fin cfg0.N) (p : Fin 5000) (k : Fin 128) :
    (iblk0 V c 0 t : Vec Ideal S5000x128 .f32) (ix2 p k)
      = (V c main_arg0 : FVec Ideal S50000x128 .f32) (ix2 ⟨t.val * 5000 + p.val, row_lt _ (pt_lt0 t) p⟩ k) := by
  obtain ⟨e0, e1, -⟩ := idx0 t
  show V c main_arg0 (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The first weight block at any point is the whole first weight matrix. -/
private theorem wlblk0 (c : Dev nD) (t : Fin cfg0.N) (q : Fin 10) (k : Fin 128) :
    (iblk0 V c 1 t : Vec Ideal S10x128 .f32) (ix2 q k) = (V c main_arg1 : FVec Ideal S10x128 .f32) (ix2 q k) := by
  obtain ⟨-, -, e0, e1, -⟩ := idx0 t
  show V c main_arg1 (((cfg0.win 1).blk t).view.emb (ix2 q k)) = _
  refine congrArg _ (funext fun a => Fin.ext ?_)
  match a with
  | ⟨0, _⟩ => show win0_1.index t (0 : Fin 2) * 10 + 1 * q.val = q.val; omega
  | ⟨1, _⟩ => show win0_1.index t (1 : Fin 2) * 128 + 1 * k.val = k.val; omega

/-- The second weight block at any point is the whole second weight matrix. -/
private theorem wrblk0 (c : Dev nD) (t : Fin cfg0.N) (q : Fin 10) (k : Fin 128) :
    (iblk0 V c 2 t : Vec Ideal S10x128 .f32) (ix2 q k) = (V c main_arg2 : FVec Ideal S10x128 .f32) (ix2 q k) := by
  obtain ⟨-, -, -, -, e0, e1, -⟩ := idx0 t
  show V c main_arg2 (((cfg0.win 2).blk t).view.emb (ix2 q k)) = _
  refine congrArg _ (funext fun a => Fin.ext ?_)
  match a with
  | ⟨0, _⟩ => show win0_2.index t (0 : Fin 2) * 10 + 1 * q.val = q.val; omega
  | ⟨1, _⟩ => show win0_2.index t (1 : Fin 2) * 128 + 1 * k.val = k.val; omega

/-- Where entry (p, q) of the first output's block at point t sits in the output array. -/
private theorem oblk0_3 (t : Fin cfg0.N) (p : Fin 5000) (q : Fin 10) :
    (((cfg0.win 3).blk t).view.emb (ix2 p q) : S50000x10.Idx) = ix2 ⟨t.val * 5000 + p.val, row_lt _ (pt_lt0 t) p⟩ q := by
  obtain ⟨-, -, -, -, -, -, e0, e1, -⟩ := idx0 t
  refine funext fun a => Fin.ext ?_
  match a with
  | ⟨0, _⟩ => show win0_3.index t (0 : Fin 2) * 5000 + 1 * p.val = t.val * 5000 + p.val; omega
  | ⟨1, _⟩ => show win0_3.index t (1 : Fin 2) * 10 + 1 * q.val = q.val; omega

/-- What point t writes back to the first output: block t of the whole product. -/
private theorem flushed0_3 (c : Dev nD) (t : Fin cfg0.N) :
    (dat0 (F := Ideal) V c).flushed 3 t
      = ((cfg0.win 3).blk t).view.read (Elt Ideal) (projAt (K := 128) (V c main_arg0) (V c main_arg1)) := by
  show (cfg0.win 3).cut (grid0.coords t) ((dat0 V c).after 3 t) = _
  rw [after0_3]
  unfold out0_3
  rw [View.canon_unit_zero zero_off]
  simp only [View.ld_unit_zero (S := S5000x128) zero_off, View.ld_unit_zero (S := S10x128) zero_off]
  have e : ∀ j : S5000x10.Idx, k0_pay2 (F := Ideal) (iblk0 V c 0 t) (iblk0 V c 1 t) j
      = projAt (K := 128) (V c main_arg0) (V c main_arg1) (((cfg0.win 3).blk t).view.emb j) := by
    intro j
    obtain ⟨p, q, rfl⟩ : ∃ (p : Fin 5000) (q : Fin 10), j = ix2 p q := ⟨j 0, j 1, eq_ix2 j⟩
    rw [pay0_left, oblk0_3, projAt_apply]
    refine Finset.sum_congr rfl fun k _ => ?_
    rw [xblk0, wlblk0]
  exact funext e

/-- An index of the first output array is in point t's block iff each coordinate is in the block's range on its axis. -/
private theorem mem_blk0_3 (t : Fin cfg0.N) (i : S50000x10.Idx) :
    i ∈ ((cfg0.win 3).blk t).view.set ↔ ∀ a : Fin 2, win0_3.index t a * S5000x10.size a ≤ (i a).val
      ∧ (i a).val < win0_3.index t a * S5000x10.size a + S5000x10.size a := by
  show i ∈ ((View.whole main_v12_0).slice (win0_3.rect t)).set ↔ _
  rw [View.set_slice_whole, Rect.mem_set_unit]
  exact Iff.rfl

/-- Row r of the first output is written back at point r / 5000: the ten blocks tile the 50000 rows. -/
private theorem tiled0_3 (i : S50000x10.Idx) :
    ∃ t : Fin cfg0.N, (cfg0.win 3).flush t = true ∧ i ∈ ((cfg0.win 3).blk t).view.set := by
  have hi0 : (i 0).val < 50000 := (i 0).isLt
  have hi1 : (i 1).val < 10 := (i 1).isLt
  have hN : (i 0).val / 5000 < cfg0.N := lt_of_lt_of_eq (by omega) N_0.symm
  refine ⟨⟨(i 0).val / 5000, hN⟩, flush0_3 _, ?_⟩
  rw [mem_blk0_3]
  obtain ⟨-, -, -, -, -, -, e0, e1, -⟩ := idx0 ⟨(i 0).val / 5000, hN⟩
  intro a
  match a with
  | ⟨0, _⟩ =>
    show win0_3.index ⟨(i 0).val / 5000, hN⟩ (0 : Fin 2) * 5000 ≤ (i 0).val
      ∧ (i 0).val < win0_3.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, hN⟩ (1 : Fin 2) * 10 ≤ (i 1).val
      ∧ (i 1).val < win0_3.index ⟨(i 0).val / 5000, hN⟩ (1 : Fin 2) * 10 + 10
    rw [e1]; omega

/-- First launch, first output: `x · W1_lᵀ`. -/
theorem project0_left (c : Dev nD) :
    (dat0 (F := Ideal) V c).arrAt 3 cfg0.N = projAt (K := 128) (V c main_arg0) (V c main_arg1) :=
  (dat0 (F := Ideal) V c).arrAt_eq_of_cover 3 (projAt (K := 128) (V c main_arg0) (V c main_arg1))
    (fun t _ => flushed0_3 V c t) tiled0_3

/-- Where entry (p, q) of the second output's block at point t sits in the output array. -/
private theorem oblk0_4 (t : Fin cfg0.N) (p : Fin 5000) (q : Fin 10) :
    (((cfg0.win 4).blk t).view.emb (ix2 p q) : S50000x10.Idx) = ix2 ⟨t.val * 5000 + p.val, row_lt _ (pt_lt0 t) p⟩ q := by
  obtain ⟨-, -, -, -, -, -, -, -, e0, e1⟩ := idx0 t
  refine funext fun a => Fin.ext ?_
  match a with
  | ⟨0, _⟩ => show win0_4.index t (0 : Fin 2) * 5000 + 1 * p.val = t.val * 5000 + p.val; omega
  | ⟨1, _⟩ => show win0_4.index t (1 : Fin 2) * 10 + 1 * q.val = q.val; omega

/-- What point t writes back to the second output: block t of the whole product. -/
private theorem flushed0_4 (c : Dev nD) (t : Fin cfg0.N) :
    (dat0 (F := Ideal) V c).flushed 4 t
      = ((cfg0.win 4).blk t).view.read (Elt Ideal) (projAt (K := 128) (V c main_arg0) (V c main_arg2)) := by
  show (cfg0.win 4).cut (grid0.coords t) ((dat0 V c).after 4 t) = _
  rw [after0_4]
  unfold out0_4
  rw [View.canon_unit_zero zero_off]
  simp only [View.ld_unit_zero (S := S5000x128) zero_off, View.ld_unit_zero (S := S10x128) zero_off]
  have e : ∀ j : S5000x10.Idx, k0_pay3 (F := Ideal) (iblk0 V c 0 t) (iblk0 V c 2 t) j
      = projAt (K := 128) (V c main_arg0) (V c main_arg2) (((cfg0.win 4).blk t).view.emb j) := by
    intro j
    obtain ⟨p, q, rfl⟩ : ∃ (p : Fin 5000) (q : Fin 10), j = ix2 p q := ⟨j 0, j 1, eq_ix2 j⟩
    rw [pay0_right, oblk0_4, projAt_apply]
    refine Finset.sum_congr rfl fun k _ => ?_
    rw [xblk0, wrblk0]
  exact funext e

/-- An index of the second output array is in point t's block iff each coordinate is in the block's range on its axis. -/
private theorem mem_blk0_4 (t : Fin cfg0.N) (i : S50000x10.Idx) :
    i ∈ ((cfg0.win 4).blk t).view.set ↔ ∀ a : Fin 2, win0_4.index t a * S5000x10.size a ≤ (i a).val
      ∧ (i a).val < win0_4.index t a * S5000x10.size a + S5000x10.size a := by
  show i ∈ ((View.whole main_v12_1).slice (win0_4.rect t)).set ↔ _
  rw [View.set_slice_whole, Rect.mem_set_unit]
  exact Iff.rfl

/-- Row r of the second output is written back at point r / 5000. -/
private theorem tiled0_4 (i : S50000x10.Idx) :
    ∃ t : Fin cfg0.N, (cfg0.win 4).flush t = true ∧ i ∈ ((cfg0.win 4).blk t).view.set := by
  have hi0 : (i 0).val < 50000 := (i 0).isLt
  have hi1 : (i 1).val < 10 := (i 1).isLt
  have hN : (i 0).val / 5000 < cfg0.N := lt_of_lt_of_eq (by omega) N_0.symm
  refine ⟨⟨(i 0).val / 5000, hN⟩, flush0_4 _, ?_⟩
  rw [mem_blk0_4]
  obtain ⟨-, -, -, -, -, -, -, -, e0, e1⟩ := idx0 ⟨(i 0).val / 5000, hN⟩
  intro a
  match a with
  | ⟨0, _⟩ =>
    show win0_4.index ⟨(i 0).val / 5000, hN⟩ (0 : Fin 2) * 5000 ≤ (i 0).val
      ∧ (i 0).val < win0_4.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, hN⟩ (1 : Fin 2) * 10 ≤ (i 1).val
      ∧ (i 1).val < win0_4.index ⟨(i 0).val / 5000, hN⟩ (1 : Fin 2) * 10 + 10
    rw [e1]; omega

/-- First launch, second output: `x · W1_rᵀ`. -/
theorem project0_right (c : Dev nD) :
    (dat0 (F := Ideal) V c).arrAt 4 cfg0.N = projAt (K := 128) (V c main_arg0) (V c main_arg2) :=
  (dat0 (F := Ideal) V c).arrAt_eq_of_cover 4 (projAt (K := 128) (V c main_arg0) (V c main_arg2))
    (fun t _ => flushed0_4 V c t) tiled0_4

/-! ## The third launch: [5000, 10] blocks against the two [10, 10] weight matrices -/

/-- The transpose of a 10 x 10 matrix read at (k, q) is the matrix at (q, k). -/
private theorem transp10 (w : FVec Ideal S10x10 .bf16) (k : Fin 10) (q : Fin 10) :
    transpose S10x10 [1, 0] w transposes_S10x10_p1_0_S10x10 (ix2 k q) = w (ix2 q k) := by
  refine transpose_apply _ _ _ _ _ fun b => ?_
  match b with
  | ⟨0, _⟩ => rfl
  | ⟨1, _⟩ => rfl

/-- Entry (p, q) of the first product of a block: row p of the block against row q of the weight matrix. -/
private theorem pay2_left (x0 : Vec Ideal S5000x10 .f32) (w : Vec Ideal S10x10 .f32) (p : Fin 5000) (q : Fin 10) :
    k2_pay2 (F := Ideal) x0 w (ix2 p q) = ∑ k : Fin 10, x0 (ix2 p k) * w (ix2 q k) := by
  unfold k2_pay2 k2_pay1
  show FloatOps.matmul (DotDims.plain 5000 10 10) none _ _ (constant ⟨2, ![5000, 10]⟩ .f32 0x00000000#32) (ix2 p q) = _
  rw [Cert.PlainMatmul.apply]
  refine Finset.sum_congr rfl fun k _ => ?_
  rw [transp10, truncf_apply, shapeCast_self]
  rfl

/-- Entry (p, q) of the second product of a block. -/
private theorem pay2_right (x0 : Vec Ideal S5000x10 .f32) (w : Vec Ideal S10x10 .f32) (p : Fin 5000) (q : Fin 10) :
    k2_pay3 (F := Ideal) x0 w (ix2 p q) = ∑ k : Fin 10, x0 (ix2 p k) * w (ix2 q k) := by
  unfold k2_pay3 k2_pay1
  show FloatOps.matmul (DotDims.plain 5000 10 10) none _ _ (constant ⟨2, ![5000, 10]⟩ .f32 0x00000000#32) (ix2 p q) = _
  rw [Cert.PlainMatmul.apply]
  refine Finset.sum_congr rfl fun k _ => ?_
  rw [transp10, truncf_apply, shapeCast_self]
  rfl

/-- The block indices of the third launch's windows, decided once over its ten points. -/
private theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- A point's number is below ten. -/
private theorem pt_lt2 (t : Fin cfg2.N) : t.val < 10 := lt_of_lt_of_eq t.isLt N_2

/-- The feature block at point t holds rows 5000 t + p of the hidden-feature array. -/
private theorem xblk2 (c : Dev nD) (t : Fin cfg2.N) (p : Fin 5000) (k : Fin 10) :
    (iblk2 V c 0 t : Vec Ideal S5000x10 .f32) (ix2 p k)
      = (V c main_v20 : FVec Ideal S50000x10 .f32) (ix2 ⟨t.val * 5000 + p.val, row_lt _ (pt_lt2 t) p⟩ k) := by
  obtain ⟨e0, e1, -⟩ := idx2 t
  show V c main_v20 (((cfg2.win 0).blk t).view.emb (ix2 p k)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 10 + 1 * k.val = k.val; omega

/-- The first weight block at any point is the whole first weight matrix. -/
private theorem wlblk2 (c : Dev nD) (t : Fin cfg2.N) (q : Fin 10) (k : Fin 10) :
    (iblk2 V c 1 t : Vec Ideal S10x10 .f32) (ix2 q k) = (V c main_arg3 : FVec Ideal S10x10 .f32) (ix2 q k) := by
  obtain ⟨-, -, e0, e1, -⟩ := idx2 t
  show V c main_arg3 (((cfg2.win 1).blk t).view.emb (ix2 q k)) = _
  refine congrArg _ (funext fun a => Fin.ext ?_)
  match a with
  | ⟨0, _⟩ => show win2_1.index t (0 : Fin 2) * 10 + 1 * q.val = q.val; omega
  | ⟨1, _⟩ => show win2_1.index t (1 : Fin 2) * 10 + 1 * k.val = k.val; omega

/-- The second weight block at any point is the whole second weight matrix. -/
private theorem wrblk2 (c : Dev nD) (t : Fin cfg2.N) (q : Fin 10) (k : Fin 10) :
    (iblk2 V c 2 t : Vec Ideal S10x10 .f32) (ix2 q k) = (V c main_arg4 : FVec Ideal S10x10 .f32) (ix2 q k) := by
  obtain ⟨-, -, -, -, e0, e1, -⟩ := idx2 t
  show V c main_arg4 (((cfg2.win 2).blk t).view.emb (ix2 q k)) = _
  refine congrArg _ (funext fun a => Fin.ext ?_)
  match a with
  | ⟨0, _⟩ => show win2_2.index t (0 : Fin 2) * 10 + 1 * q.val = q.val; omega
  | ⟨1, _⟩ => show win2_2.index t (1 : Fin 2) * 10 + 1 * k.val = k.val; omega

/-- Where entry (p, q) of the first output's block at point t sits in the output array. -/
private theorem oblk2_3 (t : Fin cfg2.N) (p : Fin 5000) (q : Fin 10) :
    (((cfg2.win 3).blk t).view.emb (ix2 p q) : S50000x10.Idx) = ix2 ⟨t.val * 5000 + p.val, row_lt _ (pt_lt2 t) p⟩ q := by
  obtain ⟨-, -, -, -, -, -, e0, e1, -⟩ := idx2 t
  refine funext fun a => Fin.ext ?_
  match a with
  | ⟨0, _⟩ => show win2_3.index t (0 : Fin 2) * 5000 + 1 * p.val = t.val * 5000 + p.val; omega
  | ⟨1, _⟩ => show win2_3.index t (1 : Fin 2) * 10 + 1 * q.val = q.val; omega

/-- Where entry (p, q) of the second output's block at point t sits in the output array. -/
private theorem oblk2_4 (t : Fin cfg2.N) (p : Fin 5000) (q : Fin 10) :
    (((cfg2.win 4).blk t).view.emb (ix2 p q) : S50000x10.Idx) = ix2 ⟨t.val * 5000 + p.val, row_lt _ (pt_lt2 t) p⟩ q := by
  obtain ⟨-, -, -, -, -, -, -, -, e0, e1⟩ := idx2 t
  refine funext fun a => Fin.ext ?_
  match a with
  | ⟨0, _⟩ => show win2_4.index t (0 : Fin 2) * 5000 + 1 * p.val = t.val * 5000 + p.val; omega
  | ⟨1, _⟩ => show win2_4.index t (1 : Fin 2) * 10 + 1 * q.val = q.val; omega

/-- What point t writes back to the first output: block t of the whole product. -/
private theorem flushed2_3 (c : Dev nD) (t : Fin cfg2.N) :
    (dat2 (F := Ideal) V c).flushed 3 t
      = ((cfg2.win 3).blk t).view.read (Elt Ideal) (projAt (K := 10) (V c main_v20) (V c main_arg3)) := by
  show (cfg2.win 3).cut (grid2.coords t) ((dat2 V c).after 3 t) = _
  rw [after2_3]
  unfold out2_3
  rw [View.canon_unit_zero zero_off]
  simp only [View.ld_unit_zero (S := S5000x10) zero_off, View.ld_unit_zero (S := S10x10) zero_off]
  have e : ∀ j : S5000x10.Idx, k2_pay2 (F := Ideal) (iblk2 V c 0 t) (iblk2 V c 1 t) j
      = projAt (K := 10) (V c main_v20) (V c main_arg3) (((cfg2.win 3).blk t).view.emb j) := by
    intro j
    obtain ⟨p, q, rfl⟩ : ∃ (p : Fin 5000) (q : Fin 10), j = ix2 p q := ⟨j 0, j 1, eq_ix2 j⟩
    rw [pay2_left, oblk2_3, projAt_apply]
    refine Finset.sum_congr rfl fun k _ => ?_
    rw [xblk2, wlblk2]
  exact funext e

/-- What point t writes back to the second output: block t of the whole product. -/
private theorem flushed2_4 (c : Dev nD) (t : Fin cfg2.N) :
    (dat2 (F := Ideal) V c).flushed 4 t
      = ((cfg2.win 4).blk t).view.read (Elt Ideal) (projAt (K := 10) (V c main_v20) (V c main_arg4)) := by
  show (cfg2.win 4).cut (grid2.coords t) ((dat2 V c).after 4 t) = _
  rw [after2_4]
  unfold out2_4
  rw [View.canon_unit_zero zero_off]
  simp only [View.ld_unit_zero (S := S5000x10) zero_off, View.ld_unit_zero (S := S10x10) zero_off]
  have e : ∀ j : S5000x10.Idx, k2_pay3 (F := Ideal) (iblk2 V c 0 t) (iblk2 V c 2 t) j
      = projAt (K := 10) (V c main_v20) (V c main_arg4) (((cfg2.win 4).blk t).view.emb j) := by
    intro j
    obtain ⟨p, q, rfl⟩ : ∃ (p : Fin 5000) (q : Fin 10), j = ix2 p q := ⟨j 0, j 1, eq_ix2 j⟩
    rw [pay2_right, oblk2_4, projAt_apply]
    refine Finset.sum_congr rfl fun k _ => ?_
    rw [xblk2, wrblk2]
  exact funext e

/-- An index of the first output array is in point t's block iff each coordinate is in the block's range on its axis. -/
private theorem mem_blk2_3 (t : Fin cfg2.N) (i : S50000x10.Idx) :
    i ∈ ((cfg2.win 3).blk t).view.set ↔ ∀ a : Fin 2, win2_3.index t a * S5000x10.size a ≤ (i a).val
      ∧ (i a).val < win2_3.index t a * S5000x10.size a + S5000x10.size a := by
  show i ∈ ((View.whole main_v21_0).slice (win2_3.rect t)).set ↔ _
  rw [View.set_slice_whole, Rect.mem_set_unit]
  exact Iff.rfl

/-- An index of the second output array is in point t's block iff each coordinate is in the block's range on its axis. -/
private theorem mem_blk2_4 (t : Fin cfg2.N) (i : S50000x10.Idx) :
    i ∈ ((cfg2.win 4).blk t).view.set ↔ ∀ a : Fin 2, win2_4.index t a * S5000x10.size a ≤ (i a).val
      ∧ (i a).val < win2_4.index t a * S5000x10.size a + S5000x10.size a := by
  show i ∈ ((View.whole main_v21_1).slice (win2_4.rect t)).set ↔ _
  rw [View.set_slice_whole, Rect.mem_set_unit]
  exact Iff.rfl

/-- Row r of the first output is written back at point r / 5000. -/
private theorem tiled2_3 (i : S50000x10.Idx) :
    ∃ t : Fin cfg2.N, (cfg2.win 3).flush t = true ∧ i ∈ ((cfg2.win 3).blk t).view.set := by
  have hi0 : (i 0).val < 50000 := (i 0).isLt
  have hi1 : (i 1).val < 10 := (i 1).isLt
  have hN : (i 0).val / 5000 < cfg2.N := lt_of_lt_of_eq (by omega) N_2.symm
  refine ⟨⟨(i 0).val / 5000, hN⟩, flush2_3 _, ?_⟩
  rw [mem_blk2_3]
  obtain ⟨-, -, -, -, -, -, e0, e1, -⟩ := idx2 ⟨(i 0).val / 5000, hN⟩
  intro a
  match a with
  | ⟨0, _⟩ =>
    show win2_3.index ⟨(i 0).val / 5000, hN⟩ (0 : Fin 2) * 5000 ≤ (i 0).val
      ∧ (i 0).val < win2_3.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win2_3.index ⟨(i 0).val / 5000, hN⟩ (1 : Fin 2) * 10 ≤ (i 1).val
      ∧ (i 1).val < win2_3.index ⟨(i 0).val / 5000, hN⟩ (1 : Fin 2) * 10 + 10
    rw [e1]; omega

/-- Row r of the second output is written back at point r / 5000. -/
private theorem tiled2_4 (i : S50000x10.Idx) :
    ∃ t : Fin cfg2.N, (cfg2.win 4).flush t = true ∧ i ∈ ((cfg2.win 4).blk t).view.set := by
  have hi0 : (i 0).val < 50000 := (i 0).isLt
  have hi1 : (i 1).val < 10 := (i 1).isLt
  have hN : (i 0).val / 5000 < cfg2.N := lt_of_lt_of_eq (by omega) N_2.symm
  refine ⟨⟨(i 0).val / 5000, hN⟩, flush2_4 _, ?_⟩
  rw [mem_blk2_4]
  obtain ⟨-, -, -, -, -, -, -, -, e0, e1⟩ := idx2 ⟨(i 0).val / 5000, hN⟩
  intro a
  match a with
  | ⟨0, _⟩ =>
    show win2_4.index ⟨(i 0).val / 5000, hN⟩ (0 : Fin 2) * 5000 ≤ (i 0).val
      ∧ (i 0).val < win2_4.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win2_4.index ⟨(i 0).val / 5000, hN⟩ (1 : Fin 2) * 10 ≤ (i 1).val
      ∧ (i 1).val < win2_4.index ⟨(i 0).val / 5000, hN⟩ (1 : Fin 2) * 10 + 10
    rw [e1]; omega

/-- Third launch, first output: `h1 · W2_lᵀ`. -/
theorem project2_left (c : Dev nD) :
    (dat2 (F := Ideal) V c).arrAt 3 cfg2.N = projAt (K := 10) (V c main_v20) (V c main_arg3) :=
  (dat2 (F := Ideal) V c).arrAt_eq_of_cover 3 (projAt (K := 10) (V c main_v20) (V c main_arg3))
    (fun t _ => flushed2_3 V c t) tiled2_3

/-- Third launch, second output: `h1 · W2_rᵀ`. -/
theorem project2_right (c : Dev nD) :
    (dat2 (F := Ideal) V c).arrAt 4 cfg2.N = projAt (K := 10) (V c main_v20) (V c main_arg4) :=
  (dat2 (F := Ideal) V c).arrAt_eq_of_cover 4 (projAt (K := 10) (V c main_v20) (V c main_arg4))
    (fun t _ => flushed2_4 V c t) tiled2_4

end Cert.KernelIdeal.RegionValue

end
-- ==== Proof.RegionCombine.lean ====
/-
  What the two combining launches leave in their output arrays.

  Each launch walks ten blocks of 5000 rows of two 50000 x 10 arrays, adds the blocks entry by entry (the first launch
  then takes the maximum with zero) and writes the 5000 x 10 result back to the same rows of the output.  The ten blocks
  tile the rows, so after the launch the output is the entrywise sum (resp. its positive part) of the two arrays as the
  launch found them.
-/
import proofs.«421297_j20469814132906_3_alg».proof.Proof.Gen.KernelIdeal.Frame
import proofs.«421297_j20469814132906_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

variable (V : (c : Dev nD) → (b : Ref sig .tc) → Buf (Elt Ideal) ((c : Thread nD τ).loc b))

/-- The offsets of an access to a whole block, written as a function. -/
private theorem zeroOffsets : (![0, 0] : Fin 2 → Nat) = fun _ => 0 :=
  funext fun a => by fin_cases a <;> rfl

/-! ## Second launch: the positive part of a sum -/

/-- Entry `j` of the block the second launch stores: the positive part of the sum of the two loaded blocks' entries. -/
private theorem posSum_block (x0 x1 : Vec Ideal S5000x10 .f32) (j : S5000x10.Idx) :
    (k1_pay1 x0 x1 : FVec Ideal S5000x10 .f32) j = max ((x0 j : EReal) + x1 j) 0 := by
  unfold k1_pay1
  simp only [shapeCast_self]
  rw [maximumf_apply, addf_apply, broadcast_apply]
  show max _ (Ideal.ofBits .f32 0x00000000#32) = _
  rw [Ideal.ofBits_zero_f32]

/-- The second launch's windows all sit on block `t` of the rows at point `t`, and on the one block of the columns. -/
private theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The first input block at point `t` is the first input array read on the rows and columns of the output's block. -/
private theorem first_block1 (c : Dev nD) (t : Fin cfg1.N) (y : S5000x10.Idx) :
    (iblk1 (F := Ideal) V c 0 t : Vec Ideal S5000x10 .f32) y
      = (V c main_v19 : FVec Ideal S50000x10 .f32) (((cfg1.win 2).blk t).view.emb y) := by
  show V c main_v19 (((cfg1.win 0).blk t).view.emb y) = V c main_v19 (((cfg1.win 2).blk t).view.emb y)
  obtain ⟨e0, e1, -, -, e4, e5⟩ := blockIndex1 t
  refine congrArg _ (funext fun a => Fin.ext ?_)
  match a with
  | ⟨0, _⟩ =>
    show win1_0.index t (0 : Fin 2) * 5000 + 1 * (y 0).val = win1_2.index t (0 : Fin 2) * 5000 + 1 * (y 0).val
    omega
  | ⟨1, _⟩ =>
    show win1_0.index t (1 : Fin 2) * 10 + 1 * (y 1).val = win1_2.index t (1 : Fin 2) * 10 + 1 * (y 1).val
    omega

/-- The second input block at point `t` is the second input array read on the rows and columns of the output's block. -/
private theorem second_block1 (c : Dev nD) (t : Fin cfg1.N) (y : S5000x10.Idx) :
    (iblk1 (F := Ideal) V c 1 t : Vec Ideal S5000x10 .f32) y
      = (V c main_v12_1 : FVec Ideal S50000x10 .f32) (((cfg1.win 2).blk t).view.emb y) := by
  show V c main_v12_1 (((cfg1.win 1).blk t).view.emb y) = V c main_v12_1 (((cfg1.win 2).blk t).view.emb y)
  obtain ⟨-, -, e2, e3, e4, e5⟩ := blockIndex1 t
  refine congrArg _ (funext fun a => Fin.ext ?_)
  match a with
  | ⟨0, _⟩ =>
    show win1_1.index t (0 : Fin 2) * 5000 + 1 * (y 0).val = win1_2.index t (0 : Fin 2) * 5000 + 1 * (y 0).val
    omega
  | ⟨1, _⟩ =>
    show win1_1.index t (1 : Fin 2) * 10 + 1 * (y 1).val = win1_2.index t (1 : Fin 2) * 10 + 1 * (y 1).val
    omega

/-- What point `t` of the second launch writes back is block `t` of the positive part of the sum of the two input
    arrays. -/
private theorem flushed1 (c : Dev nD) (t : Fin cfg1.N) :
    (dat1 (F := Ideal) V c).flushed 2 t
      = ((cfg1.win 2).blk t).view.read (Elt Ideal) (sumPos (V c main_v19) (V c main_v12_1)) := by
  show (cfg1.win 2).cut (grid1.coords t) ((dat1 (F := Ideal) V c).after 2 t) = _
  rw [after1_2]
  unfold out1_2
  rw [View.canon_unit_zero zeroOffsets]
  simp only [View.ld_unit_zero (S := S5000x10) zeroOffsets]
  funext j
  show (k1_pay1 (iblk1 V c 0 t) (iblk1 V c 1 t) : FVec Ideal S5000x10 .f32) j
    = sumPos (V c main_v19) (V c main_v12_1) (((cfg1.win 2).blk t).view.emb j)
  rw [posSum_block, first_block1, second_block1]
  rfl

/-- An index of the output array is in point `t`'s block iff each coordinate lies in the block's range on its axis. -/
private theorem mem_block1 (t : Fin cfg1.N) (i : S50000x10.Idx) :
    i ∈ ((cfg1.win 2).blk t).view.set ↔ ∀ a : Fin 2, win1_2.index t a * S5000x10.size a ≤ (i a).val
      ∧ (i a).val < win1_2.index t a * S5000x10.size a + S5000x10.size a := by
  show i ∈ ((View.whole main_v20).slice (win1_2.rect t)).set ↔ _
  rw [View.set_slice_whole, Rect.mem_set_unit]
  exact Iff.rfl

/-- The ten blocks of 5000 rows tile the 50000 rows: row `r` lies in the block of point `r / 5000`, which is written
    back. -/
private theorem covered1 (i : S50000x10.Idx) :
    ∃ t : Fin cfg1.N, (cfg1.win 2).flush t = true ∧ i ∈ ((cfg1.win 2).blk t).view.set := by
  have hi0 : (i 0).val < 50000 := (i 0).isLt
  have hi1 : (i 1).val < 10 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, e4, e5⟩ := blockIndex1 t
  refine ⟨t, flush1_2 t, ?_⟩
  rw [mem_block1]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 10 ≤ (i 1).val ∧ (i 1).val < win1_2.index t (1 : Fin 2) * 10 + 10
    omega

/-- Second launch: the positive part of the sum of its two input arrays. -/
theorem combine1 (c : Dev nD) :
    (dat1 (F := Ideal) V c).arrAt 2 cfg1.N
      = sumPos (V c main_v19) (V c main_v12_1) :=
  (dat1 (F := Ideal) V c).arrAt_eq_of_cover 2 (sumPos (V c main_v19) (V c main_v12_1))
    (fun t _ => flushed1 V c t) covered1

/-! ## Fourth launch: a sum -/

/-- Entry `j` of the block the fourth launch stores: the sum of the two loaded blocks' entries. -/
private theorem sum_block (x0 x1 : Vec Ideal S5000x10 .f32) (j : S5000x10.Idx) :
    (k3_pay1 x0 x1 : FVec Ideal S5000x10 .f32) j = (x0 j : EReal) + x1 j := by
  unfold k3_pay1
  simp only [shapeCast_self]
  rw [addf_apply]

/-- The fourth launch's windows all sit on block `t` of the rows at point `t`, and on the one block of the columns. -/
private theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The first input block at point `t` is the first input array read on the rows and columns of the output's block. -/
private theorem first_block3 (c : Dev nD) (t : Fin cfg3.N) (y : S5000x10.Idx) :
    (iblk3 (F := Ideal) V c 0 t : Vec Ideal S5000x10 .f32) y
      = (V c main_v28 : FVec Ideal S50000x10 .f32) (((cfg3.win 2).blk t).view.emb y) := by
  show V c main_v28 (((cfg3.win 0).blk t).view.emb y) = V c main_v28 (((cfg3.win 2).blk t).view.emb y)
  obtain ⟨e0, e1, -, -, e4, e5⟩ := blockIndex3 t
  refine congrArg _ (funext fun a => Fin.ext ?_)
  match a with
  | ⟨0, _⟩ =>
    show win3_0.index t (0 : Fin 2) * 5000 + 1 * (y 0).val = win3_2.index t (0 : Fin 2) * 5000 + 1 * (y 0).val
    omega
  | ⟨1, _⟩ =>
    show win3_0.index t (1 : Fin 2) * 10 + 1 * (y 1).val = win3_2.index t (1 : Fin 2) * 10 + 1 * (y 1).val
    omega

/-- The second input block at point `t` is the second input array read on the rows and columns of the output's block. -/
private theorem second_block3 (c : Dev nD) (t : Fin cfg3.N) (y : S5000x10.Idx) :
    (iblk3 (F := Ideal) V c 1 t : Vec Ideal S5000x10 .f32) y
      = (V c main_v21_1 : FVec Ideal S50000x10 .f32) (((cfg3.win 2).blk t).view.emb y) := by
  show V c main_v21_1 (((cfg3.win 1).blk t).view.emb y) = V c main_v21_1 (((cfg3.win 2).blk t).view.emb y)
  obtain ⟨-, -, e2, e3, e4, e5⟩ := blockIndex3 t
  refine congrArg _ (funext fun a => Fin.ext ?_)
  match a with
  | ⟨0, _⟩ =>
    show win3_1.index t (0 : Fin 2) * 5000 + 1 * (y 0).val = win3_2.index t (0 : Fin 2) * 5000 + 1 * (y 0).val
    omega
  | ⟨1, _⟩ =>
    show win3_1.index t (1 : Fin 2) * 10 + 1 * (y 1).val = win3_2.index t (1 : Fin 2) * 10 + 1 * (y 1).val
    omega

/-- What point `t` of the fourth launch writes back is block `t` of the sum of the two input arrays. -/
private theorem flushed3 (c : Dev nD) (t : Fin cfg3.N) :
    (dat3 (F := Ideal) V c).flushed 2 t
      = ((cfg3.win 2).blk t).view.read (Elt Ideal) (sumArr (V c main_v28) (V c main_v21_1)) := by
  show (cfg3.win 2).cut (grid3.coords t) ((dat3 (F := Ideal) V c).after 2 t) = _
  rw [after3_2]
  unfold out3_2
  rw [View.canon_unit_zero zeroOffsets]
  simp only [View.ld_unit_zero (S := S5000x10) zeroOffsets]
  funext j
  show (k3_pay1 (iblk3 V c 0 t) (iblk3 V c 1 t) : FVec Ideal S5000x10 .f32) j
    = sumArr (V c main_v28) (V c main_v21_1) (((cfg3.win 2).blk t).view.emb j)
  rw [sum_block, first_block3, second_block3]
  rfl

/-- An index of the output array is in point `t`'s block iff each coordinate lies in the block's range on its axis. -/
private theorem mem_block3 (t : Fin cfg3.N) (i : S50000x10.Idx) :
    i ∈ ((cfg3.win 2).blk t).view.set ↔ ∀ a : Fin 2, win3_2.index t a * S5000x10.size a ≤ (i a).val
      ∧ (i a).val < win3_2.index t a * S5000x10.size a + S5000x10.size a := by
  show i ∈ ((View.whole main_v29).slice (win3_2.rect t)).set ↔ _
  rw [View.set_slice_whole, Rect.mem_set_unit]
  exact Iff.rfl

/-- The ten blocks of 5000 rows tile the 50000 rows: row `r` lies in the block of point `r / 5000`, which is written
    back. -/
private theorem covered3 (i : S50000x10.Idx) :
    ∃ t : Fin cfg3.N, (cfg3.win 2).flush t = true ∧ i ∈ ((cfg3.win 2).blk t).view.set := by
  have hi0 : (i 0).val < 50000 := (i 0).isLt
  have hi1 : (i 1).val < 10 := (i 1).isLt
  obtain ⟨t, ht⟩ : ∃ t : Fin cfg3.N, t.val = (i 0).val / 5000 :=
    ⟨⟨(i 0).val / 5000, by rw [show cfg3.N = 10 from N_3]; omega⟩, rfl⟩
  obtain ⟨-, -, -, -, e4, e5⟩ := blockIndex3 t
  refine ⟨t, flush3_2 t, ?_⟩
  rw [mem_block3]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 10 ≤ (i 1).val ∧ (i 1).val < win3_2.index t (1 : Fin 2) * 10 + 10
    omega

/-- Fourth launch: the sum of its two input arrays. -/
theorem combine3 (c : Dev nD) :
    (dat3 (F := Ideal) V c).arrAt 2 cfg3.N
      = sumArr (V c main_v28) (V c main_v21_1) :=
  (dat3 (F := Ideal) V c).arrAt_eq_of_cover 2 (sumArr (V c main_v28) (V c main_v21_1))
    (fun t _ => flushed3 V c t) covered3

end Cert.KernelIdeal.RegionValue

end
-- ==== Proof.TakeInRange.lean ====
/-
  A row-take with a fill value, and when it is the plain row gather.

  The take wraps a negative row number once (adds the table's 50000 rows to it), tests the wrapped number against the
  table's range `0 … 49999`, gathers the row (a gather clamps its start into the table), and where the test failed replaces
  the gathered row by a fill word.  When every row number is already in `0 … 49999` nothing is wrapped, every test
  succeeds, and the take is the gather.
-/
import proofs.«421297_j20469814132906_3_alg».proof.KernelIdeal
import proofs.«421297_j20469814132906_3_alg».proof.Proof.Gen.KernelIdeal
import Idealize.ShloMosaic.Lib.StableHlo.Predicate
import Idealize.ShloMosaic.Lib.ReduceAll
import Idealize.ShloMosaic.Lib.ValueIdx
import Idealize.ShloMosaic.Lib.Pipeline.Value

noncomputable section

namespace Cert.KernelIdeal.Take

open Idealize.ShloMosaic Idealize.ShloMosaic.ValueIdx Cert.KernelIdeal Cert.KernelIdeal.Gen

/-- The row numbers, a negative one wrapped once, as the `[1600000, 1]` column of start indices. -/
def srcCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- Per row number: is it (wrapped) inside `0 … 49999`. -/
def inRange (col : IVec S1600000x1 32) : IVec S1600000 1 :=
  Host.reduce IntOp.andi
    (andi (cmpi .sge col (broadcastInDim S1600000x1 ![] bcast_S_S1600000x1 (constantI S_ 32 0#32)))
      (cmpi .sle col (broadcastInDim S1600000x1 ![0, 1] bcast_S1x1_S1600000x1_0_1
        (broadcastInDim S1x1 ![1] bcast_S1_S1x1_1 (constantI S1 32 49999#32)))))
    (constantI S_ 1 1#1) reducesTo_S1600000x1_S1600000_d1 h_S_

/-- The take: the gathered rows where the row number is in range, the fill word elsewhere. -/
def takeFill (xl : FVec Ideal S50000x10 .f32) (src : IVec S1600000 32) : FVec Ideal S1600000x10 .f32 :=
  select (broadcastInDim S1600000x10 ![0] bcast_S1600000_S1600000x10_0 (inRange (srcCol src)))
    (Host.gather gather_S50000x10_S1600000x1_S1600000x10_1_0_n_n_0_1_110 xl (srcCol src))
    (broadcastInDim S1600000x10 ![] bcast_S_S1600000x10 (constant S_ .f32 0x7FC00000#32))

/-- A left fold by `and` that starts at 1 and meets only 1s ends at 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : IntOp.andi 1#1 (f a) = 1#1 := IntOp.andi_eq_one.2 ⟨rfl, h a (List.mem_cons.2 (Or.inl rfl))⟩
    rw [List.foldl_cons, ha]
    exact foldl_andi_one f l fun n hn => h n (List.mem_cons_of_mem _ hn)

/-- A reduction by `and`, from the initial word 1, of an array whose every word is 1 is 1 at every result index: each
    result word is the fold of `and` from the initial word over some of the array's words. -/
private theorem reduce_andi_one {s t u : Shape} {axes : List (Fin s.rank)} (x : s.Idx → BitVec 1) (init : u.Idx → BitVec 1)
    (hr : s.ReducesTo axes t) (hu : 0 < u.numel) (j : t.Idx) (hinit : init (Shape.Idx.first hu) = 1#1)
    (hx : ∀ i, x i = 1#1) : Host.reduce IntOp.andi x init hr hu j = 1#1 := by
  rw [Host.reduce_eq_foldl, hinit]
  exact foldl_andi_one x _ fun i _ => hx i

/-- A nonnegative row number is not wrapped: the column of start indices reads, at `(e, q)`, row number `e` itself (the
    broadcast along axis 0 keeps the coordinate `e`; the select's condition `src e < 0` fails). -/
private theorem srcCol_apply (src : IVec S1600000 32) (h : ∀ e : Fin 1600000, 0 ≤ (src (ix1 e)).toInt ∧ (src (ix1 e)).toInt < 50000)
    (e : Fin 1600000) (q : Fin 1) : srcCol src (ix2 e q) = src (ix1 e) := by
  unfold srcCol
  refine (broadcastInDim_apply ![0] bcast_S1600000_S1600000x1_0 _ (ix2 e q) (ix1 e) (fun a => match a with
    | ⟨0, _⟩ => by
      show e.val = if (1600000 : ℕ) = 1 then 0 else e.val
      exact (if_neg (by decide)).symm)).trans ?_
  rw [select_apply]
  have hc : ¬ (cmpi .slt src (broadcastInDim S1600000 ![] bcast_S_S1600000 (constantI S_ 32 0#32)) (ix1 e) = 1#1) := by
    show ¬ (IntOp.cmpi .slt (src (ix1 e)) (0#32) = 1#1)
    rw [IntOp.cmpi_slt]
    have h0 := (h e).1
    have z : (0#32 : BitVec 32).toInt = 0 := by decide
    omega
  exact if_neg hc

/-- With every row number in `0 … 49999`, both range tests succeed at every position of the column. -/
private theorem inRange_bit (src : IVec S1600000 32) (h : ∀ e : Fin 1600000, 0 ≤ (src (ix1 e)).toInt ∧ (src (ix1 e)).toInt < 50000)
    (e : Fin 1600000) (q : Fin 1) :
    andi (cmpi .sge (srcCol src) (broadcastInDim S1600000x1 ![] bcast_S_S1600000x1 (constantI S_ 32 0#32)))
      (cmpi .sle (srcCol src) (broadcastInDim S1600000x1 ![0, 1] bcast_S1x1_S1600000x1_0_1
        (broadcastInDim S1x1 ![1] bcast_S1_S1x1_1 (constantI S1 32 49999#32)))) (ix2 e q) = 1#1 := by
  show IntOp.andi (IntOp.cmpi .sge (srcCol src (ix2 e q)) (0#32)) (IntOp.cmpi .sle (srcCol src (ix2 e q)) (49999#32)) = 1#1
  rw [srcCol_apply src h e q, IntOp.andi_eq_one, IntOp.cmpi_sge, IntOp.cmpi_sle]
  have z0 : (0#32 : BitVec 32).toInt = 0 := by decide
  have z1 : (49999#32 : BitVec 32).toInt = 49999 := by decide
  have he := h e
  omega

/-- With every row number in `0 … 49999` the take is the gather. -/
theorem takeFill_eq_gather (xl : FVec Ideal S50000x10 .f32) (src : IVec S1600000 32)
    (h : ∀ e : Fin 1600000, 0 ≤ (src (ix1 e)).toInt ∧ (src (ix1 e)).toInt < 50000) :
    takeFill xl src = Host.gather gather_S50000x10_S1600000x1_S1600000x10_1_0_n_n_0_1_110 xl (srcCol src) := by
  funext i
  obtain ⟨e, q, rfl⟩ : ∃ (e : Fin 1600000) (q : Fin 10), i = ix2 e q := ⟨i 0, i 1, eq_ix2 i⟩
  -- the mask at (e, q) is the range test of row number e, which is 1
  have hm : broadcastInDim S1600000x10 ![0] bcast_S1600000_S1600000x10_0 (inRange (srcCol src)) (ix2 e q) = 1#1 := by
    refine (broadcastInDim_apply ![0] bcast_S1600000_S1600000x10_0 _ (ix2 e q) (ix1 e) (fun a => match a with
      | ⟨0, _⟩ => by
        show e.val = if (1600000 : ℕ) = 1 then 0 else e.val
        exact (if_neg (by decide)).symm)).trans ?_
    unfold inRange
    refine reduce_andi_one _ _ _ _ _ rfl fun k => ?_
    obtain ⟨e', q', rfl⟩ : ∃ (e' : Fin 1600000) (q' : Fin 1), k = ix2 e' q' := ⟨k 0, k 1, eq_ix2 k⟩
    exact inRange_bit src h e' q'
  unfold takeFill
  rw [select_apply, hm]
  exact select_one _ _

end Cert.KernelIdeal.Take

end
-- ==== Proof.RefShape.lean ====
/-
  The reference's last stretch as one function of the node features.

  After the second layer both programs pool the `[50000, 10]` node features per graph (a sum of the rows whose graph number
  is `g`, divided by the larger of the graph's node count and one), take the product with the `[1, 10]` read-out weights
  and apply the logistic function.  None of it is opened here: it is named, so that both programs' results can be stated
  as this one function of their node features.
-/
import proofs.«421297_j20469814132906_3_alg».proof.Proof.Gen.ReferenceIdeal.Read
import proofs.«421297_j20469814132906_3_alg».proof.Proof.Spec

set_option maxRecDepth 16384

noncomputable section

namespace Cert.ReferenceIdeal.RefValue

open Idealize.ShloMosaic Cert.ReferenceIdeal Cert.ReferenceIdeal.Gen Cert.ReferenceIdeal.Read Cert.Sage

/-- Mean-pool the node features per graph, multiply by the read-out weights, apply the logistic function. -/
def tail (h2 : FVec Ideal S50000x10 .f32) (x7 : IVec S50000 32) (x5 : FVec Ideal S1x10 .f32) : FVec Ideal S1000x1 .f32 :=
  Host.divf (val_main_v67 (F := Ideal))
    (addf (val_main_v65 (F := Ideal))
      (Host.exp (Host.negf (Host.dotGeneral (φ₁ := .f32) (φ₂ := .f32) dot_S1000x10_S10x1_S1000x1_1_0_0_1_n_n none
        (Host.divf
          (Host.scatterAdd scatter_S1000x10_S50000x1_S50000x10_1_0_0_1 (val_main_v53 (F := Ideal))
            (val_main_v54 (F := Ideal) x7) h2)
          (val_main_v59 (F := Ideal) x7))
        (val_main_v61 (F := Ideal) x5)))))

/-- The reference's result is the tail of its second layer's node features. -/
theorem result_eq_tail (x0 : FVec Ideal S50000x128 .f32) (x1 x2 : FVec Ideal S10x128 .f32) (x3 x4 : FVec Ideal S10x10 .f32)
    (x5 : FVec Ideal S1x10 .f32) (x6 : IVec S2x1600000 32) (x7 : IVec S50000 32) :
    val_main_v68 (F := Ideal) x0 x1 x2 x3 x4 x5 x6 x7 = tail (val_main_v48 (F := Ideal) x0 x1 x2 x3 x4 x6) x7 x5 := rfl

end Cert.ReferenceIdeal.RefValue

end
-- ==== Proof.KernelShape.lean ====
/-
  The idealized kernel program's result as one function of its arguments.

  In the kernel's order each layer first multiplies the node features by the two transposed weight matrices, then takes
  the rows of the left product by the edges' source numbers (with a fill word for a number outside the table),
  adds them up by destination number from zero, scales each node's row, and adds the right product (the first layer then
  takes the positive part).  The pooling and read-out tail is the reference's own.
-/
import proofs.«421297_j20469814132906_3_alg».proof.Proof.Gen.KernelIdeal
import proofs.«421297_j20469814132906_3_alg».proof.Proof.Gen.ReferenceIdeal.Read
import proofs.«421297_j20469814132906_3_alg».proof.Proof.Spec
import proofs.«421297_j20469814132906_3_alg».proof.Proof.TakeInRange
import proofs.«421297_j20469814132906_3_alg».proof.Proof.RefShape

set_option maxRecDepth 16384

noncomputable section

namespace Cert.KernelIdeal.Fold

open Idealize.ShloMosaic
open Cert.KernelIdeal Cert.KernelIdeal.Gen Cert.Sage Cert.KernelIdeal.Take
open Cert.ReferenceIdeal.Read Cert.ReferenceIdeal.RefValue

/-- Aggregate `[1600000, 10]` rows by destination node from zero and scale each node's row. -/
def scaleAgg (t : FVec Ideal S1600000x10 .f32) (dst : IVec S1600000 32) (dinv : FVec Ideal S50000 .f32) :
    FVec Ideal S50000x10 .f32 :=
  mulf
    (Host.scatterAdd scatter_S50000x10_S1600000x1_S1600000x10_1_0_0_1
      (broadcastInDim S50000x10 ![] bcast_S_S50000x10 (constant S_ .f32 0x00000000#32))
      (broadcastInDim S1600000x1 ![0] bcast_S1600000_S1600000x1_0 dst) t)
    (broadcastInDim S50000x10 ![0, 1] bcast_S50000x1_S50000x10_0_1
      (broadcastInDim S50000x1 ![0] bcast_S50000_S50000x1_0 dinv))

/-! ## The kernel program's value as a function of its arguments -/

/-- The first layer in the kernel's order: project, take by source node, aggregate, scale, add, positive part. -/
def kLayer1 (x0 : FVec Ideal S50000x128 .f32) (x1 x2 : FVec Ideal S10x128 .f32) (x6 : IVec S2x1600000 32) :
    FVec Ideal S50000x10 .f32 :=
  sumPos (scaleAgg (takeFill (projAt (K := 128) x0 x1) (val_main_v1 (F := Ideal) x6)) (val_main_v3 (F := Ideal) x6)
    (val_main_v11 (F := Ideal) x6)) (projAt (K := 128) x0 x2)

/-- The second layer in the kernel's order: the same without the positive part. -/
def kLayer2 (h1 : FVec Ideal S50000x10 .f32) (x3 x4 : FVec Ideal S10x10 .f32) (x6 : IVec S2x1600000 32) :
    FVec Ideal S50000x10 .f32 :=
  sumArr (scaleAgg (takeFill (projAt (K := 10) h1 x3) (val_main_v1 (F := Ideal) x6)) (val_main_v3 (F := Ideal) x6)
    (val_main_v11 (F := Ideal) x6)) (projAt (K := 10) h1 x4)

/-- The kernel program's result as a function of its eight arguments. -/
def kernelValue (x0 : FVec Ideal S50000x128 .f32) (x1 x2 : FVec Ideal S10x128 .f32) (x3 x4 : FVec Ideal S10x10 .f32)
    (x5 : FVec Ideal S1x10 .f32) (x6 : IVec S2x1600000 32) (x7 : IVec S50000 32) : FVec Ideal S1000x1 .f32 :=
  tail (kLayer2 (kLayer1 x0 x1 x2 x6) x3 x4 x6) x7 x5

end Cert.KernelIdeal.Fold

end
-- ==== Proof.KernelFold.lean ====
/-
  The idealized kernel program's result, read back through its ten stretches.

  @main alternates stretches of host operations with four launches.  Reading each buffer at the end of a stretch from the
  buffers at its start: the first stretch makes the edge list's two rows and the per-node scale; the first launch the two
  products `x · W1_lᵀ`, `x · W1_rᵀ`; the next two stretches take the rows of the first product by source node (with a fill
  word outside the table), aggregate them by destination node and scale; the second launch adds the second product and
  takes the positive part; the third and fourth launches and the stretches between repeat this for the second layer
  without the positive part; the last stretch pools per graph and reads out.  Nothing is computed here: each step names
  what a buffer holds as a function of what earlier buffers held.
-/
import proofs.«421297_j20469814132906_3_alg».proof.Proof.Gen.KernelIdeal.Frame
import proofs.«421297_j20469814132906_3_alg».proof.Proof.Gen.ReferenceIdeal.Read
import proofs.«421297_j20469814132906_3_alg».proof.Proof.Spec
import proofs.«421297_j20469814132906_3_alg».proof.Proof.RegionProject
import proofs.«421297_j20469814132906_3_alg».proof.Proof.RegionCombine
import proofs.«421297_j20469814132906_3_alg».proof.Proof.TakeInRange
import proofs.«421297_j20469814132906_3_alg».proof.Proof.RefShape
import proofs.«421297_j20469814132906_3_alg».proof.Proof.KernelShape
import Idealize.ShloMosaic.Lib.StableHlo.Run
import Idealize.ShloMosaic.Lib.Pipeline.Frame

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.Sage
open Cert.KernelIdeal.RegionValue Cert.KernelIdeal.Take
open Cert.ReferenceIdeal.Read Cert.ReferenceIdeal.RefValue

/-! ## Each stretch of host operations, from any contents `U` -/

section Stretches

variable (U : Valuation τ sig (Elt Ideal))

/-- Contents carried to a buffer's own type and back are the contents. -/
theorem ofBuf_toBuf {T : BufTy} (x : TRef sig T) (v : T.Contents (Elt Ideal)) : x.ofBuf (x.toBuf v) = v := by
  obtain ⟨r, h, h2, h3⟩ := x
  subst h
  rfl

/-- The first stretch: the edge list's rows and the per-node scale; the arguments stay. -/
theorem stretch0 :
    StableHlo.after (hostOps0 (F := Ideal)) U (Proc.devRef .tc main_v1) = val_main_v1 (F := Ideal) (U (Proc.devRef .tc main_arg6))
    ∧ StableHlo.after (hostOps0 (F := Ideal)) U (Proc.devRef .tc main_v3) = val_main_v3 (F := Ideal) (U (Proc.devRef .tc main_arg6))
    ∧ StableHlo.after (hostOps0 (F := Ideal)) U (Proc.devRef .tc main_v11) = val_main_v11 (F := Ideal) (U (Proc.devRef .tc main_arg6))
    ∧ StableHlo.after (hostOps0 (F := Ideal)) U (Proc.devRef .tc main_arg0) = U (Proc.devRef .tc main_arg0)
    ∧ StableHlo.after (hostOps0 (F := Ideal)) U (Proc.devRef .tc main_arg1) = U (Proc.devRef .tc main_arg1)
    ∧ StableHlo.after (hostOps0 (F := Ideal)) U (Proc.devRef .tc main_arg2) = U (Proc.devRef .tc main_arg2)
    ∧ StableHlo.after (hostOps0 (F := Ideal)) U (Proc.devRef .tc main_arg3) = U (Proc.devRef .tc main_arg3)
    ∧ StableHlo.after (hostOps0 (F := Ideal)) U (Proc.devRef .tc main_arg4) = U (Proc.devRef .tc main_arg4)
    ∧ StableHlo.after (hostOps0 (F := Ideal)) U (Proc.devRef .tc main_arg5) = U (Proc.devRef .tc main_arg5)
    ∧ StableHlo.after (hostOps0 (F := Ideal)) U (Proc.devRef .tc main_arg7) = U (Proc.devRef .tc main_arg7) := by
  refine ⟨?_, ?_, ?_, ?_, ?_, ?_, ?_, ?_, ?_, ?_⟩ <;> after_results <;> rfl

/-! ### The first take in four chunks: the wrapped source column, the two comparisons' operands, the range mask, the gather and the select -/

theorem hostOps1_split : (hostOps1 (F := Ideal))
    = (hostOps1 (F := Ideal)).take 8 ++ (((hostOps1 (F := Ideal)).drop 8).take 6 ++ (((hostOps1 (F := Ideal)).drop 14).take 4 ++ (hostOps1 (F := Ideal)).drop 18)) := rfl

set_option maxHeartbeats 4000000 in
theorem hostOps1_col :
    StableHlo.after ((hostOps1 (F := Ideal)).take 8) U (Proc.devRef .tc main_call0_v5) = srcCol (U (Proc.devRef .tc main_v1))
    ∧ StableHlo.after ((hostOps1 (F := Ideal)).take 8) U (Proc.devRef .tc main_v12_0) = U (Proc.devRef .tc main_v12_0) := by
  refine ⟨?_, ?_⟩
  · simp only [hostOps1, List.take_succ_cons, List.take_zero]
    after_results_simp
    unfold srcCol
    rfl
  · simp only [hostOps1, List.take_succ_cons, List.take_zero]
    after_results_simp

set_option maxHeartbeats 4000000 in
theorem hostOps1_bounds :
    StableHlo.after (((hostOps1 (F := Ideal)).drop 8).take 6) U (Proc.devRef .tc main_call0_v7)
      = cmpi .sge (U (Proc.devRef .tc main_call0_v5)) (broadcastInDim S1600000x1 ![] bcast_S_S1600000x1 (constantI S_ 32 0#32))
    ∧ StableHlo.after (((hostOps1 (F := Ideal)).drop 8).take 6) U (Proc.devRef .tc main_call0_v9)
      = broadcastInDim S1600000x1 ![0, 1] bcast_S1x1_S1600000x1_0_1 (broadcastInDim S1x1 ![1] bcast_S1_S1x1_1 (constantI S1 32 49999#32))
    ∧ StableHlo.after (((hostOps1 (F := Ideal)).drop 8).take 6) U (Proc.devRef .tc main_call0_v5) = U (Proc.devRef .tc main_call0_v5)
    ∧ StableHlo.after (((hostOps1 (F := Ideal)).drop 8).take 6) U (Proc.devRef .tc main_v12_0) = U (Proc.devRef .tc main_v12_0) := by
  refine ⟨?_, ?_, ?_, ?_⟩
  · simp only [hostOps1, List.drop_succ_cons, List.drop_zero, List.take_succ_cons, List.take_zero]
    after_results_simp
    rfl
  · simp only [hostOps1, List.drop_succ_cons, List.drop_zero, List.take_succ_cons, List.take_zero]
    after_results_simp
    rfl
  · simp only [hostOps1, List.drop_succ_cons, List.drop_zero, List.take_succ_cons, List.take_zero]
    after_results_simp
  · simp only [hostOps1, List.drop_succ_cons, List.drop_zero, List.take_succ_cons, List.take_zero]
    after_results_simp

/-- A buffer's contents read at the buffer's own type are the contents (the types agree by computation). -/
theorem main_call0_v7_read : (TRef.of (sig := sig) (T := ⟨S1600000x1, .i1⟩) main_call0_v7).ofBuf (U (Proc.devRef .tc main_call0_v7)) = (U (Proc.devRef .tc main_call0_v7) : IVec S1600000x1 1) := rfl
theorem main_call0_v5_read : (TRef.of (sig := sig) (T := ⟨S1600000x1, .i32⟩) main_call0_v5).ofBuf (U (Proc.devRef .tc main_call0_v5)) = (U (Proc.devRef .tc main_call0_v5) : IVec S1600000x1 32) := rfl
theorem main_call0_v9_read : (TRef.of (sig := sig) (T := ⟨S1600000x1, .i32⟩) main_call0_v9).ofBuf (U (Proc.devRef .tc main_call0_v9)) = (U (Proc.devRef .tc main_call0_v9) : IVec S1600000x1 32) := rfl
theorem main_call0_v12_write (y : IVec S1600000 1) : ((TRef.of (sig := sig) (T := ⟨S1600000, .i1⟩) main_call0_v12).toBuf y : (Proc.devRef (τ := τ) (sig := sig) .tc main_call0_v12).ty.Contents (Elt Ideal)) = y := rfl

set_option maxHeartbeats 4000000 in
theorem hostOps1_mask :
    StableHlo.after (((hostOps1 (F := Ideal)).drop 14).take 4) U (Proc.devRef .tc main_call0_v12)
      = Host.reduce IntOp.andi (andi (U (Proc.devRef .tc main_call0_v7)) (cmpi .sle (U (Proc.devRef .tc main_call0_v5)) (U (Proc.devRef .tc main_call0_v9))))
          (constantI S_ 1 1#1) reducesTo_S1600000x1_S1600000_d1 h_S_
    ∧ StableHlo.after (((hostOps1 (F := Ideal)).drop 14).take 4) U (Proc.devRef .tc main_call0_v5) = U (Proc.devRef .tc main_call0_v5)
    ∧ StableHlo.after (((hostOps1 (F := Ideal)).drop 14).take 4) U (Proc.devRef .tc main_v12_0) = U (Proc.devRef .tc main_v12_0) := by
  refine ⟨?_, ?_, ?_⟩
  · simp only [hostOps1, List.drop_succ_cons, List.drop_zero, List.take_succ_cons, List.take_zero]
    after_results_simp
    simp only [ofBuf_toBuf]
    rw [main_call0_v7_read U, main_call0_v5_read U, main_call0_v9_read U, main_call0_v12_write]
  · simp only [hostOps1, List.drop_succ_cons, List.drop_zero, List.take_succ_cons, List.take_zero]
    after_results_simp
  · simp only [hostOps1, List.drop_succ_cons, List.drop_zero, List.take_succ_cons, List.take_zero]
    after_results_simp

set_option maxHeartbeats 4000000 in
theorem hostOps1_select :
    StableHlo.after ((hostOps1 (F := Ideal)).drop 18) U (Proc.devRef .tc main_v13)
      = select (broadcastInDim S1600000x10 ![0] bcast_S1600000_S1600000x10_0 (U (Proc.devRef .tc main_call0_v12)))
          (Host.gather gather_S50000x10_S1600000x1_S1600000x10_1_0_n_n_0_1_110 (U (Proc.devRef .tc main_v12_0)) (U (Proc.devRef .tc main_call0_v5)))
          (broadcastInDim S1600000x10 ![] bcast_S_S1600000x10 (constant (F := Ideal) S_ .f32 0x7FC00000#32)) := by
  simp only [hostOps1, List.drop_succ_cons, List.drop_zero]
  after_results_simp
  rfl

/-- The first take: the rows of `main_v12_0` by source node, a fill word where the source number is outside the table. -/
theorem hostOps1_take :
    StableHlo.after (hostOps1 (F := Ideal)) U (Proc.devRef .tc main_v13)
      = takeFill (U (Proc.devRef .tc main_v12_0)) (U (Proc.devRef .tc main_v1)) := by
  rw [hostOps1_split, StableHlo.after_append, StableHlo.after_append, StableHlo.after_append, hostOps1_select,
    (hostOps1_mask _).1, (hostOps1_mask _).2.1, (hostOps1_mask _).2.2,
    (hostOps1_bounds _).1, (hostOps1_bounds _).2.1, (hostOps1_bounds _).2.2.1, (hostOps1_bounds _).2.2.2,
    (hostOps1_col U).1, (hostOps1_col U).2]
  rfl

set_option maxHeartbeats 4000000 in
/-- The first take leaves the other buffers in play as they were. -/
theorem stretch1 :
    StableHlo.after (hostOps1 (F := Ideal)) U (Proc.devRef .tc main_v13)
      = takeFill (U (Proc.devRef .tc main_v12_0)) (U (Proc.devRef .tc main_v1))
    ∧ StableHlo.after (hostOps1 (F := Ideal)) U (Proc.devRef .tc main_v12_1) = U (Proc.devRef .tc main_v12_1)
    ∧ StableHlo.after (hostOps1 (F := Ideal)) U (Proc.devRef .tc main_v1) = U (Proc.devRef .tc main_v1)
    ∧ StableHlo.after (hostOps1 (F := Ideal)) U (Proc.devRef .tc main_v3) = U (Proc.devRef .tc main_v3)
    ∧ StableHlo.after (hostOps1 (F := Ideal)) U (Proc.devRef .tc main_v11) = U (Proc.devRef .tc main_v11)
    ∧ StableHlo.after (hostOps1 (F := Ideal)) U (Proc.devRef .tc main_arg3) = U (Proc.devRef .tc main_arg3)
    ∧ StableHlo.after (hostOps1 (F := Ideal)) U (Proc.devRef .tc main_arg4) = U (Proc.devRef .tc main_arg4)
    ∧ StableHlo.after (hostOps1 (F := Ideal)) U (Proc.devRef .tc main_arg5) = U (Proc.devRef .tc main_arg5)
    ∧ StableHlo.after (hostOps1 (F := Ideal)) U (Proc.devRef .tc main_arg7) = U (Proc.devRef .tc main_arg7) := by
  refine ⟨hostOps1_take U, ?_, ?_, ?_, ?_, ?_, ?_, ?_, ?_⟩ <;> after_results_simp

/-- The first aggregation and scaling; the other buffers in play stay. -/
theorem stretch1_1 :
    StableHlo.after (hostOps1_1 (F := Ideal)) U (Proc.devRef .tc main_v19)
      = scaleAgg (U (Proc.devRef .tc main_v13)) (U (Proc.devRef .tc main_v3)) (U (Proc.devRef .tc main_v11))
    ∧ StableHlo.after (hostOps1_1 (F := Ideal)) U (Proc.devRef .tc main_v12_1) = U (Proc.devRef .tc main_v12_1)
    ∧ StableHlo.after (hostOps1_1 (F := Ideal)) U (Proc.devRef .tc main_v1) = U (Proc.devRef .tc main_v1)
    ∧ StableHlo.after (hostOps1_1 (F := Ideal)) U (Proc.devRef .tc main_v3) = U (Proc.devRef .tc main_v3)
    ∧ StableHlo.after (hostOps1_1 (F := Ideal)) U (Proc.devRef .tc main_v11) = U (Proc.devRef .tc main_v11)
    ∧ StableHlo.after (hostOps1_1 (F := Ideal)) U (Proc.devRef .tc main_arg3) = U (Proc.devRef .tc main_arg3)
    ∧ StableHlo.after (hostOps1_1 (F := Ideal)) U (Proc.devRef .tc main_arg4) = U (Proc.devRef .tc main_arg4)
    ∧ StableHlo.after (hostOps1_1 (F := Ideal)) U (Proc.devRef .tc main_arg5) = U (Proc.devRef .tc main_arg5)
    ∧ StableHlo.after (hostOps1_1 (F := Ideal)) U (Proc.devRef .tc main_arg7) = U (Proc.devRef .tc main_arg7) := by
  refine ⟨?_, ?_, ?_, ?_, ?_, ?_, ?_, ?_, ?_⟩ <;> after_results <;> rfl

/-! ### The second take in four chunks: the wrapped source column, the two comparisons' operands, the range mask, the gather and the select -/

theorem hostOps3_split : (hostOps3 (F := Ideal))
    = (hostOps3 (F := Ideal)).take 8 ++ (((hostOps3 (F := Ideal)).drop 8).take 6 ++ (((hostOps3 (F := Ideal)).drop 14).take 4 ++ (hostOps3 (F := Ideal)).drop 18)) := rfl

set_option maxHeartbeats 4000000 in
theorem hostOps3_col :
    StableHlo.after ((hostOps3 (F := Ideal)).take 8) U (Proc.devRef .tc main_call1_v5) = srcCol (U (Proc.devRef .tc main_v1))
    ∧ StableHlo.after ((hostOps3 (F := Ideal)).take 8) U (Proc.devRef .tc main_v21_0) = U (Proc.devRef .tc main_v21_0) := by
  refine ⟨?_, ?_⟩
  · simp only [hostOps3, List.take_succ_cons, List.take_zero]
    after_results_simp
    unfold srcCol
    rfl
  · simp only [hostOps3, List.take_succ_cons, List.take_zero]
    after_results_simp

set_option maxHeartbeats 4000000 in
theorem hostOps3_bounds :
    StableHlo.after (((hostOps3 (F := Ideal)).drop 8).take 6) U (Proc.devRef .tc main_call1_v7)
      = cmpi .sge (U (Proc.devRef .tc main_call1_v5)) (broadcastInDim S1600000x1 ![] bcast_S_S1600000x1 (constantI S_ 32 0#32))
    ∧ StableHlo.after (((hostOps3 (F := Ideal)).drop 8).take 6) U (Proc.devRef .tc main_call1_v9)
      = broadcastInDim S1600000x1 ![0, 1] bcast_S1x1_S1600000x1_0_1 (broadcastInDim S1x1 ![1] bcast_S1_S1x1_1 (constantI S1 32 49999#32))
    ∧ StableHlo.after (((hostOps3 (F := Ideal)).drop 8).take 6) U (Proc.devRef .tc main_call1_v5) = U (Proc.devRef .tc main_call1_v5)
    ∧ StableHlo.after (((hostOps3 (F := Ideal)).drop 8).take 6) U (Proc.devRef .tc main_v21_0) = U (Proc.devRef .tc main_v21_0) := by
  refine ⟨?_, ?_, ?_, ?_⟩
  · simp only [hostOps3, List.drop_succ_cons, List.drop_zero, List.take_succ_cons, List.take_zero]
    after_results_simp
    rfl
  · simp only [hostOps3, List.drop_succ_cons, List.drop_zero, List.take_succ_cons, List.take_zero]
    after_results_simp
    rfl
  · simp only [hostOps3, List.drop_succ_cons, List.drop_zero, List.take_succ_cons, List.take_zero]
    after_results_simp
  · simp only [hostOps3, List.drop_succ_cons, List.drop_zero, List.take_succ_cons, List.take_zero]
    after_results_simp

/-- A buffer's contents read at the buffer's own type are the contents (the types agree by computation). -/
theorem main_call1_v7_read : (TRef.of (sig := sig) (T := ⟨S1600000x1, .i1⟩) main_call1_v7).ofBuf (U (Proc.devRef .tc main_call1_v7)) = (U (Proc.devRef .tc main_call1_v7) : IVec S1600000x1 1) := rfl
theorem main_call1_v5_read : (TRef.of (sig := sig) (T := ⟨S1600000x1, .i32⟩) main_call1_v5).ofBuf (U (Proc.devRef .tc main_call1_v5)) = (U (Proc.devRef .tc main_call1_v5) : IVec S1600000x1 32) := rfl
theorem main_call1_v9_read : (TRef.of (sig := sig) (T := ⟨S1600000x1, .i32⟩) main_call1_v9).ofBuf (U (Proc.devRef .tc main_call1_v9)) = (U (Proc.devRef .tc main_call1_v9) : IVec S1600000x1 32) := rfl
theorem main_call1_v12_write (y : IVec S1600000 1) : ((TRef.of (sig := sig) (T := ⟨S1600000, .i1⟩) main_call1_v12).toBuf y : (Proc.devRef (τ := τ) (sig := sig) .tc main_call1_v12).ty.Contents (Elt Ideal)) = y := rfl

set_option maxHeartbeats 4000000 in
theorem hostOps3_mask :
    StableHlo.after (((hostOps3 (F := Ideal)).drop 14).take 4) U (Proc.devRef .tc main_call1_v12)
      = Host.reduce IntOp.andi (andi (U (Proc.devRef .tc main_call1_v7)) (cmpi .sle (U (Proc.devRef .tc main_call1_v5)) (U (Proc.devRef .tc main_call1_v9))))
          (constantI S_ 1 1#1) reducesTo_S1600000x1_S1600000_d1 h_S_
    ∧ StableHlo.after (((hostOps3 (F := Ideal)).drop 14).take 4) U (Proc.devRef .tc main_call1_v5) = U (Proc.devRef .tc main_call1_v5)
    ∧ StableHlo.after (((hostOps3 (F := Ideal)).drop 14).take 4) U (Proc.devRef .tc main_v21_0) = U (Proc.devRef .tc main_v21_0) := by
  refine ⟨?_, ?_, ?_⟩
  · simp only [hostOps3, List.drop_succ_cons, List.drop_zero, List.take_succ_cons, List.take_zero]
    after_results_simp
    simp only [ofBuf_toBuf]
    rw [main_call1_v7_read U, main_call1_v5_read U, main_call1_v9_read U, main_call1_v12_write]
  · simp only [hostOps3, List.drop_succ_cons, List.drop_zero, List.take_succ_cons, List.take_zero]
    after_results_simp
  · simp only [hostOps3, List.drop_succ_cons, List.drop_zero, List.take_succ_cons, List.take_zero]
    after_results_simp

set_option maxHeartbeats 4000000 in
theorem hostOps3_select :
    StableHlo.after ((hostOps3 (F := Ideal)).drop 18) U (Proc.devRef .tc main_v22)
      = select (broadcastInDim S1600000x10 ![0] bcast_S1600000_S1600000x10_0 (U (Proc.devRef .tc main_call1_v12)))
          (Host.gather gather_S50000x10_S1600000x1_S1600000x10_1_0_n_n_0_1_110 (U (Proc.devRef .tc main_v21_0)) (U (Proc.devRef .tc main_call1_v5)))
          (broadcastInDim S1600000x10 ![] bcast_S_S1600000x10 (constant (F := Ideal) S_ .f32 0x7FC00000#32)) := by
  simp only [hostOps3, List.drop_succ_cons, List.drop_zero]
  after_results_simp
  rfl

/-- The second take: the rows of `main_v21_0` by source node, a fill word where the source number is outside the table. -/
theorem hostOps3_take :
    StableHlo.after (hostOps3 (F := Ideal)) U (Proc.devRef .tc main_v22)
      = takeFill (U (Proc.devRef .tc main_v21_0)) (U (Proc.devRef .tc main_v1)) := by
  rw [hostOps3_split, StableHlo.after_append, StableHlo.after_append, StableHlo.after_append, hostOps3_select,
    (hostOps3_mask _).1, (hostOps3_mask _).2.1, (hostOps3_mask _).2.2,
    (hostOps3_bounds _).1, (hostOps3_bounds _).2.1, (hostOps3_bounds _).2.2.1, (hostOps3_bounds _).2.2.2,
    (hostOps3_col U).1, (hostOps3_col U).2]
  rfl

set_option maxHeartbeats 4000000 in
/-- The second take leaves the other buffers in play as they were. -/
theorem stretch3 :
    StableHlo.after (hostOps3 (F := Ideal)) U (Proc.devRef .tc main_v22)
      = takeFill (U (Proc.devRef .tc main_v21_0)) (U (Proc.devRef .tc main_v1))
    ∧ StableHlo.after (hostOps3 (F := Ideal)) U (Proc.devRef .tc main_v21_1) = U (Proc.devRef .tc main_v21_1)
    ∧ StableHlo.after (hostOps3 (F := Ideal)) U (Proc.devRef .tc main_v3) = U (Proc.devRef .tc main_v3)
    ∧ StableHlo.after (hostOps3 (F := Ideal)) U (Proc.devRef .tc main_v11) = U (Proc.devRef .tc main_v11)
    ∧ StableHlo.after (hostOps3 (F := Ideal)) U (Proc.devRef .tc main_arg5) = U (Proc.devRef .tc main_arg5)
    ∧ StableHlo.after (hostOps3 (F := Ideal)) U (Proc.devRef .tc main_arg7) = U (Proc.devRef .tc main_arg7) := by
  refine ⟨hostOps3_take U, ?_, ?_, ?_, ?_, ?_⟩ <;> after_results_simp

/-- The second aggregation and scaling; the other buffers in play stay. -/
theorem stretch3_1 :
    StableHlo.after (hostOps3_1 (F := Ideal)) U (Proc.devRef .tc main_v28)
      = scaleAgg (U (Proc.devRef .tc main_v22)) (U (Proc.devRef .tc main_v3)) (U (Proc.devRef .tc main_v11))
    ∧ StableHlo.after (hostOps3_1 (F := Ideal)) U (Proc.devRef .tc main_v21_1) = U (Proc.devRef .tc main_v21_1)
    ∧ StableHlo.after (hostOps3_1 (F := Ideal)) U (Proc.devRef .tc main_arg5) = U (Proc.devRef .tc main_arg5)
    ∧ StableHlo.after (hostOps3_1 (F := Ideal)) U (Proc.devRef .tc main_arg7) = U (Proc.devRef .tc main_arg7) := by
  refine ⟨?_, ?_, ?_, ?_⟩ <;> after_results <;> rfl

set_option maxHeartbeats 4000000 in
/-- The last stretch: the pooling and read-out tail of `main_v29`. -/
theorem stretch4 :
    StableHlo.after (hostOps4 (F := Ideal)) U (Proc.devRef .tc main_v49)
      = tail (U (Proc.devRef .tc main_v29)) (U (Proc.devRef .tc main_arg7)) (U (Proc.devRef .tc main_arg5)) := by
  after_results_simp <;> rfl

end Stretches

/-! ## The fold through @main, buffer by buffer -/

section Chain

variable (m : (ℓ : Loc nD τ sig) → Buf (Elt Ideal) ℓ) (ρ : Dev nD → PrngReg) (c : Dev nD)

-- after the first stretch
theorem e1_v1 : W1 m ρ c (Proc.devRef .tc main_v1) = val_main_v1 (F := Ideal) (m ((c : Thread nD τ).loc main_arg6)) := (stretch0 (W0 m ρ c)).1
theorem e1_v3 : W1 m ρ c (Proc.devRef .tc main_v3) = val_main_v3 (F := Ideal) (m ((c : Thread nD τ).loc main_arg6)) := (stretch0 (W0 m ρ c)).2.1
theorem e1_v11 : W1 m ρ c (Proc.devRef .tc main_v11) = val_main_v11 (F := Ideal) (m ((c : Thread nD τ).loc main_arg6)) := (stretch0 (W0 m ρ c)).2.2.1
theorem e1_arg0 : W1 m ρ c (Proc.devRef .tc main_arg0) = (m ((c : Thread nD τ).loc main_arg0)) := (stretch0 (W0 m ρ c)).2.2.2.1
theorem e1_arg1 : W1 m ρ c (Proc.devRef .tc main_arg1) = (m ((c : Thread nD τ).loc main_arg1)) := (stretch0 (W0 m ρ c)).2.2.2.2.1
theorem e1_arg2 : W1 m ρ c (Proc.devRef .tc main_arg2) = (m ((c : Thread nD τ).loc main_arg2)) := (stretch0 (W0 m ρ c)).2.2.2.2.2.1
theorem e1_arg3 : W1 m ρ c (Proc.devRef .tc main_arg3) = (m ((c : Thread nD τ).loc main_arg3)) := (stretch0 (W0 m ρ c)).2.2.2.2.2.2.1
theorem e1_arg4 : W1 m ρ c (Proc.devRef .tc main_arg4) = (m ((c : Thread nD τ).loc main_arg4)) := (stretch0 (W0 m ρ c)).2.2.2.2.2.2.2.1
theorem e1_arg5 : W1 m ρ c (Proc.devRef .tc main_arg5) = (m ((c : Thread nD τ).loc main_arg5)) := (stretch0 (W0 m ρ c)).2.2.2.2.2.2.2.2.1
theorem e1_arg7 : W1 m ρ c (Proc.devRef .tc main_arg7) = (m ((c : Thread nD τ).loc main_arg7)) := (stretch0 (W0 m ρ c)).2.2.2.2.2.2.2.2.2

-- after the first launch
theorem e2_v12_0 : W2 m ρ c (Proc.devRef .tc main_v12_0) = projAt (K := 128) (m ((c : Thread nD τ).loc main_arg0)) (m ((c : Thread nD τ).loc main_arg1)) :=
  (W2_arr m ρ c 3).trans ((project0_left (V1 m ρ) c).trans (congrArg₂ (projAt (K := 128)) (e1_arg0 m ρ c) (e1_arg1 m ρ c)))
theorem e2_v12_1 : W2 m ρ c (Proc.devRef .tc main_v12_1) = projAt (K := 128) (m ((c : Thread nD τ).loc main_arg0)) (m ((c : Thread nD τ).loc main_arg2)) :=
  (W2_arr m ρ c 4).trans ((project0_right (V1 m ρ) c).trans (congrArg₂ (projAt (K := 128)) (e1_arg0 m ρ c) (e1_arg2 m ρ c)))
theorem e2_v1 : W2 m ρ c (Proc.devRef .tc main_v1) = val_main_v1 (F := Ideal) (m ((c : Thread nD τ).loc main_arg6)) := (W2_of_ne m ρ c main_v1 (by decide)).trans (e1_v1 m ρ c)
theorem e2_v3 : W2 m ρ c (Proc.devRef .tc main_v3) = val_main_v3 (F := Ideal) (m ((c : Thread nD τ).loc main_arg6)) := (W2_of_ne m ρ c main_v3 (by decide)).trans (e1_v3 m ρ c)
theorem e2_v11 : W2 m ρ c (Proc.devRef .tc main_v11) = val_main_v11 (F := Ideal) (m ((c : Thread nD τ).loc main_arg6)) := (W2_of_ne m ρ c main_v11 (by decide)).trans (e1_v11 m ρ c)
theorem e2_arg3 : W2 m ρ c (Proc.devRef .tc main_arg3) = (m ((c : Thread nD τ).loc main_arg3)) := (W2_of_ne m ρ c main_arg3 (by decide)).trans (e1_arg3 m ρ c)
theorem e2_arg4 : W2 m ρ c (Proc.devRef .tc main_arg4) = (m ((c : Thread nD τ).loc main_arg4)) := (W2_of_ne m ρ c main_arg4 (by decide)).trans (e1_arg4 m ρ c)
theorem e2_arg5 : W2 m ρ c (Proc.devRef .tc main_arg5) = (m ((c : Thread nD τ).loc main_arg5)) := (W2_of_ne m ρ c main_arg5 (by decide)).trans (e1_arg5 m ρ c)
theorem e2_arg7 : W2 m ρ c (Proc.devRef .tc main_arg7) = (m ((c : Thread nD τ).loc main_arg7)) := (W2_of_ne m ρ c main_arg7 (by decide)).trans (e1_arg7 m ρ c)

-- after the first take
theorem e3_v13 : W3 m ρ c (Proc.devRef .tc main_v13)
    = takeFill (projAt (K := 128) (m ((c : Thread nD τ).loc main_arg0)) (m ((c : Thread nD τ).loc main_arg1))) (val_main_v1 (F := Ideal) (m ((c : Thread nD τ).loc main_arg6))) :=
  (stretch1 (W2 m ρ c)).1.trans (congrArg₂ takeFill (e2_v12_0 m ρ c) (e2_v1 m ρ c))
theorem e3_v12_1 : W3 m ρ c (Proc.devRef .tc main_v12_1) = projAt (K := 128) (m ((c : Thread nD τ).loc main_arg0)) (m ((c : Thread nD τ).loc main_arg2)) := (stretch1 (W2 m ρ c)).2.1.trans (e2_v12_1 m ρ c)
theorem e3_v1 : W3 m ρ c (Proc.devRef .tc main_v1) = val_main_v1 (F := Ideal) (m ((c : Thread nD τ).loc main_arg6)) := (stretch1 (W2 m ρ c)).2.2.1.trans (e2_v1 m ρ c)
theorem e3_v3 : W3 m ρ c (Proc.devRef .tc main_v3) = val_main_v3 (F := Ideal) (m ((c : Thread nD τ).loc main_arg6)) := (stretch1 (W2 m ρ c)).2.2.2.1.trans (e2_v3 m ρ c)
theorem e3_v11 : W3 m ρ c (Proc.devRef .tc main_v11) = val_main_v11 (F := Ideal) (m ((c : Thread nD τ).loc main_arg6)) := (stretch1 (W2 m ρ c)).2.2.2.2.1.trans (e2_v11 m ρ c)
theorem e3_arg3 : W3 m ρ c (Proc.devRef .tc main_arg3) = (m ((c : Thread nD τ).loc main_arg3)) := (stretch1 (W2 m ρ c)).2.2.2.2.2.1.trans (e2_arg3 m ρ c)
theorem e3_arg4 : W3 m ρ c (Proc.devRef .tc main_arg4) = (m ((c : Thread nD τ).loc main_arg4)) := (stretch1 (W2 m ρ c)).2.2.2.2.2.2.1.trans (e2_arg4 m ρ c)
theorem e3_arg5 : W3 m ρ c (Proc.devRef .tc main_arg5) = (m ((c : Thread nD τ).loc main_arg5)) := (stretch1 (W2 m ρ c)).2.2.2.2.2.2.2.1.trans (e2_arg5 m ρ c)
theorem e3_arg7 : W3 m ρ c (Proc.devRef .tc main_arg7) = (m ((c : Thread nD τ).loc main_arg7)) := (stretch1 (W2 m ρ c)).2.2.2.2.2.2.2.2.trans (e2_arg7 m ρ c)

-- after the first aggregation
theorem e4_v19 : W4 m ρ c (Proc.devRef .tc main_v19)
    = scaleAgg (takeFill (projAt (K := 128) (m ((c : Thread nD τ).loc main_arg0)) (m ((c : Thread nD τ).loc main_arg1))) (val_main_v1 (F := Ideal) (m ((c : Thread nD τ).loc main_arg6)))) (val_main_v3 (F := Ideal) (m ((c : Thread nD τ).loc main_arg6))) (val_main_v11 (F := Ideal) (m ((c : Thread nD τ).loc main_arg6))) := by
  refine (stretch1_1 (W3 m ρ c)).1.trans ?_
  rw [e3_v13 m ρ c, e3_v3 m ρ c, e3_v11 m ρ c]
theorem e4_v12_1 : W4 m ρ c (Proc.devRef .tc main_v12_1) = projAt (K := 128) (m ((c : Thread nD τ).loc main_arg0)) (m ((c : Thread nD τ).loc main_arg2)) := (stretch1_1 (W3 m ρ c)).2.1.trans (e3_v12_1 m ρ c)
theorem e4_v1 : W4 m ρ c (Proc.devRef .tc main_v1) = val_main_v1 (F := Ideal) (m ((c : Thread nD τ).loc main_arg6)) := (stretch1_1 (W3 m ρ c)).2.2.1.trans (e3_v1 m ρ c)
theorem e4_v3 : W4 m ρ c (Proc.devRef .tc main_v3) = val_main_v3 (F := Ideal) (m ((c : Thread nD τ).loc main_arg6)) := (stretch1_1 (W3 m ρ c)).2.2.2.1.trans (e3_v3 m ρ c)
theorem e4_v11 : W4 m ρ c (Proc.devRef .tc main_v11) = val_main_v11 (F := Ideal) (m ((c : Thread nD τ).loc main_arg6)) := (stretch1_1 (W3 m ρ c)).2.2.2.2.1.trans (e3_v11 m ρ c)
theorem e4_arg3 : W4 m ρ c (Proc.devRef .tc main_arg3) = (m ((c : Thread nD τ).loc main_arg3)) := (stretch1_1 (W3 m ρ c)).2.2.2.2.2.1.trans (e3_arg3 m ρ c)
theorem e4_arg4 : W4 m ρ c (Proc.devRef .tc main_arg4) = (m ((c : Thread nD τ).loc main_arg4)) := (stretch1_1 (W3 m ρ c)).2.2.2.2.2.2.1.trans (e3_arg4 m ρ c)
theorem e4_arg5 : W4 m ρ c (Proc.devRef .tc main_arg5) = (m ((c : Thread nD τ).loc main_arg5)) := (stretch1_1 (W3 m ρ c)).2.2.2.2.2.2.2.1.trans (e3_arg5 m ρ c)
theorem e4_arg7 : W4 m ρ c (Proc.devRef .tc main_arg7) = (m ((c : Thread nD τ).loc main_arg7)) := (stretch1_1 (W3 m ρ c)).2.2.2.2.2.2.2.2.trans (e3_arg7 m ρ c)

-- after the second launch: the first layer's node features
theorem e5_v20 : W5 m ρ c (Proc.devRef .tc main_v20) = kLayer1 (m ((c : Thread nD τ).loc main_arg0)) (m ((c : Thread nD τ).loc main_arg1)) (m ((c : Thread nD τ).loc main_arg2)) (m ((c : Thread nD τ).loc main_arg6)) :=
  (W5_arr m ρ c 2).trans ((combine1 (V4 m ρ) c).trans (congrArg₂ sumPos (e4_v19 m ρ c) (e4_v12_1 m ρ c)))
theorem e5_v1 : W5 m ρ c (Proc.devRef .tc main_v1) = val_main_v1 (F := Ideal) (m ((c : Thread nD τ).loc main_arg6)) := (W5_of_ne m ρ c main_v1 (by decide)).trans (e4_v1 m ρ c)
theorem e5_v3 : W5 m ρ c (Proc.devRef .tc main_v3) = val_main_v3 (F := Ideal) (m ((c : Thread nD τ).loc main_arg6)) := (W5_of_ne m ρ c main_v3 (by decide)).trans (e4_v3 m ρ c)
theorem e5_v11 : W5 m ρ c (Proc.devRef .tc main_v11) = val_main_v11 (F := Ideal) (m ((c : Thread nD τ).loc main_arg6)) := (W5_of_ne m ρ c main_v11 (by decide)).trans (e4_v11 m ρ c)
theorem e5_arg3 : W5 m ρ c (Proc.devRef .tc main_arg3) = (m ((c : Thread nD τ).loc main_arg3)) := (W5_of_ne m ρ c main_arg3 (by decide)).trans (e4_arg3 m ρ c)
theorem e5_arg4 : W5 m ρ c (Proc.devRef .tc main_arg4) = (m ((c : Thread nD τ).loc main_arg4)) := (W5_of_ne m ρ c main_arg4 (by decide)).trans (e4_arg4 m ρ c)
theorem e5_arg5 : W5 m ρ c (Proc.devRef .tc main_arg5) = (m ((c : Thread nD τ).loc main_arg5)) := (W5_of_ne m ρ c main_arg5 (by decide)).trans (e4_arg5 m ρ c)
theorem e5_arg7 : W5 m ρ c (Proc.devRef .tc main_arg7) = (m ((c : Thread nD τ).loc main_arg7)) := (W5_of_ne m ρ c main_arg7 (by decide)).trans (e4_arg7 m ρ c)

-- after the third launch
theorem e6_v21_0 : W6 m ρ c (Proc.devRef .tc main_v21_0) = projAt (K := 10) (kLayer1 (m ((c : Thread nD τ).loc main_arg0)) (m ((c : Thread nD τ).loc main_arg1)) (m ((c : Thread nD τ).loc main_arg2)) (m ((c : Thread nD τ).loc main_arg6))) (m ((c : Thread nD τ).loc main_arg3)) :=
  (W6_arr m ρ c 3).trans ((project2_left (V5 m ρ) c).trans (congrArg₂ (projAt (K := 10)) (e5_v20 m ρ c) (e5_arg3 m ρ c)))
theorem e6_v21_1 : W6 m ρ c (Proc.devRef .tc main_v21_1) = projAt (K := 10) (kLayer1 (m ((c : Thread nD τ).loc main_arg0)) (m ((c : Thread nD τ).loc main_arg1)) (m ((c : Thread nD τ).loc main_arg2)) (m ((c : Thread nD τ).loc main_arg6))) (m ((c : Thread nD τ).loc main_arg4)) :=
  (W6_arr m ρ c 4).trans ((project2_right (V5 m ρ) c).trans (congrArg₂ (projAt (K := 10)) (e5_v20 m ρ c) (e5_arg4 m ρ c)))
theorem e6_v1 : W6 m ρ c (Proc.devRef .tc main_v1) = val_main_v1 (F := Ideal) (m ((c : Thread nD τ).loc main_arg6)) := (W6_of_ne m ρ c main_v1 (by decide)).trans (e5_v1 m ρ c)
theorem e6_v3 : W6 m ρ c (Proc.devRef .tc main_v3) = val_main_v3 (F := Ideal) (m ((c : Thread nD τ).loc main_arg6)) := (W6_of_ne m ρ c main_v3 (by decide)).trans (e5_v3 m ρ c)
theorem e6_v11 : W6 m ρ c (Proc.devRef .tc main_v11) = val_main_v11 (F := Ideal) (m ((c : Thread nD τ).loc main_arg6)) := (W6_of_ne m ρ c main_v11 (by decide)).trans (e5_v11 m ρ c)
theorem e6_arg5 : W6 m ρ c (Proc.devRef .tc main_arg5) = (m ((c : Thread nD τ).loc main_arg5)) := (W6_of_ne m ρ c main_arg5 (by decide)).trans (e5_arg5 m ρ c)
theorem e6_arg7 : W6 m ρ c (Proc.devRef .tc main_arg7) = (m ((c : Thread nD τ).loc main_arg7)) := (W6_of_ne m ρ c main_arg7 (by decide)).trans (e5_arg7 m ρ c)

-- after the second take
theorem e7_v22 : W7 m ρ c (Proc.devRef .tc main_v22)
    = takeFill (projAt (K := 10) (kLayer1 (m ((c : Thread nD τ).loc main_arg0)) (m ((c : Thread nD τ).loc main_arg1)) (m ((c : Thread nD τ).loc main_arg2)) (m ((c : Thread nD τ).loc main_arg6))) (m ((c : Thread nD τ).loc main_arg3))) (val_main_v1 (F := Ideal) (m ((c : Thread nD τ).loc main_arg6))) :=
  (stretch3 (W6 m ρ c)).1.trans (congrArg₂ takeFill (e6_v21_0 m ρ c) (e6_v1 m ρ c))
theorem e7_v21_1 : W7 m ρ c (Proc.devRef .tc main_v21_1) = projAt (K := 10) (kLayer1 (m ((c : Thread nD τ).loc main_arg0)) (m ((c : Thread nD τ).loc main_arg1)) (m ((c : Thread nD τ).loc main_arg2)) (m ((c : Thread nD τ).loc main_arg6))) (m ((c : Thread nD τ).loc main_arg4)) := (stretch3 (W6 m ρ c)).2.1.trans (e6_v21_1 m ρ c)
theorem e7_v3 : W7 m ρ c (Proc.devRef .tc main_v3) = val_main_v3 (F := Ideal) (m ((c : Thread nD τ).loc main_arg6)) := (stretch3 (W6 m ρ c)).2.2.1.trans (e6_v3 m ρ c)
theorem e7_v11 : W7 m ρ c (Proc.devRef .tc main_v11) = val_main_v11 (F := Ideal) (m ((c : Thread nD τ).loc main_arg6)) := (stretch3 (W6 m ρ c)).2.2.2.1.trans (e6_v11 m ρ c)
theorem e7_arg5 : W7 m ρ c (Proc.devRef .tc main_arg5) = (m ((c : Thread nD τ).loc main_arg5)) := (stretch3 (W6 m ρ c)).2.2.2.2.1.trans (e6_arg5 m ρ c)
theorem e7_arg7 : W7 m ρ c (Proc.devRef .tc main_arg7) = (m ((c : Thread nD τ).loc main_arg7)) := (stretch3 (W6 m ρ c)).2.2.2.2.2.trans (e6_arg7 m ρ c)

-- after the second aggregation
theorem e8_v28 : W8 m ρ c (Proc.devRef .tc main_v28)
    = scaleAgg (takeFill (projAt (K := 10) (kLayer1 (m ((c : Thread nD τ).loc main_arg0)) (m ((c : Thread nD τ).loc main_arg1)) (m ((c : Thread nD τ).loc main_arg2)) (m ((c : Thread nD τ).loc main_arg6))) (m ((c : Thread nD τ).loc main_arg3))) (val_main_v1 (F := Ideal) (m ((c : Thread nD τ).loc main_arg6)))) (val_main_v3 (F := Ideal) (m ((c : Thread nD τ).loc main_arg6))) (val_main_v11 (F := Ideal) (m ((c : Thread nD τ).loc main_arg6))) := by
  refine (stretch3_1 (W7 m ρ c)).1.trans ?_
  rw [e7_v22 m ρ c, e7_v3 m ρ c, e7_v11 m ρ c]
theorem e8_v21_1 : W8 m ρ c (Proc.devRef .tc main_v21_1) = projAt (K := 10) (kLayer1 (m ((c : Thread nD τ).loc main_arg0)) (m ((c : Thread nD τ).loc main_arg1)) (m ((c : Thread nD τ).loc main_arg2)) (m ((c : Thread nD τ).loc main_arg6))) (m ((c : Thread nD τ).loc main_arg4)) := (stretch3_1 (W7 m ρ c)).2.1.trans (e7_v21_1 m ρ c)
theorem e8_arg5 : W8 m ρ c (Proc.devRef .tc main_arg5) = (m ((c : Thread nD τ).loc main_arg5)) := (stretch3_1 (W7 m ρ c)).2.2.1.trans (e7_arg5 m ρ c)
theorem e8_arg7 : W8 m ρ c (Proc.devRef .tc main_arg7) = (m ((c : Thread nD τ).loc main_arg7)) := (stretch3_1 (W7 m ρ c)).2.2.2.trans (e7_arg7 m ρ c)

-- after the fourth launch: the second layer's node features
theorem e9_v29 : W9 m ρ c (Proc.devRef .tc main_v29) = kLayer2 (kLayer1 (m ((c : Thread nD τ).loc main_arg0)) (m ((c : Thread nD τ).loc main_arg1)) (m ((c : Thread nD τ).loc main_arg2)) (m ((c : Thread nD τ).loc main_arg6))) (m ((c : Thread nD τ).loc main_arg3)) (m ((c : Thread nD τ).loc main_arg4)) (m ((c : Thread nD τ).loc main_arg6)) :=
  (W9_arr m ρ c 2).trans ((combine3 (V8 m ρ) c).trans (congrArg₂ sumArr (e8_v28 m ρ c) (e8_v21_1 m ρ c)))
theorem e9_arg5 : W9 m ρ c (Proc.devRef .tc main_arg5) = (m ((c : Thread nD τ).loc main_arg5)) := (W9_of_ne m ρ c main_arg5 (by decide)).trans (e8_arg5 m ρ c)
theorem e9_arg7 : W9 m ρ c (Proc.devRef .tc main_arg7) = (m ((c : Thread nD τ).loc main_arg7)) := (W9_of_ne m ρ c main_arg7 (by decide)).trans (e8_arg7 m ρ c)

/-- THE RESULT: the last contents of the fold at the result buffer are `kernelValue` of the launch contents of the arguments. -/
theorem W10_result : W10 m ρ c (Proc.devRef .tc main_v49) = kernelValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (stretch4 (W9 m ρ c)).trans ?_
  rw [e9_v29 m ρ c, e9_arg7 m ρ c, e9_arg5 m ρ c]
  rfl

end Chain

end Cert.KernelIdeal.Fold

end
-- ==== Proof.LibScatterAddRows.lean ====
/-
  A float scatter-add that adds whole ROWS into a rank-2 table (what `segment_sum(x, ids, N)` prints for an `[n, C]` batch
  and a vector of `n` row numbers laid out as an `[n, 1]` column of scatter indices): update window axis 1, inserted
  window axis 0, the scatter index naming operand axis 0, the index vector along axis 1 of the scatter indices; and the same
  for a rank-1 table and a vector of updates (no window axis).

  Over the extended reals the result at `(k, q)` is the operand there plus the sum of the updates `(p, q)` whose row number,
  read signed and NOT clamped, is `k`; an update whose row number is outside `[0, N)` lands nowhere.
-/
import Idealize.ShloMosaic.PureOps
import Idealize.ShloMosaic.PureOps.Ideal
import Idealize.ShloMosaic.Lib.ValueIdx

namespace Idealize.ShloMosaic.ScatterAddRows

open Idealize.ShloMosaic Idealize.ShloMosaic.ValueIdx

/-- The dimension numbers of a row scatter into an `[N, C]` table by an `[n, 1]` column of row numbers. -/
abbrev rowDims (N C n : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- The dimension numbers of an entry scatter into an `[N]` table by an `[n, 1]` column of entry numbers. -/
abbrev entryDims (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

/-- On the row axis the start of update `(p, q)` is row number `p`, read signed: the one scatter index of update row `p`
    sits at `(p, 0)` of the column of scatter indices. -/
private theorem rows_start0 {N C n w : Nat}
    (wf : ScatterDims.WF ⟨2, ![N, C]⟩ ⟨2, ![n, 1]⟩ ⟨2, ![n, C]⟩ [1] [0] [0] 1)
    (idx : IVec ⟨2, ![n, 1]⟩ w) (p : Fin n) (q : Fin C) :
    (rowDims N C n wf).start (ix2 p q) idx (⟨0, by decide⟩ : Fin 2) = (idx (ix2 p ⟨0, Nat.one_pos⟩)).toInt := by
  unfold ScatterDims.start
  rw [dif_pos (show (⟨0, by decide⟩ : Fin 2) ∈ (rowDims N C n wf).scatterDimsToOperandDims from List.mem_singleton.mpr rfl)]
  have hsi : (rowDims N C n wf).siIdx (ix2 p q)
      ⟨List.idxOf (⟨0, by decide⟩ : Fin 2) (rowDims N C n wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- The column axis is named by no scatter index: its start is `0`. -/
private theorem rows_start1 {N C n w : Nat}
    (wf : ScatterDims.WF ⟨2, ![N, C]⟩ ⟨2, ![n, 1]⟩ ⟨2, ![n, C]⟩ [1] [0] [0] 1)
    (idx : IVec ⟨2, ![n, 1]⟩ w) (j : (⟨2, ![n, C]⟩ : Shape).Idx) :
    (rowDims N C n wf).start j idx (⟨1, by decide⟩ : Fin 2) = 0 := by
  unfold ScatterDims.start
  rw [dif_neg (fun h => by have := congrArg Fin.val (List.mem_singleton.mp h); simp at this)]

/-- The row axis is an inserted window axis: it has no window coordinate. -/
private theorem rows_window0 {N C n : Nat}
    (wf : ScatterDims.WF ⟨2, ![N, C]⟩ ⟨2, ![n, 1]⟩ ⟨2, ![n, C]⟩ [1] [0] [0] 1)
    (j : (⟨2, ![n, C]⟩ : Shape).Idx) :
    (rowDims N C n wf).window j (⟨0, by decide⟩ : Fin 2) = 0 := by
  unfold ScatterDims.window
  rw [dif_neg (by simp [Shape.kept])]

/-- The column axis is the one window axis: its window coordinate is the update's own column. -/
private theorem rows_window1 {N C n : Nat}
    (wf : ScatterDims.WF ⟨2, ![N, C]⟩ ⟨2, ![n, 1]⟩ ⟨2, ![n, C]⟩ [1] [0] [0] 1)
    (p : Fin n) (q : Fin C) :
    (rowDims N C n wf).window (ix2 p q) (⟨1, by decide⟩ : Fin 2) = q.val := by
  unfold ScatterDims.window
  rw [dif_pos (by simp [Shape.kept])]
  rfl

/-- Update `(p, q')` lands on `(k, q)` exactly when row number `p` is `k` and `q' = q`: it lands at (row number + 0, 0 + q')
    when that is inside the table, and nowhere otherwise; and `(k, q)` is inside the table. -/
private theorem rows_resultIdx_iff {N C n w : Nat}
    (wf : ScatterDims.WF ⟨2, ![N, C]⟩ ⟨2, ![n, 1]⟩ ⟨2, ![n, C]⟩ [1] [0] [0] 1)
    (idx : IVec ⟨2, ![n, 1]⟩ w) (p : Fin n) (q' : Fin C) (k : Fin N) (q : Fin C) :
    (rowDims N C n wf).resultIdx? (ix2 p q') idx = some (ix2 k q)
      ↔ (idx (ix2 p ⟨0, Nat.one_pos⟩)).toInt = (k.val : Int) ∧ q' = q := by
  have h0 := rows_start0 wf idx p q'
  have h1 := rows_start1 wf idx (ix2 p q')
  have w0 := rows_window0 wf (ix2 p q')
  have w1 := rows_window1 wf p q'
  unfold ScatterDims.resultIdx?
  split
  · rename_i h
    rw [Option.some.injEq]
    have hh := (h (⟨0, by decide⟩ : Fin 2)).1
    rw [h0, w0] at hh
    constructor
    · intro hf
      have e0 : ((rowDims N C n wf).start (ix2 p q') idx (⟨0, by decide⟩ : Fin 2)
          + ((rowDims N C n wf).window (ix2 p q') (⟨0, by decide⟩ : Fin 2) : Int)).toNat = k.val :=
        congrArg Fin.val (congrFun hf (⟨0, by decide⟩ : Fin 2))
      have e1 : ((rowDims N C n wf).start (ix2 p q') idx (⟨1, by decide⟩ : Fin 2)
          + ((rowDims N C n wf).window (ix2 p q') (⟨1, by decide⟩ : Fin 2) : Int)).toNat = q.val :=
        congrArg Fin.val (congrFun hf (⟨1, by decide⟩ : Fin 2))
      rw [h0, w0] at e0
      rw [h1, w1] at e1
      exact ⟨by omega, Fin.ext (by omega)⟩
    · rintro ⟨ht, rfl⟩
      funext a; refine Fin.ext ?_
      match a with
      | ⟨0, _⟩ =>
        show ((rowDims N C n wf).start (ix2 p q') idx (⟨0, by decide⟩ : Fin 2)
          + ((rowDims N C n wf).window (ix2 p q') (⟨0, by decide⟩ : Fin 2) : Int)).toNat = k.val
        rw [h0, w0]; omega
      | ⟨1, _⟩ =>
        show ((rowDims N C n wf).start (ix2 p q') idx (⟨1, by decide⟩ : Fin 2)
          + ((rowDims N C n wf).window (ix2 p q') (⟨1, by decide⟩ : Fin 2) : Int)).toNat = q'.val
        rw [h1, w1]; omega
  · rename_i h
    constructor
    · intro hf; exact absurd hf (by simp)
    · rintro ⟨ht, rfl⟩
      exfalso; apply h
      intro a
      match a with
      | ⟨0, _⟩ =>
        show 0 ≤ (rowDims N C n wf).start (ix2 p q') idx (⟨0, by decide⟩ : Fin 2)
            + ((rowDims N C n wf).window (ix2 p q') (⟨0, by decide⟩ : Fin 2) : Int)
          ∧ (rowDims N C n wf).start (ix2 p q') idx (⟨0, by decide⟩ : Fin 2)
            + ((rowDims N C n wf).window (ix2 p q') (⟨0, by decide⟩ : Fin 2) : Int) < (N : Int)
        rw [h0, w0, ht]; have := k.isLt; omega
      | ⟨1, _⟩ =>
        show 0 ≤ (rowDims N C n wf).start (ix2 p q') idx (⟨1, by decide⟩ : Fin 2)
            + ((rowDims N C n wf).window (ix2 p q') (⟨1, by decide⟩ : Fin 2) : Int)
          ∧ (rowDims N C n wf).start (ix2 p q') idx (⟨1, by decide⟩ : Fin 2)
            + ((rowDims N C n wf).window (ix2 p q') (⟨1, by decide⟩ : Fin 2) : Int) < (C : Int)
        rw [h1, w1]; have := q'.isLt; omega

/-- THE ROW SCATTER-ADD READ AT `(k, q)`: the operand there plus the updates `(p, q)` of the rows `p` numbered `k`. -/
theorem scatterAdd_rows_apply {N C n w : Nat}
    (wf : ScatterDims.WF ⟨2, ![N, C]⟩ ⟨2, ![n, 1]⟩ ⟨2, ![n, C]⟩ [1] [0] [0] 1)
    (x0 : (⟨2, ![N, C]⟩ : Shape).Idx → EReal) (idx : IVec ⟨2, ![n, 1]⟩ w) (upd : (⟨2, ![n, C]⟩ : Shape).Idx → EReal)
    (k : Fin N) (q : Fin C) :
    Ideal.hostScatterAdd (rowDims N C n wf) x0 idx upd (ix2 k q)
      = x0 (ix2 k q) + ∑ p : Fin n, if (idx (ix2 p ⟨0, Nat.one_pos⟩)).toInt = (k.val : Int) then upd (ix2 p q) else 0 := by
  unfold Ideal.hostScatterAdd
  congr 1
  -- the sum over the updates landing on `(k, q)`, as a double sum over `(p, q')` of the updates with row number `k` and `q' = q`
  rw [Finset.sum_filter, sum_idx2]
  refine Finset.sum_congr rfl fun p _ => ?_
  simp only [rows_resultIdx_iff]
  by_cases ht : (idx (ix2 p ⟨0, Nat.one_pos⟩)).toInt = (k.val : Int)
  · -- row `p` is numbered `k`: of its columns only `q' = q` remains
    simp only [ht, true_and, if_true]
    rw [Finset.sum_ite_eq' Finset.univ q (fun q' => upd (ix2 p q'))]
    simp
  · -- row `p` is not numbered `k`: every term is `0`
    simp only [ht, false_and, if_false]
    exact Finset.sum_const_zero

/-- The start of update `p` on the one operand axis is entry number `p`, read signed. -/
private theorem entries_start0 {N n w : Nat}
    (wf : ScatterDims.WF ⟨1, ![N]⟩ ⟨2, ![n, 1]⟩ ⟨1, ![n]⟩ [] [0] [0] 1)
    (idx : IVec ⟨2, ![n, 1]⟩ w) (p : Fin n) :
    (entryDims N n wf).start (ix1 p) idx (⟨0, by decide⟩ : Fin 1) = (idx (ix2 p ⟨0, Nat.one_pos⟩)).toInt := by
  unfold ScatterDims.start
  rw [dif_pos (show (⟨0, by decide⟩ : Fin 1) ∈ (entryDims N n wf).scatterDimsToOperandDims from List.mem_singleton.mpr rfl)]
  have hsi : (entryDims N n wf).siIdx (ix1 p)
      ⟨List.idxOf (⟨0, by decide⟩ : Fin 1) (entryDims N n wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- The one operand axis is an inserted window axis: it has no window coordinate. -/
private theorem entries_window0 {N n : Nat}
    (wf : ScatterDims.WF ⟨1, ![N]⟩ ⟨2, ![n, 1]⟩ ⟨1, ![n]⟩ [] [0] [0] 1)
    (j : (⟨1, ![n]⟩ : Shape).Idx) :
    (entryDims N n wf).window j (⟨0, by decide⟩ : Fin 1) = 0 := by
  unfold ScatterDims.window
  rw [dif_neg (by simp [Shape.kept])]

/-- Update `p` lands on `k` exactly when entry number `p` is `k`. -/
private theorem entries_resultIdx_iff {N n w : Nat}
    (wf : ScatterDims.WF ⟨1, ![N]⟩ ⟨2, ![n, 1]⟩ ⟨1, ![n]⟩ [] [0] [0] 1)
    (idx : IVec ⟨2, ![n, 1]⟩ w) (p : Fin n) (k : Fin N) :
    (entryDims N n wf).resultIdx? (ix1 p) idx = some (ix1 k)
      ↔ (idx (ix2 p ⟨0, Nat.one_pos⟩)).toInt = (k.val : Int) := by
  have h0 := entries_start0 wf idx p
  have w0 := entries_window0 wf (ix1 p)
  unfold ScatterDims.resultIdx?
  split
  · rename_i h
    rw [Option.some.injEq]
    have hh := (h (⟨0, by decide⟩ : Fin 1)).1
    rw [h0, w0] at hh
    constructor
    · intro hf
      have e0 : ((entryDims N n wf).start (ix1 p) idx (⟨0, by decide⟩ : Fin 1)
          + ((entryDims N n wf).window (ix1 p) (⟨0, by decide⟩ : Fin 1) : Int)).toNat = k.val :=
        congrArg Fin.val (congrFun hf (⟨0, by decide⟩ : Fin 1))
      rw [h0, w0] at e0
      omega
    · intro ht
      funext a; refine Fin.ext ?_
      match a with
      | ⟨0, _⟩ =>
        show ((entryDims N n wf).start (ix1 p) idx (⟨0, by decide⟩ : Fin 1)
          + ((entryDims N n wf).window (ix1 p) (⟨0, by decide⟩ : Fin 1) : Int)).toNat = k.val
        rw [h0, w0]; omega
  · rename_i h
    constructor
    · intro hf; exact absurd hf (by simp)
    · intro ht
      exfalso; apply h
      intro a
      match a with
      | ⟨0, _⟩ =>
        show 0 ≤ (entryDims N n wf).start (ix1 p) idx (⟨0, by decide⟩ : Fin 1)
            + ((entryDims N n wf).window (ix1 p) (⟨0, by decide⟩ : Fin 1) : Int)
          ∧ (entryDims N n wf).start (ix1 p) idx (⟨0, by decide⟩ : Fin 1)
            + ((entryDims N n wf).window (ix1 p) (⟨0, by decide⟩ : Fin 1) : Int) < (N : Int)
        rw [h0, w0, ht]; have := k.isLt; omega

/-- A sum over a rank-1 index set is the sum over its coordinate. -/
private theorem sum_idx1' {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

/-- THE ENTRY SCATTER-ADD READ AT `k`: the operand there plus the updates `p` numbered `k`. -/
theorem scatterAdd_entries_apply {N n w : Nat}
    (wf : ScatterDims.WF ⟨1, ![N]⟩ ⟨2, ![n, 1]⟩ ⟨1, ![n]⟩ [] [0] [0] 1)
    (x0 : (⟨1, ![N]⟩ : Shape).Idx → EReal) (idx : IVec ⟨2, ![n, 1]⟩ w) (upd : (⟨1, ![n]⟩ : Shape).Idx → EReal)
    (k : Fin N) :
    Ideal.hostScatterAdd (entryDims N n wf) x0 idx upd (ix1 k)
      = x0 (ix1 k) + ∑ p : Fin n, if (idx (ix2 p ⟨0, Nat.one_pos⟩)).toInt = (k.val : Int) then upd (ix1 p) else 0 := by
  unfold Ideal.hostScatterAdd
  congr 1
  -- the sum over the updates landing on `k`, as the sum over `p` of the updates with entry number `k`
  rw [Finset.sum_filter, sum_idx1']
  refine Finset.sum_congr rfl fun p _ => ?_
  simp only [entries_resultIdx_iff]

end Idealize.ShloMosaic.ScatterAddRows
-- ==== Proof.LibGatherRows.lean ====
/-
  A gather that takes whole ROWS of a rank-2 table (what `table[idx]` prints for an `[N, C]` table and a vector of `n`
  row numbers laid out as an `[n, 1]` column of start indices): offset axis 1, collapsed axis 0, start index map `[0]`, the
  index vector along axis 1 of the start indices, slices of one row.

  Read at result index `(p, q)` it is the table at `(r, q)`, where `r` is start index `p` read signed and clamped into
  `[0, N − 1]`: on the row axis the operand coordinate is the clamped start (no batching axis, and a collapsed axis has
  no offset); on the column axis there is no start, and the offset coordinate is the result's own column.
-/
import Idealize.ShloMosaic.PureOps
import Idealize.ShloMosaic.Lib.ValueIdx

namespace Idealize.ShloMosaic.GatherRows

open Idealize.ShloMosaic Idealize.ShloMosaic.ValueIdx

variable {α : Type}

/-- The dimension numbers of a row-take from an `[N, C]` table by an `[n, 1]` column of row numbers. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW-TAKE READ AT `(p, q)`: the table at row `idx[p, 0]` (signed, clamped into `[0, N − 1]`), column `q`. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ix2 p ⟨0, Nat.one_pos⟩)).toInt.toNat (N - 1), by omega⟩ q) := by
  unfold Host.gather
  congr 1
  funext a
  refine Fin.ext ?_
  show (rowDims N C n wf).start (ix2 p q) idx a + (rowDims N C n wf).batchCoord (ix2 p q) a
    + (rowDims N C n wf).offCoord (ix2 p q) a = _
  rw [GatherDims.batchCoord_eq_zero _ _ _ List.not_mem_nil, Nat.add_zero]
  match a with
  | ⟨0, _⟩ =>
    -- the row axis: collapsed, so no offset; its start is the clamped start index
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 2) ∈ (rowDims N C n wf).startIndexMap from List.mem_singleton.mpr rfl)]
    have hsi : (rowDims N C n wf).siIdx (ix2 p q)
        ⟨List.idxOf (⟨0, by decide⟩ : Fin 2) (rowDims N C n wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    -- the column axis: no start index names it; the offset is the result's own column
    have hs : (rowDims N C n wf).start (ix2 p q) idx (⟨1, Nat.one_lt_two⟩ : Fin 2) = 0 := by
      unfold GatherDims.start
      rw [dif_neg (fun h => by have := congrArg Fin.val (List.mem_singleton.mp h); simp at this)]
    rw [hs, Nat.zero_add]
    rfl

end Idealize.ShloMosaic.GatherRows
-- ==== Proof.LibIdealReal.lean ====
/-
  Operations of the ideal instance on entries that are real numbers.

  At the ideal values a float is an extended real. When the entries in play are real numbers — every input finite,
  every count a natural number — each operation of a program is the real operation under the embedding `ℝ → EReal`:
  sums, quotients by a non-zero real, comparisons, a bit read as a float, a select on a decided bit. One lemma each,
  so that a program's value can be carried as the embedding of a real-valued expression.
-/
import Idealize.ShloMosaic.PureOps.Ideal
import Idealize.ShloMosaic.PureOps.Ideal.Laws

noncomputable section

namespace IdealReal

open Idealize.ShloMosaic
open scoped BigOperators

/-- The embedding of a finite sum of reals is the sum of the embeddings. -/
theorem coe_sum {α : Type} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The ideal quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, ← div_eq_mul_one_div]

/-- Comparisons of two reals at the ideal instance decide the real comparison. -/
theorem cmp_ogt_coe (a b : ℝ) : Ideal.cmp .ogt (a : EReal) (b : EReal) = BitVec.ofBool (decide (b < a)) := by
  simp only [Ideal.cmp, EReal.coe_lt_coe_iff]
theorem cmp_oge_coe (a b : ℝ) : Ideal.cmp .oge (a : EReal) (b : EReal) = BitVec.ofBool (decide (b ≤ a)) := by
  simp only [Ideal.cmp, EReal.coe_le_coe_iff]
theorem cmp_oeq_coe (a b : ℝ) : Ideal.cmp .oeq (a : EReal) (b : EReal) = BitVec.ofBool (decide (a = b)) := by
  simp only [Ideal.cmp, EReal.coe_eq_coe_iff]
theorem cmp_une_coe (a b : ℝ) : Ideal.cmp .une (a : EReal) (b : EReal) = BitVec.ofBool (decide (a ≠ b)) := by
  simp only [Ideal.cmp, ne_eq, EReal.coe_eq_coe_iff]

/-- The f32 patterns of 0, 1 and 1024 denote those reals. -/
theorem ofBits_zero_f32 : Ideal.ofBits .f32 0x00000000#32 = ((0 : ℝ) : EReal) := by
  simp [Ideal.ofBits, Ideal.ieee]
theorem ofBits_one_f32 : Ideal.ofBits .f32 0x3F800000#32 = ((1 : ℝ) : EReal) := by
  simp [Ideal.ofBits, Ideal.ieee, -EReal.coe_mul]; norm_num
theorem ofBits_1024_f32 : Ideal.ofBits .f32 0x44800000#32 = ((1024 : ℝ) : EReal) := by
  simp [Ideal.ofBits, Ideal.ieee, -EReal.coe_mul]; norm_num

/-- A decided bit widened to a word and read as a signed integer is 1 or 0. -/
theorem sitofp_setWidth_ofBool (p : Bool) :
    FloatOps.sitofp (F := Ideal) .f32 ((BitVec.ofBool p).setWidth 32) = (((if p then 1 else 0 : ℝ)) : EReal) := by
  cases p <;> simp [FloatOps.sitofp]
/-- A decided bit read as an unsigned integer is 1 or 0. -/
theorem uitofp_ofBool (p : Bool) :
    FloatOps.uitofp (F := Ideal) .f32 (BitVec.ofBool p) = (((if p then 1 else 0 : ℝ)) : EReal) := by
  cases p <;> simp [FloatOps.uitofp]
/-- A select on a decided bit is the `if`. -/
theorem select_ofBool {α : Type} (p : Bool) (a b : α) : Scalar.select (BitVec.ofBool p) a b = if p then a else b := by
  cases p <;> rfl

/-- The logistic function of a real: `1 / (1 + e^(-r))`, a real in (0, 1). -/
theorem logistic_coe (r : ℝ) : Ideal.logistic (r : EReal) = (((1 + Real.exp (-r))⁻¹ : ℝ) : EReal) := Ideal.logistic_coe r

end IdealReal

end
-- ==== Proof.Algebra.lean ====
/-
  Aggregation over edges commutes with a right product, on real entries.

  `aggScaled H` gathers rows of a `[50000, C]` table `H` by the edges' source numbers (clamped into the table), adds each
  gathered row into the row its edge's destination number names (edges whose destination is outside the table are dropped),
  starting from an array `z`, and multiplies row `n` of the result by a per-node scale.  When `z` is zero, the scale is a real
  per-node number and all entries of `H` and `W` are real, multiplying the aggregate by `Wᵀ` gives the same array as
  aggregating `H · Wᵀ`: both are, at `(n, j)`, the scale times the sum over the edges into `n` and over the feature axis
  of `H (src e, k) · W (j, k)` — a finite double sum of reals, in which the order of summation and the place of the common
  factor do not matter.
-/
import proofs.«421297_j20469814132906_3_alg».proof.Proof.Spec
import proofs.«421297_j20469814132906_3_alg».proof.Proof.LibScatterAddRows
import proofs.«421297_j20469814132906_3_alg».proof.Proof.LibGatherRows
import proofs.«421297_j20469814132906_3_alg».proof.Proof.LibIdealReal

noncomputable section

namespace Cert.Sage

open Idealize.ShloMosaic Idealize.ShloMosaic.ValueIdx

/-- Gather rows of `H` by `srcc`, scatter-add them by `dstc` into `z`, scale entrywise by `dcol`. -/
def aggScaled {C : ℕ}
    (wfg : GatherDims.WF ⟨2, ![50000, C]⟩ ⟨2, ![1600000, 1]⟩ ⟨2, ![1600000, C]⟩ [1] [0] [] [0] [] 1 ![1, C])
    (wfs : ScatterDims.WF ⟨2, ![50000, C]⟩ ⟨2, ![1600000, 1]⟩ ⟨2, ![1600000, C]⟩ [1] [0] [0] 1)
    (H : FVec Ideal ⟨2, ![50000, C]⟩ .f32) (srcc dstc : IVec ⟨2, ![1600000, 1]⟩ 32)
    (z dcol : FVec Ideal ⟨2, ![50000, C]⟩ .f32) : FVec Ideal ⟨2, ![50000, C]⟩ .f32 :=
  fun i => Ideal.hostScatterAdd (ScatterAddRows.rowDims 50000 C 1600000 wfs) z dstc
      (Host.gather (GatherRows.rowDims 50000 C 1600000 wfg) H srcc) i * dcol i

/-- The source row of edge `e`, clamped into the table. -/
private def srcRow (srcc : IVec ⟨2, ![1600000, 1]⟩ 32) (e : Fin 1600000) : Fin 50000 :=
  ⟨min (srcc (ix2 e ⟨0, Nat.one_pos⟩)).toInt.toNat (50000 - 1), by omega⟩

/-- The scaled aggregate read at `(n, q)`: the start value there plus the rows of the edges into `n`, times the scale. -/
private theorem aggScaled_apply {C : ℕ} (wfg) (wfs) (H : FVec Ideal ⟨2, ![50000, C]⟩ .f32)
    (srcc dstc : IVec ⟨2, ![1600000, 1]⟩ 32) (z dcol : FVec Ideal ⟨2, ![50000, C]⟩ .f32) (n : Fin 50000) (q : Fin C) :
    aggScaled wfg wfs H srcc dstc z dcol (ix2 n q)
      = (z (ix2 n q) + ∑ e : Fin 1600000,
          if (dstc (ix2 e ⟨0, Nat.one_pos⟩)).toInt = (n.val : Int) then H (ix2 (srcRow srcc e) q) else 0)
        * dcol (ix2 n q) := by
  unfold aggScaled
  rw [ScatterAddRows.scatterAdd_rows_apply]
  simp only [GatherRows.gather_rows_apply (by norm_num : 0 < 50000)]
  rfl

/-- A choice between a real and zero is the embedding of the real choice. -/
private theorem ite_coe_zero (p : Prop) [Decidable p] (a : ℝ) :
    (if p then (a : EReal) else 0) = ((if p then a else 0 : ℝ) : EReal) := by
  split_ifs
  · rfl
  · exact EReal.coe_zero.symm

/-- A selected finite sum of reals is the embedding of the real selected sum. -/
private theorem sum_ite_coe {ι : Type} [Fintype ι] (P : ι → Prop) [DecidablePred P] (f : ι → ℝ) :
    (∑ e, if P e then (f e : EReal) else 0) = ((∑ e, if P e then f e else 0 : ℝ) : EReal) := by
  rw [IdealReal.coe_sum]
  exact Finset.sum_congr rfl fun e _ => ite_coe_zero _ _

/-- The scaled aggregate of a table of reals, from zero, with a real scale at `(n, q)`, is there the embedding of
    the real scale times the real sum of the rows of the edges into `n`. -/
private theorem aggScaled_coe {C : ℕ} (wfg) (wfs) (H : FVec Ideal ⟨2, ![50000, C]⟩ .f32)
    (srcc dstc : IVec ⟨2, ![1600000, 1]⟩ 32) (z dcol : FVec Ideal ⟨2, ![50000, C]⟩ .f32)
    (hz : ∀ i, z i = 0) (hr : Fin 50000 → Fin C → ℝ) (hH : ∀ m q, H (ix2 m q) = (hr m q : EReal))
    (n : Fin 50000) (q : Fin C) (dn : ℝ) (hd : dcol (ix2 n q) = (dn : EReal)) :
    aggScaled wfg wfs H srcc dstc z dcol (ix2 n q)
      = (((∑ e : Fin 1600000,
          if (dstc (ix2 e ⟨0, Nat.one_pos⟩)).toInt = (n.val : Int) then hr (srcRow srcc e) q else 0) * dn : ℝ) : EReal) := by
  rw [aggScaled_apply, hz, zero_add, hd, EReal.coe_mul, ← sum_ite_coe]
  simp only [hH]

/-- In the reals: a selected sum of rows, scaled, then paired with a vector, is the selected sum of the pairings, scaled.
    Both sides are the double sum of `h e k · w k · d` over the selected `e` and all `k`. -/
private theorem real_agg_proj {ι κ : Type} [Fintype ι] [Fintype κ] (P : ι → Prop) [DecidablePred P]
    (h : ι → κ → ℝ) (w : κ → ℝ) (d : ℝ) :
    ∑ k, ((∑ e, if P e then h e k else 0) * d) * w k = (∑ e, if P e then ∑ k, h e k * w k else 0) * d := by
  simp only [Finset.sum_mul]
  rw [Finset.sum_comm]
  refine Finset.sum_congr rfl fun e _ => ?_
  split_ifs
  · rw [Finset.sum_mul]
    refine Finset.sum_congr rfl fun k _ => ?_
    ring
  · simp only [zero_mul, Finset.sum_const_zero]

/-- A product of real-valued arrays is real-valued. -/
theorem realValued_projAt {K : ℕ} (h : FVec Ideal ⟨2, ![50000, K]⟩ .f32) (W : FVec Ideal ⟨2, ![10, K]⟩ .f32)
    (hh : RealValued h) (hW : RealValued W) : RealValued (projAt h W) := by
  intro i
  choose hr hhr using hh
  choose wr hwr using hW
  -- every factor is a real, so the finite sum of products is the embedding of the real sum of products
  refine ⟨∑ k : Fin K, hr (ix2 (i 0) k) * wr (ix2 (i 1) k), ?_⟩
  show ∑ k : Fin K, h (ix2 (i 0) k) * W (ix2 (i 1) k) = _
  rw [IdealReal.coe_sum]
  refine Finset.sum_congr rfl fun k _ => ?_
  rw [hhr, hwr, EReal.coe_mul]

/-- The aggregate of a real-valued table from zero, scaled by real numbers, is real-valued. -/
theorem realValued_aggScaled {C : ℕ} (wfg) (wfs) (H : FVec Ideal ⟨2, ![50000, C]⟩ .f32)
    (srcc dstc : IVec ⟨2, ![1600000, 1]⟩ 32) (z dcol : FVec Ideal ⟨2, ![50000, C]⟩ .f32)
    (hH : RealValued H) (hz : ∀ i, z i = 0) (hd : RealValued dcol) :
    RealValued (aggScaled wfg wfs H srcc dstc z dcol) := by
  intro i
  obtain ⟨n, q, rfl⟩ : ∃ (n : Fin 50000) (q : Fin C), i = ix2 n q := ⟨i 0, i 1, eq_ix2 i⟩
  choose hr hhr using hH
  obtain ⟨dn, hdn⟩ := hd (ix2 n q)
  -- zero plus a finite sum of reals (or zeros), times a real
  exact ⟨_, aggScaled_coe wfg wfs H srcc dstc z dcol hz (fun m q => hr (ix2 m q)) (fun m q => hhr (ix2 m q)) n q dn hdn⟩

theorem realValued_sumArr (a b : FVec Ideal ⟨2, ![50000, 10]⟩ .f32) (ha : RealValued a) (hb : RealValued b) :
    RealValued (sumArr a b) := by
  intro i
  obtain ⟨x, hx⟩ := ha i
  obtain ⟨y, hy⟩ := hb i
  refine ⟨x + y, ?_⟩
  show a i + b i = _
  rw [hx, hy, EReal.coe_add]

theorem realValued_sumPos (a b : FVec Ideal ⟨2, ![50000, 10]⟩ .f32) (ha : RealValued a) (hb : RealValued b) :
    RealValued (sumPos a b) := by
  intro i
  obtain ⟨x, hx⟩ := ha i
  obtain ⟨y, hy⟩ := hb i
  -- the larger of two reals is a real: the embedding is monotone
  refine ⟨max (x + y) 0, ?_⟩
  show max (a i + b i) 0 = _
  rw [hx, hy, ← EReal.coe_add, EReal.coe_strictMono.monotone.map_max]
  rfl

/-- AGGREGATE THEN PROJECT = PROJECT THEN AGGREGATE, on real entries, from zero, with a per-node real scale. -/
theorem projAt_aggScaled {K : ℕ} (wfgK) (wfsK) (wfg10) (wfs10)
    (H : FVec Ideal ⟨2, ![50000, K]⟩ .f32) (W : FVec Ideal ⟨2, ![10, K]⟩ .f32)
    (hH : RealValued H) (hW : RealValued W)
    (srcc dstc : IVec ⟨2, ![1600000, 1]⟩ 32)
    (zK dK : FVec Ideal ⟨2, ![50000, K]⟩ .f32) (z10 d10 : FVec Ideal ⟨2, ![50000, 10]⟩ .f32)
    (hzK : ∀ i, zK i = 0) (hz10 : ∀ i, z10 i = 0)
    (d : Fin 50000 → ℝ) (hdK : ∀ n k, dK (ix2 n k) = (d n : EReal)) (hd10 : ∀ n j, d10 (ix2 n j) = (d n : EReal)) :
    projAt (aggScaled wfgK wfsK H srcc dstc zK dK) W = aggScaled wfg10 wfs10 (projAt H W) srcc dstc z10 d10 := by
  funext i
  obtain ⟨n, j, rfl⟩ : ∃ (n : Fin 50000) (j : Fin 10), i = ix2 n j := ⟨i 0, i 1, eq_ix2 i⟩
  choose hr hhr using hH
  choose wr hwr using hW
  -- both sides are embeddings of real expressions: the extended reals do not distribute at the infinities, the reals do
  -- the product of the two real tables, entry by entry
  have hP : ∀ (m : Fin 50000) (j : Fin 10),
      projAt H W (ix2 m j) = ((∑ k : Fin K, hr (ix2 m k) * wr (ix2 j k) : ℝ) : EReal) := by
    intro m j
    rw [projAt_apply, IdealReal.coe_sum]
    exact Finset.sum_congr rfl fun k _ => by rw [hhr, hwr, EReal.coe_mul]
  -- the right side: the aggregate of the products
  have hR := aggScaled_coe wfg10 wfs10 (projAt H W) srcc dstc z10 d10 hz10
    (fun m j => ∑ k : Fin K, hr (ix2 m k) * wr (ix2 j k)) hP n j (d n) (hd10 n j)
  -- the left side: term `k` of the product of the aggregate with the second table
  have hL : ∀ k : Fin K, aggScaled wfgK wfsK H srcc dstc zK dK (ix2 n k) * W (ix2 j k)
      = ((((∑ e : Fin 1600000,
          if (dstc (ix2 e ⟨0, Nat.one_pos⟩)).toInt = (n.val : Int) then hr (ix2 (srcRow srcc e) k) else 0) * d n)
            * wr (ix2 j k) : ℝ) : EReal) := by
    intro k
    rw [aggScaled_coe wfgK wfsK H srcc dstc zK dK hzK (fun m q => hr (ix2 m q)) (fun m q => hhr (ix2 m q)) n k (d n)
      (hdK n k), hwr, ← EReal.coe_mul]
  rw [hR, projAt_apply, Finset.sum_congr rfl fun k _ => hL k, ← IdealReal.coe_sum, EReal.coe_eq_coe_iff]
  exact real_agg_proj (fun e => (dstc (ix2 e ⟨0, Nat.one_pos⟩)).toInt = (n.val : Int))
    (fun e k => hr (ix2 (srcRow srcc e) k)) (fun k => wr (ix2 j k)) (d n)

end Cert.Sage

end
-- ==== Proof.DotProj.lean ====
/-
  A matrix product against a transposed weight matrix is the row-against-row product.

  The reference multiplies `[50000, K]` features by the transpose `[K, 10]` of a `[10, K]` weight matrix, contracting the
  feature axis.  Entry `(n, j)` of that product is the sum over `k` of `H (n, k) · Wᵀ (k, j) = H (n, k) · W (j, k)`: row `n`
  of the features against row `j` of the weights.
-/
import proofs.«421297_j20469814132906_3_alg».proof.ReferenceIdeal
import proofs.«421297_j20469814132906_3_alg».proof.Proof.Gen.ReferenceIdeal
import proofs.«421297_j20469814132906_3_alg».proof.Proof.Spec
import proofs.«421297_j20469814132906_3_alg».proof.Proof.LibPlainMatmul
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.Sage

/-- For the product with contraction extent 128: the left operand's row coordinate is the output's row. -/
private theorem lhs128_0 (i : S50000x10.Idx) (q : dot_S50000x128_S128x10_S50000x10_1_0_0_1_n_n.contr.Idx) :
    (dot_S50000x128_S128x10_S50000x10_1_0_0_1_n_n.lhsIdx i q 0).val = (i 0).val := by
  unfold DotDims.lhsIdx
  rw [dif_neg (show ¬(0 : Fin S50000x128.rank) ∈ dot_S50000x128_S128x10_S50000x10_1_0_0_1_n_n.lhsBatch by decide),
    dif_pos (show (0 : Fin S50000x128.rank) ∈ dot_S50000x128_S128x10_S50000x10_1_0_0_1_n_n.lhsNonContracting by decide)]
  rfl

/-- The left operand's column coordinate is the contraction coordinate. -/
private theorem lhs128_1 (i : S50000x10.Idx) (q : dot_S50000x128_S128x10_S50000x10_1_0_0_1_n_n.contr.Idx) :
    (dot_S50000x128_S128x10_S50000x10_1_0_0_1_n_n.lhsIdx i q 1).val = (q ⟨0, by decide⟩).val :=
  dot_S50000x128_S128x10_S50000x10_1_0_0_1_n_n.lhsIdx_val_of_single rfl i q

/-- The right operand's row coordinate is the contraction coordinate. -/
private theorem rhs128_0 (i : S50000x10.Idx) (q : dot_S50000x128_S128x10_S50000x10_1_0_0_1_n_n.contr.Idx) :
    (dot_S50000x128_S128x10_S50000x10_1_0_0_1_n_n.rhsIdx i q 0).val = (q ⟨0, by decide⟩).val :=
  dot_S50000x128_S128x10_S50000x10_1_0_0_1_n_n.rhsIdx_val_of_single rfl i q

/-- The right operand's column coordinate is the output's column. -/
private theorem rhs128_1 (i : S50000x10.Idx) (q : dot_S50000x128_S128x10_S50000x10_1_0_0_1_n_n.contr.Idx) :
    (dot_S50000x128_S128x10_S50000x10_1_0_0_1_n_n.rhsIdx i q 1).val = (i 1).val := by
  unfold DotDims.rhsIdx
  rw [dif_neg (show ¬(1 : Fin S128x10.rank) ∈ dot_S50000x128_S128x10_S50000x10_1_0_0_1_n_n.rhsBatch by decide),
    dif_pos (show (1 : Fin S128x10.rank) ∈ dot_S50000x128_S128x10_S50000x10_1_0_0_1_n_n.rhsNonContracting by decide)]
  rfl

/-- For the product with contraction extent 10: the left operand's row coordinate is the output's row. -/
private theorem lhs10_0 (i : S50000x10.Idx) (q : dot_S50000x10_S10x10_S50000x10_1_0_0_1_n_n.contr.Idx) :
    (dot_S50000x10_S10x10_S50000x10_1_0_0_1_n_n.lhsIdx i q 0).val = (i 0).val := by
  unfold DotDims.lhsIdx
  rw [dif_neg (show ¬(0 : Fin S50000x10.rank) ∈ dot_S50000x10_S10x10_S50000x10_1_0_0_1_n_n.lhsBatch by decide),
    dif_pos (show (0 : Fin S50000x10.rank) ∈ dot_S50000x10_S10x10_S50000x10_1_0_0_1_n_n.lhsNonContracting by decide)]
  rfl

/-- The left operand's column coordinate is the contraction coordinate. -/
private theorem lhs10_1 (i : S50000x10.Idx) (q : dot_S50000x10_S10x10_S50000x10_1_0_0_1_n_n.contr.Idx) :
    (dot_S50000x10_S10x10_S50000x10_1_0_0_1_n_n.lhsIdx i q 1).val = (q ⟨0, by decide⟩).val :=
  dot_S50000x10_S10x10_S50000x10_1_0_0_1_n_n.lhsIdx_val_of_single rfl i q

/-- The right operand's row coordinate is the contraction coordinate. -/
private theorem rhs10_0 (i : S50000x10.Idx) (q : dot_S50000x10_S10x10_S50000x10_1_0_0_1_n_n.contr.Idx) :
    (dot_S50000x10_S10x10_S50000x10_1_0_0_1_n_n.rhsIdx i q 0).val = (q ⟨0, by decide⟩).val :=
  dot_S50000x10_S10x10_S50000x10_1_0_0_1_n_n.rhsIdx_val_of_single rfl i q

/-- The right operand's column coordinate is the output's column. -/
private theorem rhs10_1 (i : S50000x10.Idx) (q : dot_S50000x10_S10x10_S50000x10_1_0_0_1_n_n.contr.Idx) :
    (dot_S50000x10_S10x10_S50000x10_1_0_0_1_n_n.rhsIdx i q 1).val = (i 1).val := by
  unfold DotDims.rhsIdx
  rw [dif_neg (show ¬(1 : Fin S10x10.rank) ∈ dot_S50000x10_S10x10_S50000x10_1_0_0_1_n_n.rhsBatch by decide),
    dif_pos (show (1 : Fin S10x10.rank) ∈ dot_S50000x10_S10x10_S50000x10_1_0_0_1_n_n.rhsNonContracting by decide)]
  rfl

/-- `[50000, 128] · ([10, 128])ᵀ`. -/
theorem dot128_eq_projAt (H : FVec Ideal S50000x128 .f32) (W : FVec Ideal S10x128 .f32) :
    Host.dotGeneral dot_S50000x128_S128x10_S50000x10_1_0_0_1_n_n none H
        (transpose S128x10 [1, 0] W transposes_S10x128_S128x10_1_0)
      = projAt (K := 128) H W := by
  funext i
  obtain ⟨n, j, rfl⟩ : ∃ (n : Fin 50000) (j : Fin 10), i = ix2 n j := ⟨i 0, i 1, eq_ix2 i⟩
  rw [projAt_apply]
  -- the product at an entry is the sum over the one contraction coordinate
  simp only [Host.dotGeneral]
  rw [Ideal.dotGeneral_apply, ← Equiv.sum_comp (contrEquiv1 dot_S50000x128_S128x10_S50000x10_1_0_0_1_n_n 128 rfl rfl).symm]
  refine Finset.sum_congr rfl fun k _ => ?_
  have hk := contrEquiv1_symm_val dot_S50000x128_S128x10_S50000x10_1_0_0_1_n_n 128 rfl rfl k
  -- the left operand is read at (n, k), the right one at (k, j)
  have el : dot_S50000x128_S128x10_S50000x10_1_0_0_1_n_n.lhsIdx (ix2 n j) ((contrEquiv1 dot_S50000x128_S128x10_S50000x10_1_0_0_1_n_n 128 rfl rfl).symm k) = ix2 n k :=
    funext fun a => Fin.ext (by
      match a with
      | ⟨0, _⟩ => exact lhs128_0 _ _
      | ⟨1, _⟩ => exact (lhs128_1 _ _).trans hk)
  have er : dot_S50000x128_S128x10_S50000x10_1_0_0_1_n_n.rhsIdx (ix2 n j) ((contrEquiv1 dot_S50000x128_S128x10_S50000x10_1_0_0_1_n_n 128 rfl rfl).symm k) = ix2 k j :=
    funext fun a => Fin.ext (by
      match a with
      | ⟨0, _⟩ => exact (rhs128_0 _ _).trans hk
      | ⟨1, _⟩ => exact rhs128_1 _ _)
  rw [el, er]
  -- the transposed weights at (k, j) are the weights at (j, k)
  rw [transpose_apply [1, 0] W transposes_S10x128_S128x10_1_0 (ix2 k j) (ix2 j k) (fun b => match b with
    | ⟨0, _⟩ => rfl
    | ⟨1, _⟩ => rfl)]

/-- `[50000, 10] · ([10, 10])ᵀ`. -/
theorem dot10_eq_projAt (H : FVec Ideal S50000x10 .f32) (W : FVec Ideal S10x10 .f32) :
    Host.dotGeneral dot_S50000x10_S10x10_S50000x10_1_0_0_1_n_n none H
        (transpose S10x10 [1, 0] W transposes_S10x10_S10x10_1_0)
      = projAt (K := 10) H W := by
  funext i
  obtain ⟨n, j, rfl⟩ : ∃ (n : Fin 50000) (j : Fin 10), i = ix2 n j := ⟨i 0, i 1, eq_ix2 i⟩
  rw [projAt_apply]
  -- the product at an entry is the sum over the one contraction coordinate
  simp only [Host.dotGeneral]
  rw [Ideal.dotGeneral_apply, ← Equiv.sum_comp (contrEquiv1 dot_S50000x10_S10x10_S50000x10_1_0_0_1_n_n 10 rfl rfl).symm]
  refine Finset.sum_congr rfl fun k _ => ?_
  have hk := contrEquiv1_symm_val dot_S50000x10_S10x10_S50000x10_1_0_0_1_n_n 10 rfl rfl k
  -- the left operand is read at (n, k), the right one at (k, j)
  have el : dot_S50000x10_S10x10_S50000x10_1_0_0_1_n_n.lhsIdx (ix2 n j) ((contrEquiv1 dot_S50000x10_S10x10_S50000x10_1_0_0_1_n_n 10 rfl rfl).symm k) = ix2 n k :=
    funext fun a => Fin.ext (by
      match a with
      | ⟨0, _⟩ => exact lhs10_0 _ _
      | ⟨1, _⟩ => exact (lhs10_1 _ _).trans hk)
  have er : dot_S50000x10_S10x10_S50000x10_1_0_0_1_n_n.rhsIdx (ix2 n j) ((contrEquiv1 dot_S50000x10_S10x10_S50000x10_1_0_0_1_n_n 10 rfl rfl).symm k) = ix2 k j :=
    funext fun a => Fin.ext (by
      match a with
      | ⟨0, _⟩ => exact (rhs10_0 _ _).trans hk
      | ⟨1, _⟩ => exact rhs10_1 _ _)
  rw [el, er]
  -- the transposed weights at (k, j) are the weights at (j, k)
  rw [transpose_apply [1, 0] W transposes_S10x10_S10x10_1_0 (ix2 k j) (ix2 j k) (fun b => match b with
    | ⟨0, _⟩ => rfl
    | ⟨1, _⟩ => rfl)]

end Cert.ReferenceIdeal.RefValue

end
-- ==== Proof.RefLayers.lean ====
/-
  The reference's two layers, read in the order "project, then aggregate".

  The reference aggregates the rows of its node features over the incoming edges, scales them per node, and multiplies the
  aggregate by the transposed left weights; it adds the node's own features times the transposed right weights, and after
  the first layer takes the positive part.  On real entries the aggregate's product is the aggregate of the products
  (module Algebra), and a product against a transposed weight matrix is the row-against-row product (module DotProj); the
  per-node scale is a real number and the aggregations start from zero (taken here as hypotheses).  So each layer is: the scaled aggregate of `h · Wlᵀ`, plus `h · Wrᵀ`.
-/
import proofs.«421297_j20469814132906_3_alg».proof.Proof.Gen.ReferenceIdeal.Read
import proofs.«421297_j20469814132906_3_alg».proof.Proof.Spec
import proofs.«421297_j20469814132906_3_alg».proof.Proof.Algebra
import proofs.«421297_j20469814132906_3_alg».proof.Proof.DotProj

set_option maxRecDepth 16384

noncomputable section

namespace Cert.ReferenceIdeal.RefValue

open Idealize.ShloMosaic Idealize.ShloMosaic.ValueIdx Cert.ReferenceIdeal Cert.ReferenceIdeal.Gen Cert.ReferenceIdeal.Read Cert.Sage

/-- The scaled aggregate of a `[50000, 10]` table over the reference's edge columns, from its zero array. -/
abbrev agg10 (P : FVec Ideal S50000x10 .f32) (x6 : IVec S2x1600000 32) : FVec Ideal S50000x10 .f32 :=
  aggScaled (C := 10) gather_S50000x10_S1600000x1_S1600000x10_1_0_n_n_0_1_110_wf
    scatter_S50000x10_S1600000x1_S1600000x10_1_0_0_1_wf P (val_main_v36 (F := Ideal) x6) (val_main_v39 (F := Ideal) x6)
    (val_main_v38 (F := Ideal)) (val_main_v42 (F := Ideal) x6)

/-- The first layer's node features, in the order "project, then aggregate". -/
def layer1 (x0 : FVec Ideal S50000x128 .f32) (x1 x2 : FVec Ideal S10x128 .f32) (x6 : IVec S2x1600000 32) :
    FVec Ideal S50000x10 .f32 :=
  sumPos (agg10 (projAt (K := 128) x0 x1) x6) (projAt (K := 128) x0 x2)

/-- The second layer's node features, in the order "project, then aggregate". -/
def layer2 (h1 : FVec Ideal S50000x10 .f32) (x3 x4 : FVec Ideal S10x10 .f32) (x6 : IVec S2x1600000 32) :
    FVec Ideal S50000x10 .f32 :=
  sumArr (agg10 (projAt (K := 10) h1 x3) x6) (projAt (K := 10) h1 x4)

/-- The reference's row-take record at 128 columns is the row-take dimension numbers. -/
private theorem gather128_eq :
    (gather_S50000x128_S1600000x1_S1600000x128_1_0_n_n_0_1_1128 : GatherDims S50000x128 S1600000x1 S1600000x128)
      = GatherRows.rowDims 50000 128 1600000 gather_S50000x128_S1600000x1_S1600000x128_1_0_n_n_0_1_1128_wf := rfl

/-- The reference's row scatter record at 128 columns is the row scatter dimension numbers. -/
private theorem scatter128_eq :
    (scatter_S50000x128_S1600000x1_S1600000x128_1_0_0_1 : ScatterDims S50000x128 S1600000x1 S1600000x128)
      = ScatterAddRows.rowDims 50000 128 1600000 scatter_S50000x128_S1600000x1_S1600000x128_1_0_0_1_wf := rfl

/-- The reference's row-take record at 10 columns is the row-take dimension numbers. -/
private theorem gather10_eq :
    (gather_S50000x10_S1600000x1_S1600000x10_1_0_n_n_0_1_110 : GatherDims S50000x10 S1600000x1 S1600000x10)
      = GatherRows.rowDims 50000 10 1600000 gather_S50000x10_S1600000x1_S1600000x10_1_0_n_n_0_1_110_wf := rfl

/-- The reference's row scatter record at 10 columns is the row scatter dimension numbers. -/
private theorem scatter10_eq :
    (scatter_S50000x10_S1600000x1_S1600000x10_1_0_0_1 : ScatterDims S50000x10 S1600000x1 S1600000x10)
      = ScatterAddRows.rowDims 50000 10 1600000 scatter_S50000x10_S1600000x1_S1600000x10_1_0_0_1_wf := rfl

/-- Both layers read the same column of (wrapped) source rows: the second layer recomputes the first layer's column. -/
private theorem src_cols_eq (x6 : IVec S2x1600000 32) :
    val_main_v17 (F := Ideal) x6 = val_main_v36 (F := Ideal) x6 := by
  unfold val_main_v17 val_main_v36 val_main_v16 val_main_v35 val_main_v13 val_main_v32 val_main_v15 val_main_v34
    val_main_v12 val_main_v31 val_main_v14 val_main_v33 val_main_c val_main_c_5 val_main_c_3 val_main_c_6
  rfl

/-- Both layers read the same column of destination rows. -/
private theorem dst_cols_eq (x6 : IVec S2x1600000 32) :
    val_main_v20 (F := Ideal) x6 = val_main_v39 (F := Ideal) x6 := by
  unfold val_main_v20 val_main_v39
  rfl

/-- The scaled aggregate read at an index: the scatter-add of the gathered rows there, times the scale there. -/
private theorem aggScaled_at {C : ℕ} (wfg) (wfs) (H : FVec Ideal ⟨2, ![50000, C]⟩ .f32)
    (srcc dstc : IVec ⟨2, ![1600000, 1]⟩ 32) (z dcol : FVec Ideal ⟨2, ![50000, C]⟩ .f32) (i : (⟨2, ![50000, C]⟩ : Shape).Idx) :
    aggScaled wfg wfs H srcc dstc z dcol i
      = Ideal.hostScatterAdd (ScatterAddRows.rowDims 50000 C 1600000 wfs) z dstc
          (Host.gather (GatherRows.rowDims 50000 C 1600000 wfg) H srcc) i * dcol i := rfl

/-- The first layer's scaled aggregate of the input features is `aggScaled` at 128 columns. -/
private theorem v24_eq (x0 : FVec Ideal S50000x128 .f32) (x6 : IVec S2x1600000 32) :
    val_main_v24 (F := Ideal) x0 x6
      = aggScaled (C := 128) gather_S50000x128_S1600000x1_S1600000x128_1_0_n_n_0_1_1128_wf scatter_S50000x128_S1600000x1_S1600000x128_1_0_0_1_wf x0
          (val_main_v36 (F := Ideal) x6) (val_main_v39 (F := Ideal) x6) (val_main_v19 (F := Ideal))
          (val_main_v23 (F := Ideal) x6) := by
  funext i
  rw [val_main_v24_apply, Ideal.mulf_def, ← src_cols_eq, ← dst_cols_eq, aggScaled_at]
  rw [val_main_v21, val_main_v18, Host.scatterAdd, Ideal.hostScatterAdd_def, scatter128_eq, gather128_eq]

/-- The second layer's scaled aggregate of the first layer's features is `aggScaled` at 10 columns. -/
private theorem v43_eq (x0 : FVec Ideal S50000x128 .f32) (x1 x2 : FVec Ideal S10x128 .f32) (x6 : IVec S2x1600000 32) :
    val_main_v43 (F := Ideal) x0 x1 x2 x6
      = aggScaled (C := 10) gather_S50000x10_S1600000x1_S1600000x10_1_0_n_n_0_1_110_wf scatter_S50000x10_S1600000x1_S1600000x10_1_0_0_1_wf (val_main_v30 (F := Ideal) x0 x1 x2 x6)
          (val_main_v36 (F := Ideal) x6) (val_main_v39 (F := Ideal) x6) (val_main_v38 (F := Ideal))
          (val_main_v42 (F := Ideal) x6) := by
  funext i
  rw [val_main_v43_apply, Ideal.mulf_def, aggScaled_at]
  rw [val_main_v40, val_main_v37, Host.scatterAdd, Ideal.hostScatterAdd_def, scatter10_eq, gather10_eq]

/-- The first layer's left product is the row-against-row product of the scaled aggregate with the left weights. -/
private theorem v26_eq (x0 : FVec Ideal S50000x128 .f32) (x1 : FVec Ideal S10x128 .f32) (x6 : IVec S2x1600000 32) :
    val_main_v26 (F := Ideal) x0 x1 x6 = projAt (K := 128) (val_main_v24 (F := Ideal) x0 x6) x1 := by
  rw [val_main_v26, val_main_v25]
  exact dot128_eq_projAt _ _

/-- The first layer's right product is the row-against-row product of the input features with the right weights. -/
private theorem v28_eq (x0 : FVec Ideal S50000x128 .f32) (x2 : FVec Ideal S10x128 .f32) :
    val_main_v28 (F := Ideal) x0 x2 = projAt (K := 128) x0 x2 := by
  rw [val_main_v28, val_main_v27]
  exact dot128_eq_projAt _ _

/-- The second layer's left product. -/
private theorem v45_eq (x0 : FVec Ideal S50000x128 .f32) (x1 x2 : FVec Ideal S10x128 .f32) (x3 : FVec Ideal S10x10 .f32)
    (x6 : IVec S2x1600000 32) :
    val_main_v45 (F := Ideal) x0 x1 x2 x3 x6 = projAt (K := 10) (val_main_v43 (F := Ideal) x0 x1 x2 x6) x3 := by
  rw [val_main_v45, val_main_v44]
  exact dot10_eq_projAt _ _

/-- The second layer's right product. -/
private theorem v47_eq (x0 : FVec Ideal S50000x128 .f32) (x1 x2 : FVec Ideal S10x128 .f32) (x4 : FVec Ideal S10x10 .f32)
    (x6 : IVec S2x1600000 32) :
    val_main_v47 (F := Ideal) x0 x1 x2 x4 x6 = projAt (K := 10) (val_main_v30 (F := Ideal) x0 x1 x2 x6) x4 := by
  rw [val_main_v47, val_main_v46]
  exact dot10_eq_projAt _ _

/-- The positive part is taken against the zero word, which reads zero. -/
private theorem relu_zero_at (i : S50000x10.Idx) : val_main_call0_v0 (F := Ideal) i = 0 := by
  rw [val_main_call0_v0_apply, val_main_call0_cst_apply, Ideal.ofBits_def, IdealReal.ofBits_zero_f32, EReal.coe_zero]

private theorem sumPos_at (a b : FVec Ideal ⟨2, ![50000, 10]⟩ .f32) (i : (⟨2, ![50000, 10]⟩ : Shape).Idx) :
    sumPos a b i = max (a i + b i) 0 := rfl

private theorem sumArr_at (a b : FVec Ideal ⟨2, ![50000, 10]⟩ .f32) (i : (⟨2, ![50000, 10]⟩ : Shape).Idx) :
    sumArr a b i = a i + b i := rfl

/-- The reference's first-layer features (after the positive part) are `layer1`, on real inputs. -/
theorem val_main_v30_eq (x0 : FVec Ideal S50000x128 .f32) (x1 x2 : FVec Ideal S10x128 .f32) (x6 : IVec S2x1600000 32)
    (h0 : RealValued x0) (h1 : RealValued x1)
    (d : Fin 50000 → ℝ)
    (hd128 : ∀ (n : Fin 50000) (k : Fin 128), val_main_v23 (F := Ideal) x6 (ix2 n k) = (d n : EReal))
    (hd10 : ∀ (n : Fin 50000) (j : Fin 10), val_main_v42 (F := Ideal) x6 (ix2 n j) = (d n : EReal))
    (hz128 : ∀ i : S50000x128.Idx, val_main_v19 (F := Ideal) i = 0) (hz10 : ∀ i : S50000x10.Idx, val_main_v38 (F := Ideal) i = 0) :
    val_main_v30 (F := Ideal) x0 x1 x2 x6 = layer1 x0 x1 x2 x6 := by
  -- the left product: the product of the aggregate is the aggregate of the products (real entries, from zero, real scale)
  have e26 : val_main_v26 (F := Ideal) x0 x1 x6 = agg10 (projAt (K := 128) x0 x1) x6 := by
    rw [v26_eq, v24_eq]
    exact projAt_aggScaled (K := 128) _ _ _ _ x0 x1 h0 h1 _ _ _ _ _ _ hz128 hz10 d hd128 hd10
  funext i
  rw [val_main_v30_apply, val_main_v29_apply, e26, v28_eq, relu_zero_at, Ideal.maximumf_def, Ideal.addf_def, layer1,
    sumPos_at]

/-- The first layer's features are real-valued on real inputs. -/
theorem realValued_layer1 (x0 : FVec Ideal S50000x128 .f32) (x1 x2 : FVec Ideal S10x128 .f32) (x6 : IVec S2x1600000 32)
    (h0 : RealValued x0) (h1 : RealValued x1) (h2 : RealValued x2)
    (d : Fin 50000 → ℝ) (hd10 : ∀ (n : Fin 50000) (j : Fin 10), val_main_v42 (F := Ideal) x6 (ix2 n j) = (d n : EReal))
    (hz10 : ∀ i : S50000x10.Idx, val_main_v38 (F := Ideal) i = 0) : RealValued (layer1 x0 x1 x2 x6) := by
  -- the scale array is real-valued: it reads the real number of its row
  have hd : RealValued (val_main_v42 (F := Ideal) x6) := by
    intro i
    obtain ⟨n, j, rfl⟩ : ∃ (n : Fin 50000) (j : Fin 10), i = ix2 n j := ⟨i 0, i 1, eq_ix2 i⟩
    exact ⟨d n, hd10 n j⟩
  rw [layer1]
  exact realValued_sumPos _ _
    (realValued_aggScaled _ _ _ _ _ _ _ (realValued_projAt x0 x1 h0 h1) hz10 hd) (realValued_projAt x0 x2 h0 h2)

/-- The reference's second-layer features are `layer2` of its first-layer features, on real inputs. -/
theorem val_main_v48_eq (x0 : FVec Ideal S50000x128 .f32) (x1 x2 : FVec Ideal S10x128 .f32) (x3 x4 : FVec Ideal S10x10 .f32)
    (x6 : IVec S2x1600000 32) (h0 : RealValued x0) (h1 : RealValued x1) (h2 : RealValued x2) (h3 : RealValued x3)
    (d : Fin 50000 → ℝ)
    (hd128 : ∀ (n : Fin 50000) (k : Fin 128), val_main_v23 (F := Ideal) x6 (ix2 n k) = (d n : EReal))
    (hd10 : ∀ (n : Fin 50000) (j : Fin 10), val_main_v42 (F := Ideal) x6 (ix2 n j) = (d n : EReal))
    (hz128 : ∀ i : S50000x128.Idx, val_main_v19 (F := Ideal) i = 0) (hz10 : ∀ i : S50000x10.Idx, val_main_v38 (F := Ideal) i = 0) :
    val_main_v48 (F := Ideal) x0 x1 x2 x3 x4 x6 = layer2 (layer1 x0 x1 x2 x6) x3 x4 x6 := by
  have hL1 := val_main_v30_eq x0 x1 x2 x6 h0 h1 d hd128 hd10 hz128 hz10
  have hR1 := realValued_layer1 x0 x1 x2 x6 h0 h1 h2 d hd10 hz10
  -- the left product, with the first layer's features (real-valued) in place of the inputs, at 10 columns on both sides
  have e45 : val_main_v45 (F := Ideal) x0 x1 x2 x3 x6 = agg10 (projAt (K := 10) (layer1 x0 x1 x2 x6) x3) x6 := by
    rw [v45_eq, v43_eq, hL1]
    exact projAt_aggScaled (K := 10) _ _ _ _ (layer1 x0 x1 x2 x6) x3 hR1 h3 _ _ _ _ _ _ hz10 hz10 d hd10 hd10
  funext i
  rw [val_main_v48_apply, e45, v47_eq, hL1, Ideal.addf_def, layer2, sumArr_at]

end Cert.ReferenceIdeal.RefValue

end
-- ==== Proof.DegInv.lean ====
/-
  The per-node scale is a real number, the same on every column.

  The scale of node `n` is `1 / max (deg n) 1`, where `deg n` counts, as a sum of ones starting from zero, the edges whose
  destination number is `n`: a finite sum of ones is a real, its maximum with one is a real at least one, and one over
  it is a real.  The two arrays that carry the scale to the 128-wide and the 10-wide features repeat it along each row.
-/
import proofs.«421297_j20469814132906_3_alg».proof.Proof.Gen.ReferenceIdeal.Read
import proofs.«421297_j20469814132906_3_alg».proof.Proof.Spec
import proofs.«421297_j20469814132906_3_alg».proof.Proof.LibScatterAddRows
import proofs.«421297_j20469814132906_3_alg».proof.Proof.LibIdealReal
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.Sage

/-- The destination number of edge `p`, as the degree count reads it: entry `(p, 0)` of the column of scatter indices. -/
private abbrev dst (x6 : IVec S2x1600000 32) (p : Fin 1600000) : BitVec 32 :=
  val_main_v6 (F := Ideal) x6 (ix2 p ⟨0, Nat.one_pos⟩)

/-- The number of edges into node `n`, as a real: a one for every edge whose destination number is `n`. -/
private def degR (x6 : IVec S2x1600000 32) (n : Fin 50000) : ℝ :=
  ∑ p : Fin 1600000, if (dst x6 p).toInt = (n.val : Int) then (1 : ℝ) else 0

/-- The scale of node `n`, as a real: one over the larger of its degree and one. -/
private def scaleR (x6 : IVec S2x1600000 32) (n : Fin 50000) : ℝ := 1 / max (degR x6 n) 1

/-- The degree count's dimension numbers are those of an entry scatter into a table of 50000 by a column of 1600000
    entry numbers. -/
private theorem degreeDims_eq :
    (scatter_S50000_S1600000x1_S1600000_n_0_0_1 : ScatterDims S50000 S1600000x1 S1600000)
      = ScatterAddRows.entryDims 50000 1600000 Facts₀.scatter_S50000_S1600000x1_S1600000_n_0_0_1_wf := rfl

/-- The degree array is the accumulating scatter of the array of ones into the array of zeros. -/
private theorem deg_eq_scatter (x6 : IVec S2x1600000 32) :
    val_main_v7 (F := Ideal) x6
      = Ideal.hostScatterAdd scatter_S50000_S1600000x1_S1600000_n_0_0_1
          (val_main_v5 (F := Ideal)) (val_main_v6 (F := Ideal) x6) (val_main_v4 (F := Ideal)) := rfl

/-- The degree array at node `n` is a real: zero plus a one for every edge into `n`. -/
private theorem deg_apply (x6 : IVec S2x1600000 32) (n : Fin 50000) :
    val_main_v7 (F := Ideal) x6 (ix1 n) = ((degR x6 n : ℝ) : EReal) := by
  rw [deg_eq_scatter, degreeDims_eq, ScatterAddRows.scatterAdd_entries_apply, val_main_v5_apply,
    val_main_cst_0_apply]
  simp only [val_main_v4_apply, val_main_cst_apply, Ideal.ofBits_def, IdealReal.ofBits_zero_f32,
    IdealReal.ofBits_one_f32]
  rw [EReal.coe_zero, zero_add]
  unfold degR
  rw [IdealReal.coe_sum]
  refine Finset.sum_congr rfl fun p _ => ?_
  by_cases h : (dst x6 p).toInt = (n.val : Int)
  · rw [if_pos h, if_pos h]
  · rw [if_neg h, if_neg h, EReal.coe_zero]

/-- The larger of two reals, taken among the extended reals, is the larger real. -/
private theorem max_coe_coe (a b : ℝ) : max (a : EReal) (b : EReal) = ((max a b : ℝ) : EReal) :=
  (EReal.coe_strictMono.monotone.map_max).symm

/-- The scale array at node `n` is a real: the divisor, the larger of the degree and one, is a real at least one. -/
private theorem scale_apply (x6 : IVec S2x1600000 32) (n : Fin 50000) :
    val_main_v11 (F := Ideal) x6 (ix1 n) = ((scaleR x6 n : ℝ) : EReal) := by
  rw [val_main_v11_apply, val_main_v10_apply, val_main_cst_2_apply, val_main_v9_apply, val_main_v8_apply,
    val_main_cst_1_apply, deg_apply]
  simp only [Ideal.hostDivf_def, Ideal.maximumf_def, Ideal.ofBits_def, IdealReal.ofBits_one_f32]
  rw [max_coe_coe, IdealReal.div_coe_coe _ _ (ne_of_gt (lt_of_lt_of_le one_pos (le_max_right _ _)))]
  rfl

/-- One real scale per node, read by both broadcast arrays on every column of the node's row. -/
theorem degInv_real (x6 : IVec S2x1600000 32) :
    ∃ d : Fin 50000 → ℝ,
      (∀ (n : Fin 50000) (k : Fin 128), val_main_v23 (F := Ideal) x6 (ix2 n k) = (d n : EReal))
      ∧ (∀ (n : Fin 50000) (j : Fin 10), val_main_v42 (F := Ideal) x6 (ix2 n j) = (d n : EReal)) := by
  refine ⟨scaleR x6, fun n k => ?_, fun n j => ?_⟩
  · -- entry (n, k) of the 128-wide array reads entry (n, 0) of the column, which reads entry n of the scale array
    rw [val_main_v23_apply, val_main_v22_apply,
      show idx_main_v22 (idx_main_v23 (ix2 n k)) = ix1 n from
        funext fun a => Fin.ext (by match a with | ⟨0, _⟩ => rfl),
      scale_apply]
  · -- and the same for the 10-wide array
    rw [val_main_v42_apply, val_main_v41_apply,
      show idx_main_v41 (idx_main_v42 (ix2 n j)) = ix1 n from
        funext fun a => Fin.ext (by match a with | ⟨0, _⟩ => rfl),
      scale_apply]

/-- The two zero arrays the aggregations start from. -/
theorem zeros128 (i : S50000x128.Idx) : val_main_v19 (F := Ideal) i = 0 := by
  rw [val_main_v19_apply, val_main_cst_4_apply, Ideal.ofBits_def, Ideal.ofBits_zero_f32]

theorem zeros10 (i : S50000x10.Idx) : val_main_v38 (F := Ideal) i = 0 := by
  rw [val_main_v38_apply, val_main_cst_7_apply, Ideal.ofBits_def, Ideal.ofBits_zero_f32]

end Cert.ReferenceIdeal.RefValue

end
-- ==== Proof.PreFacts.lean ====
/-
  What the precondition says, read off its printed form.

  The precondition is a conjunction of eight `all`-reductions: six say that every entry of a float input has absolute value
  below +infinity, i.e. is a real number; two say that every source-node number of the edge list (row 0 of the `[2, 1600000]`
  edge array, read signed) is at least 0 and below 50000, i.e. names a row of the 50000-row node tables it indexes.
-/
import proofs.«421297_j20469814132906_3_alg».proof.Pre_finite_inputs
import proofs.«421297_j20469814132906_3_alg».proof.Proof.Gen.Pre_finite_inputs
import proofs.«421297_j20469814132906_3_alg».proof.Proof.Spec
import Idealize.ShloMosaic.Lib.ReduceAll
import Idealize.ShloMosaic.Lib.StableHlo.Predicate
import Idealize.ShloMosaic.Lib.ValueIdx
import Idealize.ShloMosaic.Lib.Pipeline.Value

noncomputable section

namespace Cert.PreFacts

open Idealize.ShloMosaic Idealize.ShloMosaic.ValueIdx Cert.Sage Cert.Pre_finite_inputs

/-- An extended real whose absolute value `max x (-x)` is strictly below `+∞` (the value of the pattern `0x7F800000`) is a
    real number: at `⊤` the absolute value is `⊤`, at `⊥` it is `-⊥ = ⊤`, and neither is below `⊤`. -/
private theorem real_of_abs_lt_top (x : EReal)
    (h : FloatOps.cmpf (F := Ideal) (φ := .f32) .olt (FloatOps.hostAbsf (F := Ideal) (φ := .f32) x)
        (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  simp only [Ideal.cmp] at h
  rw [StableHlo.Predicate.ofBool_eq_one_iff, decide_eq_true_eq] at h
  induction x using EReal.rec with
  | bot => simp at h
  | coe r => exact ⟨r, rfl⟩
  | top => simp at h

/-- `all (|x| < +∞)` over an array of any shape: when the `and`-reduction over all axes of the elementwise comparison is 1,
    every entry of the array is a real number. -/
private theorem realValued_of_all {s : Shape} {axes : List (Fin s.rank)} (x : FVec Ideal s .f32)
    (hb : S_.BroadcastsInDim s (![] : Fin 0 → Fin s.rank)) (hr : s.ReducesTo axes S_) (h0 : 0 < S_.numel) (init : IVec S_ 1)
    (h : Host.reduce IntOp.andi (cmpf .olt (Host.absf x) (broadcastInDim s ![] hb (constant S_ .f32 0x7F800000#32))) init hr h0 ix0
      = 1#1) :
    RealValued x := by
  haveI : Subsingleton S_.Idx := ⟨fun a b => funext fun d => d.elim0⟩
  intro i
  exact real_of_abs_lt_top (x i) (Host.reduce_andi_all _ init hr h0 ix0 h i)

/-- Row 0 of the `[2, 1600000]` array, taken as a `[1, 1600000]` slice at offset (0, 0) and reshaped to a vector, reads at
    position `e` the array's entry (0, e): the slice adds the zero offsets, and the reshape keeps the row-major position
    `0 * 1600000 + e = e`. -/
private theorem row0_read (x6 : IVec S2x1600000 32) (hs : S2x1600000.Slices ![0, 0] S1x1600000)
    (hc : S1x1600000.ShapeCasts S1600000) (e : Fin 1600000) :
    shapeCast S1600000 (extractStridedSlice S1x1600000 ![0, 0] x6 hs) hc (ix1 e) = x6 (ix2 (⟨0, by decide⟩ : Fin 2) e) := by
  refine (shapeCast_apply _ hc (ix1 e) (ix2 (⟨0, Nat.one_pos⟩ : Fin 1) e) ?_).trans ?_
  · rewrite [Shape.rowMajor_val_two, Shape.rowMajor_val_one]
    show 0 * 1600000 + e.val = e.val
    omega
  · exact extractStridedSlice_apply ![0, 0] x6 hs _ (ix2 (⟨0, by decide⟩ : Fin 2) e) (fun a => match a with
      | ⟨0, _⟩ => by show (0 : ℕ) = 0 + 0; rfl
      | ⟨1, _⟩ => by show e.val = 0 + e.val; omega)

/-- `all (row0 ≥ 0)` and `all (row0 < 50000)`, both signed: every entry of row 0, read as a signed integer, lies in
    `[0, 50000)`. -/
private theorem row0_range (x6 : IVec S2x1600000 32) (hs : S2x1600000.Slices ![0, 0] S1x1600000)
    (hc : S1x1600000.ShapeCasts S1600000) (hb : S_.BroadcastsInDim S1600000 (![] : Fin 0 → Fin S1600000.rank))
    (hr : S1600000.ReducesTo [0] S_) (h0 : 0 < S_.numel) (init0 init1 : IVec S_ 1)
    (hge : Host.reduce IntOp.andi (cmpi .sge (shapeCast S1600000 (extractStridedSlice S1x1600000 ![0, 0] x6 hs) hc)
        (broadcastInDim S1600000 ![] hb (constantI S_ 32 0#32))) init0 hr h0 ix0 = 1#1)
    (hlt : Host.reduce IntOp.andi (cmpi .slt (shapeCast S1600000 (extractStridedSlice S1x1600000 ![0, 0] x6 hs) hc)
        (broadcastInDim S1600000 ![] hb (constantI S_ 32 50000#32))) init1 hr h0 ix0 = 1#1)
    (e : Fin 1600000) :
    0 ≤ (x6 (ix2 (⟨0, by decide⟩ : Fin 2) e)).toInt ∧ (x6 (ix2 (⟨0, by decide⟩ : Fin 2) e)).toInt < 50000 := by
  haveI : Subsingleton S_.Idx := ⟨fun a b => funext fun d => d.elim0⟩
  have a : IntOp.cmpi .sge (shapeCast S1600000 (extractStridedSlice S1x1600000 ![0, 0] x6 hs) hc (ix1 e))
      (broadcastInDim S1600000 ![] hb (constantI S_ 32 0#32) (ix1 e)) = 1#1 :=
    Host.reduce_andi_all _ init0 hr h0 ix0 hge (ix1 e)
  have b : IntOp.cmpi .slt (shapeCast S1600000 (extractStridedSlice S1x1600000 ![0, 0] x6 hs) hc (ix1 e))
      (broadcastInDim S1600000 ![] hb (constantI S_ 32 50000#32) (ix1 e)) = 1#1 :=
    Host.reduce_andi_all _ init1 hr h0 ix0 hlt (ix1 e)
  rw [row0_read, StableHlo.Predicate.bcast_scalar hb h0, IntOp.cmpi_sge] at a
  rw [row0_read, StableHlo.Predicate.bcast_scalar hb h0, IntOp.cmpi_slt] at b
  have z0 : (constantI S_ 32 0#32 (Shape.Idx.first h0)).toInt = 0 := by show (0#32 : BitVec 32).toInt = 0; decide
  have z1 : (constantI S_ 32 50000#32 (Shape.Idx.first h0)).toInt = 50000 := by show (50000#32 : BitVec 32).toInt = 50000; decide
  rw [z0] at a
  rw [z1] at b
  exact ⟨a, b⟩

/-- Under the precondition every float input is real-valued and every source-node number is a row of the node table. -/
theorem of_pre [Cert.Pre_finite_inputs.Facts]
    (x0 : FVec Ideal S50000x128 .f32) (x1 x2 : FVec Ideal S10x128 .f32) (x3 x4 : FVec Ideal S10x10 .f32)
    (x5 : FVec Ideal S1x10 .f32) (x6 : IVec S2x1600000 32) (x7 : IVec S50000 32)
    (h : Cert.Pre_finite_inputs.fn (F := Ideal) x0 x1 x2 x3 x4 x5 x6 x7 = fun _ => 1#1) :
    RealValued x0 ∧ RealValued x1 ∧ RealValued x2 ∧ RealValued x3 ∧ RealValued x4 ∧ RealValued x5
      ∧ ∀ e : Fin 1600000, 0 ≤ (x6 (ix2 (⟨0, by decide⟩ : Fin 2) e)).toInt ∧ (x6 (ix2 (⟨0, by decide⟩ : Fin 2) e)).toInt < 50000 := by
  -- the predicate at its one index, its chain of operations in view, the conjunction of the eight reductions split
  have e := congrFun h ix0
  dsimp only [fn, fn_part1, fn_part2] at e
  simp only [andi, IntOp.andi_eq_one] at e
  obtain ⟨⟨⟨⟨⟨⟨⟨h0, h1⟩, h2⟩, h3⟩, h4⟩, h5⟩, hge⟩, hlt⟩ := e
  exact ⟨realValued_of_all x0 _ _ _ _ h0, realValued_of_all x1 _ _ _ _ h1, realValued_of_all x2 _ _ _ _ h2,
    realValued_of_all x3 _ _ _ _ h3, realValued_of_all x4 _ _ _ _ h4, realValued_of_all x5 _ _ _ _ h5,
    fun e => row0_range x6 _ _ _ _ _ _ _ hge hlt e⟩

end Cert.PreFacts

end
-- ==== Proof.Bridge.lean ====
/-
  The two programs compute the same function of their arguments, under the precondition.

  Under the precondition every float input is real-valued and every source-node number names a row of the node table.
  Then the kernel's take of rows by source number is the plain gather (no fill word is ever selected), its scaled
  aggregate is the reference's own scaled aggregate of the same table over the same edge columns, and each kernel layer
  is the reference's layer read in the order "project, then aggregate"; the reference's layers, on real entries, are that
  reading (module RefLayers).  The pooling and read-out tail is one function applied to equal node features.
-/
import proofs.«421297_j20469814132906_3_alg».proof.Proof.KernelShape
import proofs.«421297_j20469814132906_3_alg».proof.Proof.RefShape
import proofs.«421297_j20469814132906_3_alg».proof.Proof.RefLayers
import proofs.«421297_j20469814132906_3_alg».proof.Proof.DegInv
import proofs.«421297_j20469814132906_3_alg».proof.Proof.PreFacts
import proofs.«421297_j20469814132906_3_alg».proof.Proof.TakeInRange
import proofs.«421297_j20469814132906_3_alg».proof.Proof.Algebra

set_option maxRecDepth 16384

noncomputable section

namespace Cert.Bridge

open Idealize.ShloMosaic Idealize.ShloMosaic.ValueIdx Cert.Sage
open Cert.KernelIdeal.Fold Cert.KernelIdeal.Take
open Cert.ReferenceIdeal.Read Cert.ReferenceIdeal.RefValue

/-- The kernel's zero array is the reference's. -/
private theorem zerosK_eq :
    broadcastInDim Cert.KernelIdeal.S50000x10 ![] Cert.KernelIdeal.Gen.bcast_S_S50000x10 (constant (F := Ideal) Cert.KernelIdeal.S_ .f32 0x00000000#32)
      = val_main_v38 (F := Ideal) := by
  rw [val_main_v38, val_main_cst_7]

/-- The kernel's column of destination numbers is the reference's. -/
private theorem dstColK_eq (x6 : IVec Cert.ReferenceIdeal.S2x1600000 32) :
    broadcastInDim Cert.KernelIdeal.S1600000x1 ![0] Cert.KernelIdeal.Gen.bcast_S1600000_S1600000x1_0 (val_main_v3 (F := Ideal) x6)
      = val_main_v39 (F := Ideal) x6 := by
  rw [val_main_v39]

/-- The kernel's column of (wrapped) source numbers is the reference's. -/
private theorem srcColK_eq (x6 : IVec Cert.ReferenceIdeal.S2x1600000 32) :
    srcCol (val_main_v1 (F := Ideal) x6) = val_main_v36 (F := Ideal) x6 := by
  rw [srcCol, val_main_v36, val_main_v35, val_main_v34, val_main_v33, val_main_v32, val_main_v31, val_main_c_5,
    val_main_c_6]

/-- The kernel's scale array is the reference's. -/
private theorem scaleColK_eq (x6 : IVec Cert.ReferenceIdeal.S2x1600000 32) :
    broadcastInDim Cert.KernelIdeal.S50000x10 ![0, 1] Cert.KernelIdeal.Gen.bcast_S50000x1_S50000x10_0_1
        (broadcastInDim Cert.KernelIdeal.S50000x1 ![0] Cert.KernelIdeal.Gen.bcast_S50000_S50000x1_0 (val_main_v11 (F := Ideal) x6))
      = val_main_v42 (F := Ideal) x6 := by
  rw [val_main_v42, val_main_v41]

/-- The kernel's row-take record is the row-take dimension numbers. -/
private theorem gatherK_eq :
    (Cert.KernelIdeal.gather_S50000x10_S1600000x1_S1600000x10_1_0_n_n_0_1_110 : GatherDims Cert.KernelIdeal.S50000x10 Cert.KernelIdeal.S1600000x1 Cert.KernelIdeal.S1600000x10)
      = GatherRows.rowDims 50000 10 1600000 Cert.ReferenceIdeal.Facts₀.gather_S50000x10_S1600000x1_S1600000x10_1_0_n_n_0_1_110_wf := rfl

/-- The kernel's row scatter record is the row scatter dimension numbers. -/
private theorem scatterK_eq :
    (Cert.KernelIdeal.scatter_S50000x10_S1600000x1_S1600000x10_1_0_0_1 : ScatterDims Cert.KernelIdeal.S50000x10 Cert.KernelIdeal.S1600000x1 Cert.KernelIdeal.S1600000x10)
      = ScatterAddRows.rowDims 50000 10 1600000 Cert.ReferenceIdeal.Facts₀.scatter_S50000x10_S1600000x1_S1600000x10_1_0_0_1_wf := rfl

/-- The reference's scaled aggregate read at an index. -/
private theorem agg10_at (P : FVec Ideal Cert.ReferenceIdeal.S50000x10 .f32) (x6 : IVec Cert.ReferenceIdeal.S2x1600000 32) (i : Cert.ReferenceIdeal.S50000x10.Idx) :
    agg10 P x6 i
      = Ideal.hostScatterAdd (ScatterAddRows.rowDims 50000 10 1600000 Cert.ReferenceIdeal.Facts₀.scatter_S50000x10_S1600000x1_S1600000x10_1_0_0_1_wf)
            (val_main_v38 (F := Ideal)) (val_main_v39 (F := Ideal) x6)
            (Host.gather (GatherRows.rowDims 50000 10 1600000 Cert.ReferenceIdeal.Facts₀.gather_S50000x10_S1600000x1_S1600000x10_1_0_n_n_0_1_110_wf) P (val_main_v36 (F := Ideal) x6)) i
          * val_main_v42 (F := Ideal) x6 i := rfl

/-- The source-node numbers, as the programs read them off the edge array's first row, are rows of the node table. -/
theorem src_in_range (x6 : IVec Cert.ReferenceIdeal.S2x1600000 32)
    (h : ∀ e : Fin 1600000, 0 ≤ (x6 (ix2 (⟨0, by decide⟩ : Fin 2) e)).toInt ∧ (x6 (ix2 (⟨0, by decide⟩ : Fin 2) e)).toInt < 50000) :
    ∀ e : Fin 1600000, 0 ≤ (val_main_v1 (F := Ideal) x6 (ix1 e)).toInt ∧ (val_main_v1 (F := Ideal) x6 (ix1 e)).toInt < 50000 := by
  intro e
  -- the reshape reads position e of the one-row slice, and the slice reads entry (0, e) of the edge array
  have hv : val_main_v1 (F := Ideal) x6 (ix1 e) = x6 (ix2 (⟨0, by decide⟩ : Fin 2) e) := by
    rw [val_main_v1_apply, val_main_v0_apply]
    refine congrArg x6 (funext fun a => Fin.ext (by
      match a with
      | ⟨0, _⟩ => rfl
      | ⟨1, _⟩ =>
        show e.val % 1600000 = e.val
        exact Nat.mod_eq_of_lt e.isLt))
  rw [hv]
  exact h e

/-- With the source numbers in range, the kernel's scaled aggregate of a take is the reference's scaled aggregate. -/
theorem scaleAgg_take (P : FVec Ideal Cert.ReferenceIdeal.S50000x10 .f32) (x6 : IVec Cert.ReferenceIdeal.S2x1600000 32)
    (hsrc : ∀ e : Fin 1600000, 0 ≤ (val_main_v1 (F := Ideal) x6 (ix1 e)).toInt ∧ (val_main_v1 (F := Ideal) x6 (ix1 e)).toInt < 50000) :
    scaleAgg (takeFill P (val_main_v1 (F := Ideal) x6)) (val_main_v3 (F := Ideal) x6) (val_main_v11 (F := Ideal) x6)
      = agg10 P x6 := by
  -- no fill word is selected: the take is the gather
  rw [takeFill_eq_gather P _ hsrc]
  funext i
  rw [scaleAgg, mulf_apply, agg10_at, Host.scatterAdd, Ideal.hostScatterAdd_def, zerosK_eq, dstColK_eq, srcColK_eq,
    scaleColK_eq, gatherK_eq, scatterK_eq]

/-- The kernel's first layer is the reference's first layer read "project, then aggregate". -/
theorem kLayer1_eq (x0 : FVec Ideal Cert.ReferenceIdeal.S50000x128 .f32) (x1 x2 : FVec Ideal Cert.ReferenceIdeal.S10x128 .f32)
    (x6 : IVec Cert.ReferenceIdeal.S2x1600000 32)
    (hsrc : ∀ e : Fin 1600000, 0 ≤ (val_main_v1 (F := Ideal) x6 (ix1 e)).toInt ∧ (val_main_v1 (F := Ideal) x6 (ix1 e)).toInt < 50000) :
    kLayer1 x0 x1 x2 x6 = layer1 x0 x1 x2 x6 := by
  rw [kLayer1, layer1, scaleAgg_take _ x6 hsrc]

/-- The kernel's second layer is the reference's second layer read "project, then aggregate". -/
theorem kLayer2_eq (h1 : FVec Ideal Cert.ReferenceIdeal.S50000x10 .f32) (x3 x4 : FVec Ideal Cert.ReferenceIdeal.S10x10 .f32)
    (x6 : IVec Cert.ReferenceIdeal.S2x1600000 32)
    (hsrc : ∀ e : Fin 1600000, 0 ≤ (val_main_v1 (F := Ideal) x6 (ix1 e)).toInt ∧ (val_main_v1 (F := Ideal) x6 (ix1 e)).toInt < 50000) :
    kLayer2 h1 x3 x4 x6 = layer2 h1 x3 x4 x6 := by
  rw [kLayer2, layer2, scaleAgg_take _ x6 hsrc]

/-- UNDER THE PRECONDITION the kernel program's value is the reference's result, as functions of the arguments. -/
theorem value_eq [Cert.Pre_finite_inputs.Facts] (x0 : FVec Ideal Cert.ReferenceIdeal.S50000x128 .f32) (x1 x2 : FVec Ideal Cert.ReferenceIdeal.S10x128 .f32)
    (x3 x4 : FVec Ideal Cert.ReferenceIdeal.S10x10 .f32) (x5 : FVec Ideal Cert.ReferenceIdeal.S1x10 .f32)
    (x6 : IVec Cert.ReferenceIdeal.S2x1600000 32) (x7 : IVec Cert.ReferenceIdeal.S50000 32)
    (hpre : Cert.Pre_finite_inputs.fn (F := Ideal) x0 x1 x2 x3 x4 x5 x6 x7 = fun _ => 1#1) :
    kernelValue x0 x1 x2 x3 x4 x5 x6 x7 = val_main_v68 (F := Ideal) x0 x1 x2 x3 x4 x5 x6 x7 := by
  obtain ⟨h0, h1, h2, h3, _, _, hrow⟩ := Cert.PreFacts.of_pre x0 x1 x2 x3 x4 x5 x6 x7 hpre
  have hsrc := src_in_range x6 hrow
  obtain ⟨d, hd128, hd10⟩ := degInv_real x6
  -- both sides are the tail of the same node features
  rw [result_eq_tail, val_main_v48_eq x0 x1 x2 x3 x4 x6 h0 h1 h2 h3 d hd128 hd10 zeros128 zeros10, kernelValue,
    kLayer1_eq x0 x1 x2 x6 hsrc, kLayer2_eq _ x3 x4 x6 hsrc]

end Cert.Bridge

end
-- ==== Proof.lean ====
/-
  The certificate of a two-layer mean-aggregating graph convolution with a pooled logistic read-out.

  The kernel multiplies the node features by the layer's weight matrices in two tiled launches per layer BEFORE it gathers
  rows along the edges and adds them up per destination node; the reference gathers and adds up the wide rows first and
  multiplies afterwards.  Over the extended reals, on real inputs and with every source-node number a row of the node
  table, both orders give the same node features (a finite double sum of reals may be taken in either order, and a common
  real factor may stand inside or outside it), and the pooling and read-out tail is the same function of them.

  The three runs: the word-level and the idealized kernel programs run by their four launches' generated frames; the
  reference, which has no launch, by its generated run.  The idealization rewrote nothing, so the kernel's idealized
  program is its own text read at the extended reals.  For the value claim the idealized kernel's run is taken again
  with its result buffer named (module KernelRun), that buffer is read back through the program's stretches and launches
  as one function of the arguments (modules RegionProject, RegionCombine, KernelFold), and that function is the
  reference's result under the precondition (modules PreFacts, TakeInRange, Algebra, DotProj, DegInv, RefLayers, Bridge).
-/
import proofs.«421297_j20469814132906_3_alg».proof.Defs
import proofs.«421297_j20469814132906_3_alg».proof.Proof.Gen.Kernel
import proofs.«421297_j20469814132906_3_alg».proof.Proof.Gen.Kernel.Skeleton
import proofs.«421297_j20469814132906_3_alg».proof.Proof.Gen.Kernel.Launch
import proofs.«421297_j20469814132906_3_alg».proof.Proof.Gen.Kernel.Points
import proofs.«421297_j20469814132906_3_alg».proof.Proof.Gen.Kernel.Frame
import proofs.«421297_j20469814132906_3_alg».proof.Proof.Gen.KernelIdeal
import proofs.«421297_j20469814132906_3_alg».proof.Proof.Gen.KernelIdeal.Skeleton
import proofs.«421297_j20469814132906_3_alg».proof.Proof.Gen.KernelIdeal.Launch
import proofs.«421297_j20469814132906_3_alg».proof.Proof.Gen.KernelIdeal.Points
import proofs.«421297_j20469814132906_3_alg».proof.Proof.Gen.KernelIdeal.Frame
import proofs.«421297_j20469814132906_3_alg».proof.Proof.Gen.ReferenceIdeal
import proofs.«421297_j20469814132906_3_alg».proof.Proof.Gen.Pre_finite_inputs
import proofs.«421297_j20469814132906_3_alg».proof.Proof.Gen.ReferenceIdeal.Run
import proofs.«421297_j20469814132906_3_alg».proof.Proof.Gen.ReferenceIdeal.Read
import proofs.«421297_j20469814132906_3_alg».proof.Proof.KernelRun
import proofs.«421297_j20469814132906_3_alg».proof.Proof.KernelFold
import proofs.«421297_j20469814132906_3_alg».proof.Proof.Bridge
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no launch: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the kernel's value of those arguments:
    the kernel by its run read back through its stretches, the reference because under the precondition that value is
    its own result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Fold.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.W10_result m ρ c), (h c).2⟩) (Cert.KernelIdeal.ValueRun.run_result m ρ)
  · refine (θ_run Cert.ReferenceIdeal.defs _ _).mono (fun r h c => ⟨?_, (h c).2⟩) (Cert.ReferenceIdeal.Value.run (F := Ideal) m' ρ')
    rw [(h c).1, Cert.ReferenceIdeal.Read.val_main_v68_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.Bridge.value_eq _ _ _ _ _ _ _ _ (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
